-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x3 : Shape := ⟨2, ![100000, 3]⟩
abbrev S2x1600000 : Shape := ⟨2, ![2, 1600000]⟩
abbrev S50000 : Shape := ⟨1, ![50000]⟩
abbrev S50000x3 : Shape := ⟨2, ![50000, 3]⟩
abbrev S2x800000 : Shape := ⟨2, ![2, 800000]⟩
abbrev S23x128 : Shape := ⟨2, ![23, 128]⟩
abbrev S128 : Shape := ⟨1, ![128]⟩
abbrev S128x128 : Shape := ⟨2, ![128, 128]⟩
abbrev S256x128 : Shape := ⟨2, ![256, 128]⟩
abbrev S128x3 : Shape := ⟨2, ![128, 3]⟩
abbrev S3 : Shape := ⟨1, ![3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S23x128 : S_.BroadcastsInDim S23x128 (![] : Fin 0 → Fin S23x128.rank)
  reducesTo_S23x128_S_d0_1 : S23x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S50000 : S_.BroadcastsInDim S50000 (![] : Fin 0 → Fin S50000.rank)
  reducesTo_S50000_S_d0 : S50000.ReducesTo [0] S_

variable [Facts]

def fn_part4 {F : FTy → Type} [FloatOps F] (main_arg7 : IVec S50000 32) (main_v63 : IVec S_ 1) (main_v67 : IVec S_ 1) : IVec S_ 1 :=
  let main_v68 : IVec S_ 1 := andi main_v63 main_v67
  let main_c_26 : IVec S_ 32 := constantI S_ 32 0#32
  let main_v69 : IVec S50000 32 := broadcastInDim S50000 ![] bcast_S_S50000 main_c_26
  let main_v70 : IVec S50000 1 := cmpi .sge main_arg7 main_v69
  let main_c_27 : IVec S_ 1 := constantI S_ 1 1#1
  let main_v71 : IVec S_ 1 := (fun x v => Host.reduce IntOp.andi x v reducesTo_S50000_S_d0 h_S_) main_v70 main_c_27
  let main_v72 : IVec S_ 1 := andi main_v68 main_v71
  let main_c_28 : IVec S_ 32 := constantI S_ 32 64#32
  let main_v73 : IVec S50000 32 := broadcastInDim S50000 ![] bcast_S_S50000 main_c_28
  let main_v74 : IVec S50000 1 := cmpi .slt main_arg7 main_v73
  let main_c_29 : IVec S_ 1 := constantI S_ 1 1#1
  let main_v75 : IVec S_ 1 := (fun x v => Host.reduce IntOp.andi x v reducesTo_S50000_S_d0 h_S_) main_v74 main_c_29
  let main_v76 : IVec S_ 1 := andi main_v72 main_v75
  main_v76

def fn_part3 {F : FTy → Type} [FloatOps F] (main_arg7 : IVec S50000 32) (main_arg17 : FVec F S128 .f32) (main_arg18 : FVec F S128x3 .f32) (main_arg19 : FVec F S3 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg17
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x3 .f32 := Host.absf main_arg18
  let main_cst_22 : FVec F S_ .f32 := constant S_ .f32 0x7F800000#32
  let main_v60 : FVec F S128x3 .f32 := broadcastInDim S128x3 ![] bcast_S_S128x3 main_cst_22
  let main_v61 : IVec S128x3 1 := cmpf .olt main_v59 main_v60
  let main_c_23 : IVec S_ 1 := constantI S_ 1 1#1
  let main_v62 : IVec S_ 1 := (fun x v => Host.reduce IntOp.andi x v reducesTo_S128x3_S_d0_1 h_S_) main_v61 main_c_23
  let main_v63 : IVec S_ 1 := andi main_v58 main_v62
  let main_v64 : FVec F S3 .f32 := Host.absf main_arg19
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_arg7 main_v63 main_v67

def fn_part2 {F : FTy → Type} [FloatOps F] (main_arg7 : IVec S50000 32) (main_arg13 : FVec F S128 .f32) (main_arg14 : FVec F S128x128 .f32) (main_arg15 : FVec F S128 .f32) (main_arg16 : FVec F S256x128 .f32) (main_arg17 : FVec F S128 .f32) (main_arg18 : FVec F S128x3 .f32) (main_arg19 : FVec F S3 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg16
  let main_cst_18 : FVec F S_ .f32 := constant S_ .f32 0x7F800000#32
  let main_v50 : FVec F S256x128 .f32 := broadcastInDim S256x128 ![] bcast_S_S256x128 main_cst_18
  fn_part3 (F := F) main_arg7 main_arg17 main_arg18 main_arg19 main_v48 main_v49 main_v50

def fn_part1 {F : FTy → Type} [FloatOps F] (main_arg7 : IVec S50000 32) (main_arg10 : FVec F S128x128 .f32) (main_arg11 : FVec F S128 .f32) (main_arg12 : FVec F S23x128 .f32) (main_arg13 : FVec F S128 .f32) (main_arg14 : FVec F S128x128 .f32) (main_arg15 : FVec F S128 .f32) (main_arg16 : FVec F S256x128 .f32) (main_arg17 : FVec F S128 .f32) (main_arg18 : FVec F S128x3 .f32) (main_arg19 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S23x128 .f32 := Host.absf main_arg12
  let main_cst_10 : FVec F S_ .f32 := constant S_ .f32 0x7F800000#32
  let main_v30 : FVec F S23x128 .f32 := broadcastInDim S23x128 ![] bcast_S_S23x128 main_cst_10
  let main_v31 : IVec S23x128 1 := cmpf .olt main_v29 main_v30
  let main_c_11 : IVec S_ 1 := constantI S_ 1 1#1
  let main_v32 : IVec S_ 1 := (fun x v => Host.reduce IntOp.andi x v reducesTo_S23x128_S_d0_1 h_S_) main_v31 main_c_11
  let main_v33 : IVec S_ 1 := andi main_v28 main_v32
  fn_part2 (F := F) main_arg7 main_arg13 main_arg14 main_arg15 main_arg16 main_arg17 main_arg18 main_arg19 main_v33

def fn {F : FTy → Type} [FloatOps F] (main_arg0 : IVec S100000 32) (main_arg1 : FVec F S100000x3 .f32) (main_arg2 : IVec S2x1600000 32) (main_arg3 : IVec S100000 32) (main_arg4 : IVec S50000 32) (main_arg5 : FVec F S50000x3 .f32) (main_arg6 : IVec S2x800000 32) (main_arg7 : IVec S50000 32) (main_arg8 : FVec F S23x128 .f32) (main_arg9 : FVec F S128 .f32) (main_arg10 : FVec F S128x128 .f32) (main_arg11 : FVec F S128 .f32) (main_arg12 : FVec F S23x128 .f32) (main_arg13 : FVec F S128 .f32) (main_arg14 : FVec F S128x128 .f32) (main_arg15 : FVec F S128 .f32) (main_arg16 : FVec F S256x128 .f32) (main_arg17 : FVec F S128 .f32) (main_arg18 : FVec F S128x3 .f32) (main_arg19 : FVec F S3 .f32) : IVec S_ 1 :=
  let main_v0 : FVec F S100000x3 .f32 := Host.absf main_arg1
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S50000x3 .f32 := Host.absf main_arg5
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S23x128 .f32 := Host.absf main_arg8
  let main_cst_2 : FVec F S_ .f32 := constant S_ .f32 0x7F800000#32
  let main_v10 : FVec F S23x128 .f32 := broadcastInDim S23x128 ![] bcast_S_S23x128 main_cst_2
  let main_v11 : IVec S23x128 1 := cmpf .olt main_v9 main_v10
  let main_c_3 : IVec S_ 1 := constantI S_ 1 1#1
  let main_v12 : IVec S_ 1 := (fun x v => Host.reduce IntOp.andi x v reducesTo_S23x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg10 main_arg11 main_arg12 main_arg13 main_arg14 main_arg15 main_arg16 main_arg17 main_arg18 main_arg19 main_v13 main_v16
-- ==== Kernel.lean ====
abbrev S100000 : Shape := ⟨1, ![100000]⟩
abbrev S100000x3 : Shape := ⟨2, ![100000, 3]⟩
abbrev S2x1600000 : Shape := ⟨2, ![2, 1600000]⟩
abbrev S50000 : Shape := ⟨1, ![50000]⟩
abbrev S50000x3 : Shape := ⟨2, ![50000, 3]⟩
abbrev S2x800000 : Shape := ⟨2, ![2, 800000]⟩
abbrev S23x128 : Shape := ⟨2, ![23, 128]⟩
abbrev S128 : Shape := ⟨1, ![128]⟩
abbrev S128x128 : Shape := ⟨2, ![128, 128]⟩
abbrev S256x128 : Shape := ⟨2, ![256, 128]⟩
abbrev S128x3 : Shape := ⟨2, ![128, 3]⟩
abbrev S3 : Shape := ⟨1, ![3]⟩
abbrev S100000x1 : Shape := ⟨2, ![100000, 1]⟩
abbrev S1x20 : Shape := ⟨2, ![1, 20]⟩
abbrev S100000x20 : Shape := ⟨2, ![100000, 20]⟩
abbrev S100000x23 : Shape := ⟨2, ![100000, 23]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S5000x23 : Shape := ⟨2, ![5000, 23]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S64x128 : Shape := ⟨2, ![64, 128]⟩
abbrev S64 : Shape := ⟨1, ![64]⟩
abbrev S64x1 : Shape := ⟨2, ![64, 1]⟩
abbrev S50000x1 : Shape := ⟨2, ![50000, 1]⟩
abbrev S50000x20 : Shape := ⟨2, ![50000, 20]⟩
abbrev S50000x23 : Shape := ⟨2, ![50000, 23]⟩
abbrev S1x800000 : Shape := ⟨2, ![1, 800000]⟩
abbrev S800000 : Shape := ⟨1, ![800000]⟩
abbrev S800000x1 : Shape := ⟨2, ![800000, 1]⟩
abbrev S50000x128 : Shape := ⟨2, ![50000, 128]⟩
abbrev S800000x128 : Shape := ⟨2, ![800000, 128]⟩
abbrev S1x3 : Shape := ⟨2, ![1, 3]⟩
abbrev S5000x3 : Shape := ⟨2, ![5000, 3]⟩
abbrev S5000x64 : Shape := ⟨2, ![5000, 64]⟩
abbrev S5000x256 : Shape := ⟨2, ![5000, 256]⟩

abbrev nBuf : Space → Nat
  | .hbm => 206
  | .vmem => 59
  | .smem => 0
  | _ => 0

abbrev hbmTy0_0 (i : Nat) : BufTy := match i % 128 with
  | 0 => ⟨S100000, .i32⟩
  | 1 => ⟨S100000x3, .f32⟩
  | 2 => ⟨S2x1600000, .i32⟩
  | 3 => ⟨S100000, .i32⟩
  | 4 => ⟨S50000, .i32⟩
  | 5 => ⟨S50000x3, .f32⟩
  | 6 => ⟨S2x800000, .i32⟩
  | 7 => ⟨S50000, .i32⟩
  | 8 => ⟨S23x128, .f32⟩
  | 9 => ⟨S128, .f32⟩
  | 10 => ⟨S128x128, .f32⟩
  | 11 => ⟨S128, .f32⟩
  | 12 => ⟨S23x128, .f32⟩
  | 13 => ⟨S128, .f32⟩
  | 14 => ⟨S128x128, .f32⟩
  | 15 => ⟨S128, .f32⟩
  | 16 => ⟨S256x128, .f32⟩
  | 17 => ⟨S128, .f32⟩
  | 18 => ⟨S128x3, .f32⟩
  | 19 => ⟨S3, .f32⟩
  | 20 => ⟨S100000x1, .i32⟩
  | 21 => ⟨S1x20, .i32⟩
  | 22 => ⟨S100000x20, .i32⟩
  | 23 => ⟨S100000x20, .i32⟩
  | 24 => ⟨S100000x20, .i1⟩
  | 25 => ⟨S100000x20, .f32⟩
  | 26 => ⟨S100000x23, .f32⟩
  | 27 => ⟨S1x1600000, .i32⟩
  | 28 => ⟨S1600000, .i32⟩
  | 29 => ⟨S1x1600000, .i32⟩
  | 30 => ⟨S1600000, .i32⟩
  | 31 => ⟨S_, .f32⟩
  | 32 => ⟨S1600000, .f32⟩
  | 33 => ⟨S_, .f32⟩
  | 34 => ⟨S100000, .f32⟩
  | 35 => ⟨S1600000x1, .i32⟩
  | 36 => ⟨S100000, .f32⟩
  | 37 => ⟨S_, .f32⟩
  | 38 => ⟨S100000, .f32⟩
  | 39 => ⟨S100000, .f32⟩
  | 40 => ⟨S100000, .f32⟩
  | 41 => ⟨S_, .f32⟩
  | 42 => ⟨S100000, .f32⟩
  | 43 => ⟨S100000, .f32⟩
  | 44 => ⟨S100000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000, .f32⟩
  | 63 => ⟨S1600000, .f32⟩
  | 64 => ⟨S100000x128, .bf16⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .bf16⟩
  | 74 => ⟨S1600000x128, .f32⟩
  | 75 => ⟨S1600000x1, .f32⟩
  | 76 => ⟨S1600000x128, .f32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S1x128, .f32⟩
  | 83 => ⟨S100000x128, .bf16⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x128, .bf16⟩
  | 93 => ⟨S1600000x128, .f32⟩
  | 94 => ⟨S1600000x1, .f32⟩
  | 95 => ⟨S1600000x128, .f32⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S1x128, .f32⟩
  | 102 => ⟨S100000x128, .f32⟩
  | 103 => ⟨S_, .f32⟩
  | 104 => ⟨S64x128, .f32⟩
  | 105 => ⟨S100000x1, .i32⟩
  | 106 => ⟨S64x128, .f32⟩
  | 107 => ⟨S_, .f32⟩
  | 108 => ⟨S100000, .f32⟩
  | 109 => ⟨S_, .f32⟩
  | 110 => ⟨S64, .f32⟩
  | 111 => ⟨S100000x1, .i32⟩
  | 112 => ⟨S64, .f32⟩
  | 113 => ⟨S_, .f32⟩
  | 114 => ⟨S64, .f32⟩
  | 115 => ⟨S64, .f32⟩
  | 116 => ⟨S64x1, .f32⟩
  | 117 => ⟨S64x128, .f32⟩
  | 118 => ⟨S64x128, .f32⟩
  | 119 => ⟨S50000x1, .i32⟩
  | 120 => ⟨S1x20, .i32⟩
  | 121 => ⟨S50000x20, .i32⟩
  | 122 => ⟨S50000x20, .i32⟩
  | 123 => ⟨S50000x20, .i1⟩
  | 124 => ⟨S50000x20, .f32⟩
  | 125 => ⟨S50000x23, .f32⟩
  | 126 => ⟨S1x800000, .i32⟩
  | 127 => ⟨S800000, .i32⟩
  | _ => ⟨S100000, .i32⟩

abbrev hbmTy0_1 (i : Nat) : BufTy := match i % 128 with
  | 0 => ⟨S1x800000, .i32⟩
  | 1 => ⟨S800000, .i32⟩
  | 2 => ⟨S_, .f32⟩
  | 3 => ⟨S800000, .f32⟩
  | 4 => ⟨S_, .f32⟩
  | 5 => ⟨S50000, .f32⟩
  | 6 => ⟨S800000x1, .i32⟩
  | 7 => ⟨S50000, .f32⟩
  | 8 => ⟨S_, .f32⟩
  | 9 => ⟨S50000, .f32⟩
  | 10 => ⟨S50000, .f32⟩
  | 11 => ⟨S50000, .f32⟩
  | 12 => ⟨S_, .f32⟩
  | 13 => ⟨S50000, .f32⟩
  | 14 => ⟨S50000, .f32⟩
  | 15 => ⟨S50000x1, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S800000, .f32⟩
  | 35 => ⟨S50000x128, .bf16⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .bf16⟩
  | 45 => ⟨S800000x128, .f32⟩
  | 46 => ⟨S800000x1, .f32⟩
  | 47 => ⟨S800000x128, .f32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S1x128, .f32⟩
  | 54 => ⟨S50000x128, .bf16⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .bf16⟩
  | 64 => ⟨S800000x128, .f32⟩
  | 65 => ⟨S800000x1, .f32⟩
  | 66 => ⟨S800000x128, .f32⟩
  | 67 => ⟨S800000x128, .f32⟩
  | 68 => ⟨S_, .f32⟩
  | 69 => ⟨S50000x128, .f32⟩
  | 70 => ⟨S800000x1, .i32⟩
  | 71 => ⟨S50000x128, .f32⟩
  | 72 => ⟨S1x128, .f32⟩
  | 73 => ⟨S50000x128, .f32⟩
  | 74 => ⟨S50000x1, .i32⟩
  | 75 => ⟨S1x128, .f32⟩
  | 76 => ⟨S1x3, .f32⟩
  | 77 => ⟨S50000x3, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S5000x23, .f32⟩
  | .local _ .vmem, ⟨1, _⟩ => ⟨S5000x23, .f32⟩
  | .local _ .vmem, ⟨2, _⟩ => ⟨S23x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S5000x128, .bf16⟩
  | .local _ .vmem, ⟨8, _⟩ => ⟨S5000x128, .bf16⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x128, .bf16⟩
  | .local _ .vmem, ⟨18, _⟩ => ⟨S5000x128, .bf16⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x23, .f32⟩
  | .local _ .vmem, ⟨25, _⟩ => ⟨S5000x23, .f32⟩
  | .local _ .vmem, ⟨26, _⟩ => ⟨S23x128, .f32⟩
  | .local _ .vmem, ⟨27, _⟩ => ⟨S5000x128, .bf16⟩
  | .local _ .vmem, ⟨28, _⟩ => ⟨S5000x128, .bf16⟩
  | .local _ .vmem, ⟨29, _⟩ => ⟨S5000x128, .f32⟩
  | .local _ .vmem, ⟨30, _⟩ => ⟨S5000x128, .f32⟩
  | .local _ .vmem, ⟨31, _⟩ => ⟨S5000x128, .bf16⟩
  | .local _ .vmem, ⟨32, _⟩ => ⟨S5000x128, .bf16⟩
  | .local _ .vmem, ⟨33, _⟩ => ⟨S5000x1, .f32⟩
  | .local _ .vmem, ⟨34, _⟩ => ⟨S5000x1, .f32⟩
  | .local _ .vmem, ⟨35, _⟩ => ⟨S1x128, .f32⟩
  | .local _ .vmem, ⟨36, _⟩ => ⟨S128x128, .f32⟩
  | .local _ .vmem, ⟨37, _⟩ => ⟨S5000x128, .bf16⟩
  | .local _ .vmem, ⟨38, _⟩ => ⟨S5000x128, .bf16⟩
  | .local _ .vmem, ⟨39, _⟩ => ⟨S5000x128, .f32⟩
  | .local _ .vmem, ⟨40, _⟩ => ⟨S5000x128, .f32⟩
  | .local _ .vmem, ⟨41, _⟩ => ⟨S5000x128, .bf16⟩
  | .local _ .vmem, ⟨42, _⟩ => ⟨S5000x128, .bf16⟩
  | .local _ .vmem, ⟨43, _⟩ => ⟨S5000x1, .f32⟩
  | .local _ .vmem, ⟨44, _⟩ => ⟨S5000x1, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x1, .i32⟩
  | .local _ .vmem, ⟨51, _⟩ => ⟨S5000x1, .i32⟩
  | .local _ .vmem, ⟨52, _⟩ => ⟨S64x128, .f32⟩
  | .local _ .vmem, ⟨53, _⟩ => ⟨S256x128, .f32⟩
  | .local _ .vmem, ⟨54, _⟩ => ⟨S1x128, .f32⟩
  | .local _ .vmem, ⟨55, _⟩ => ⟨S128x3, .f32⟩
  | .local _ .vmem, ⟨56, _⟩ => ⟨S1x3, .f32⟩
  | .local _ .vmem, ⟨57, _⟩ => ⟨S5000x3, .f32⟩
  | .local _ .vmem, ⟨58, _⟩ => ⟨S5000x3, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_4 : Ref sig .tc := ⟨.hbm, 54, rfl⟩
abbrev main_v23 : Ref sig .tc := ⟨.hbm, 55, rfl⟩
abbrev main_v24 : Ref sig .tc := ⟨.hbm, 56, rfl⟩
abbrev main_c_5 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_6 : Ref sig .tc := ⟨.hbm, 65, rfl⟩
abbrev main_v32 : Ref sig .tc := ⟨.hbm, 66, rfl⟩
abbrev main_v33 : Ref sig .tc := ⟨.hbm, 67, rfl⟩
abbrev main_c_7 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_8 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_9 : Ref sig .tc := ⟨.hbm, 84, rfl⟩
abbrev main_v48 : Ref sig .tc := ⟨.hbm, 85, rfl⟩
abbrev main_v49 : Ref sig .tc := ⟨.hbm, 86, rfl⟩
abbrev main_c_10 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_11 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_12 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_13 : Ref sig .tc := ⟨.hbm, 107, rfl⟩
abbrev main_v67 : Ref sig .tc := ⟨.hbm, 108, rfl⟩
abbrev main_cst_14 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_15 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_16 : Ref sig .tc := ⟨.hbm, 130, rfl⟩
abbrev main_v82 : Ref sig .tc := ⟨.hbm, 131, rfl⟩
abbrev main_cst_17 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_cst_18 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_19 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_c_20 : Ref sig .tc := ⟨.hbm, 144, rfl⟩
abbrev main_v92 : Ref sig .tc := ⟨.hbm, 145, rfl⟩
abbrev main_v93 : Ref sig .tc := ⟨.hbm, 146, rfl⟩
abbrev main_c_21 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_c_22 : Ref sig .tc := ⟨.hbm, 153, rfl⟩
abbrev main_v99 : Ref sig .tc := ⟨.hbm, 154, rfl⟩
abbrev main_v100 : Ref sig .tc := ⟨.hbm, 155, rfl⟩
abbrev main_c_23 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_c_24 : Ref sig .tc := ⟨.hbm, 164, rfl⟩
abbrev main_v108 : Ref sig .tc := ⟨.hbm, 165, rfl⟩
abbrev main_v109 : Ref sig .tc := ⟨.hbm, 166, rfl⟩
abbrev main_c_25 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_cst_26 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_c_27 : Ref sig .tc := ⟨.hbm, 183, rfl⟩
abbrev main_v124 : Ref sig .tc := ⟨.hbm, 184, rfl⟩
abbrev main_v125 : Ref sig .tc := ⟨.hbm, 185, rfl⟩
abbrev main_c_28 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_29 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg6_0 : Ref sig .tc := ⟨.vmem, 56, rfl⟩
abbrev cc6_stg7_0 : Ref sig .tc := ⟨.vmem, 57, rfl⟩
abbrev cc6_stg7_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem5_0 : DmaSem sig := 37
abbrev cc4_sem5_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem5_0 : DmaSem sig := 55
abbrev cc6_sem6_0 : DmaSem sig := 56
abbrev cc6_sem7_0 : DmaSem sig := 57
abbrev cc6_sem7_1 : DmaSem sig := 58

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x23 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S23x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x23 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S23x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x3 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x3 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x3 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  bcast_S100000_S100000x1_0 : S100000.BroadcastsInDim S100000x1 (![0] : Fin 1 → Fin S100000x1.rank)
  bcast_S100000x1_S100000x20_0_1 : S100000x1.BroadcastsInDim S100000x20 (![0, 1] : Fin 2 → Fin S100000x20.rank)
  bcast_S1x20_S100000x20_0_1 : S1x20.BroadcastsInDim S100000x20 (![0, 1] : Fin 2 → Fin S100000x20.rank)
  concatenates_S100000x20_S100000x3_S100000x23_d1 : Shape.Concatenates [S100000x20, S100000x3] S100000x23 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x23_S5000x23_0_0 : ∀ a, (![0, 0] : Fin 2 → Nat) a + S5000x23.size a ≤ S5000x23.size a
  h_S5000x23 : 0 < S5000x23.numel
  shapeCasts_S5000x23_S5000x23 : S5000x23.ShapeCasts S5000x23
  bitsLt_bf16_f32 : FTy.bits .bf16 < FTy.bits .f32
  inb_S23x128_S23x128_0_0 : ∀ a, (![0, 0] : Fin 2 → Nat) a + S23x128.size a ≤ S23x128.size a
  h_S23x128 : 0 < S23x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S50000_S50000x1_0 : S50000.BroadcastsInDim S50000x1 (![0] : Fin 1 → Fin S50000x1.rank)
  bcast_S50000x1_S50000x20_0_1 : S50000x1.BroadcastsInDim S50000x20 (![0, 1] : Fin 2 → Fin S50000x20.rank)
  bcast_S1x20_S50000x20_0_1 : S1x20.BroadcastsInDim S50000x20 (![0, 1] : Fin 2 → Fin S50000x20.rank)
  concatenates_S50000x20_S50000x3_S50000x23_d1 : Shape.Concatenates [S50000x20, S50000x3] S50000x23 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S3_S1x3 : S3.ShapeCasts S1x3
  iota_S5000x64_d1_w32 : S5000x64.Iotas .tc 32 [1]
  broadcasts_S5000x1_S5000x64 : S5000x1.Broadcasts S5000x64
  natLt_1_32 : 1 < 32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x23_S23x128_S5000x128_1_0_0_1_n_n_wf : DotDims.WF S5000x23 S23x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x64_S64x128_S5000x128_1_0_0_1_n_n_wf : DotDims.WF S5000x64 S64x128 S5000x128 [1] [0] [0] [1] [] []
  dot_S5000x256_S256x128_S5000x128_1_0_0_1_n_n_wf : DotDims.WF S5000x256 S256x128 S5000x128 [1] [0] [0] [1] [] []
  dot_S5000x128_S128x3_S5000x3_1_0_0_1_n_n_wf : DotDims.WF S5000x128 S128x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x23.size a ≤ S100000x23.size a
  hwx0_0 : ∀ i : grid0.Coords, EltTy.bits .f32 = 32 ∨ (Rect.block (s := S100000x23) S5000x23.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S23x128.size a ≤ S23x128.size a
  hwx0_1 : ∀ i : grid0.Coords, EltTy.bits .f32 = 32 ∨ (Rect.block (s := S23x128) S23x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .bf16 = 32 ∨ (Rect.block (s := S100000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .bf16 = 32 ∨ (Rect.block (s := S100000x128) S5000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x23.size a ≤ S50000x23.size a
  hwx3_0 : ∀ i : grid3.Coords, EltTy.bits .f32 = 32 ∨ (Rect.block (s := S50000x23) S5000x23.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S23x128.size a ≤ S23x128.size a
  hwx3_1 : ∀ i : grid3.Coords, EltTy.bits .f32 = 32 ∨ (Rect.block (s := S23x128) S23x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .bf16 = 32 ∨ (Rect.block (s := S50000x128) S5000x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .bf16 = 32 ∨ (Rect.block (s := S50000x128) S5000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .bf16 = 32 ∨ (Rect.block (s := S50000x128) S5000x128.size (cc4_transform_5 i) (hinb4_5 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .bf16 = 32 ∨ (Rect.block (s := S50000x128) S5000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .i32 = 32 ∨ (Rect.block (s := S50000x1) S5000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x128.size a ≤ S256x128.size a
  hwx6_3 : ∀ i : grid6.Coords, EltTy.bits .f32 = 32 ∨ (Rect.block (s := S256x128) S256x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x3.size a ≤ S128x3.size a
  hwx6_5 : ∀ i : grid6.Coords, EltTy.bits .f32 = 32 ∨ (Rect.block (s := S128x3) S128x3.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x3.size a ≤ S1x3.size a
  hwx6_6 : ∀ i : grid6.Coords, EltTy.bits .f32 = 32 ∨ (Rect.block (s := S1x3) S1x3.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x3.size a ≤ S50000x3.size a
  hwx6_7 : ∀ i : grid6.Coords, EltTy.bits .f32 = 32 ∨ (Rect.block (s := S50000x3) S5000x3.size (cc6_transform_7 i) (hinb6_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x23_S23x128_S5000x128_1_0_0_1_n_n : DotDims S5000x23 S23x128 S5000x128 where
  lhsContracting := [1]
  rhsContracting := [0]
  lhsNonContracting := [0]
  rhsNonContracting := [1]
  lhsBatch := []
  rhsBatch := []
  wf := dot_S5000x23_S23x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf

abbrev win0_0 : Pipeline.Window sig grid0 :=
  Pipeline.Window.ofSpec (Memref.whole main_v1) S5000x23.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S23x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v77) S5000x23.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S23x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v107) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v121) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v107) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v91) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v122) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v123) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v137) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v123) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v91) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v138) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v139) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v139) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v140) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v75) S64x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg16) S256x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v141) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg18) S128x3.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v142) S1x3.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v143) S5000x3.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000 : Shape := ⟨1, ![100000]⟩
abbrev S100000x3 : Shape := ⟨2, ![100000, 3]⟩
abbrev S2x1600000 : Shape := ⟨2, ![2, 1600000]⟩
abbrev S50000 : Shape := ⟨1, ![50000]⟩
abbrev S50000x3 : Shape := ⟨2, ![50000, 3]⟩
abbrev S2x800000 : Shape := ⟨2, ![2, 800000]⟩
abbrev S23x128 : Shape := ⟨2, ![23, 128]⟩
abbrev S128 : Shape := ⟨1, ![128]⟩
abbrev S128x128 : Shape := ⟨2, ![128, 128]⟩
abbrev S256x128 : Shape := ⟨2, ![256, 128]⟩
abbrev S128x3 : Shape := ⟨2, ![128, 3]⟩
abbrev S3 : Shape := ⟨1, ![3]⟩
abbrev S100000x1 : Shape := ⟨2, ![100000, 1]⟩
abbrev S1x20 : Shape := ⟨2, ![1, 20]⟩
abbrev S100000x20 : Shape := ⟨2, ![100000, 20]⟩
abbrev S100000x23 : Shape := ⟨2, ![100000, 23]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S1600000x128 : Shape := ⟨2, ![1600000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S50000x1 : Shape := ⟨2, ![50000, 1]⟩
abbrev S50000x20 : Shape := ⟨2, ![50000, 20]⟩
abbrev S50000x23 : Shape := ⟨2, ![50000, 23]⟩
abbrev S1x800000 : Shape := ⟨2, ![1, 800000]⟩
abbrev S800000 : Shape := ⟨1, ![800000]⟩
abbrev S800000x1 : Shape := ⟨2, ![800000, 1]⟩
abbrev S50000x128 : Shape := ⟨2, ![50000, 128]⟩
abbrev S800000x128 : Shape := ⟨2, ![800000, 128]⟩
abbrev S50000x256 : Shape := ⟨2, ![50000, 256]⟩
abbrev S1x3 : Shape := ⟨2, ![1, 3]⟩

abbrev nBuf : Space → Nat
  | .hbm => 303
  | .vmem => 0
  | .smem => 0
  | _ => 0

abbrev hbmTy0_0 (i : Nat) : BufTy := match i % 128 with
  | 0 => ⟨S100000, .i32⟩
  | 1 => ⟨S100000x3, .f32⟩
  | 2 => ⟨S2x1600000, .i32⟩
  | 3 => ⟨S100000, .i32⟩
  | 4 => ⟨S50000, .i32⟩
  | 5 => ⟨S50000x3, .f32⟩
  | 6 => ⟨S2x800000, .i32⟩
  | 7 => ⟨S50000, .i32⟩
  | 8 => ⟨S23x128, .f32⟩
  | 9 => ⟨S128, .f32⟩
  | 10 => ⟨S128x128, .f32⟩
  | 11 => ⟨S128, .f32⟩
  | 12 => ⟨S23x128, .f32⟩
  | 13 => ⟨S128, .f32⟩
  | 14 => ⟨S128x128, .f32⟩
  | 15 => ⟨S128, .f32⟩
  | 16 => ⟨S256x128, .f32⟩
  | 17 => ⟨S128, .f32⟩
  | 18 => ⟨S128x3, .f32⟩
  | 19 => ⟨S3, .f32⟩
  | 20 => ⟨S100000x1, .i32⟩
  | 21 => ⟨S1x20, .i32⟩
  | 22 => ⟨S100000x20, .i32⟩
  | 23 => ⟨S100000x20, .i32⟩
  | 24 => ⟨S100000x20, .i1⟩
  | 25 => ⟨S100000x20, .f32⟩
  | 26 => ⟨S100000x23, .f32⟩
  | 27 => ⟨S1x1600000, .i32⟩
  | 28 => ⟨S1600000, .i32⟩
  | 29 => ⟨S1x1600000, .i32⟩
  | 30 => ⟨S1600000, .i32⟩
  | 31 => ⟨S_, .f32⟩
  | 32 => ⟨S1600000, .f32⟩
  | 33 => ⟨S_, .f32⟩
  | 34 => ⟨S100000, .f32⟩
  | 35 => ⟨S1600000x1, .i32⟩
  | 36 => ⟨S100000, .f32⟩
  | 37 => ⟨S_, .f32⟩
  | 38 => ⟨S100000, .f32⟩
  | 39 => ⟨S100000, .f32⟩
  | 40 => ⟨S100000, .f32⟩
  | 41 => ⟨S100000x128, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000, .f32⟩
  | 60 => ⟨S1600000, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S1600000x1, .f32⟩
  | 71 => ⟨S1600000x128, .f32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000x1, .f32⟩
  | 78 => ⟨S100000x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S_, .f32⟩
  | 88 => ⟨S1600000, .f32⟩
  | 89 => ⟨S_, .f32⟩
  | 90 => ⟨S100000, .f32⟩
  | 91 => ⟨S1600000x1, .i32⟩
  | 92 => ⟨S100000, .f32⟩
  | 93 => ⟨S_, .f32⟩
  | 94 => ⟨S100000, .f32⟩
  | 95 => ⟨S100000, .f32⟩
  | 96 => ⟨S100000, .f32⟩
  | 97 => ⟨S100000x128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000, .f32⟩
  | 116 => ⟨S1600000, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x128, .f32⟩
  | 126 => ⟨S1600000x1, .f32⟩
  | 127 => ⟨S1600000x128, .f32⟩
  | _ => ⟨S100000, .i32⟩

abbrev hbmTy0_1 (i : Nat) : BufTy := match i % 128 with
  | 0 => ⟨S1600000x128, .f32⟩
  | 1 => ⟨S_, .f32⟩
  | 2 => ⟨S100000x128, .f32⟩
  | 3 => ⟨S1600000x1, .i32⟩
  | 4 => ⟨S100000x128, .f32⟩
  | 5 => ⟨S100000x1, .f32⟩
  | 6 => ⟨S100000x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S_, .f32⟩
  | 16 => ⟨S64x128, .f32⟩
  | 17 => ⟨S100000x1, .i32⟩
  | 18 => ⟨S64x128, .f32⟩
  | 19 => ⟨S_, .f32⟩
  | 20 => ⟨S100000, .f32⟩
  | 21 => ⟨S_, .f32⟩
  | 22 => ⟨S64, .f32⟩
  | 23 => ⟨S100000x1, .i32⟩
  | 24 => ⟨S64, .f32⟩
  | 25 => ⟨S_, .f32⟩
  | 26 => ⟨S64, .f32⟩
  | 27 => ⟨S64, .f32⟩
  | 28 => ⟨S64x1, .f32⟩
  | 29 => ⟨S64x128, .f32⟩
  | 30 => ⟨S64x128, .f32⟩
  | 31 => ⟨S50000x1, .i32⟩
  | 32 => ⟨S1x20, .i32⟩
  | 33 => ⟨S50000x20, .i32⟩
  | 34 => ⟨S50000x20, .i32⟩
  | 35 => ⟨S50000x20, .i1⟩
  | 36 => ⟨S50000x20, .f32⟩
  | 37 => ⟨S50000x23, .f32⟩
  | 38 => ⟨S1x800000, .i32⟩
  | 39 => ⟨S800000, .i32⟩
  | 40 => ⟨S1x800000, .i32⟩
  | 41 => ⟨S800000, .i32⟩
  | 42 => ⟨S_, .f32⟩
  | 43 => ⟨S800000, .f32⟩
  | 44 => ⟨S_, .f32⟩
  | 45 => ⟨S50000, .f32⟩
  | 46 => ⟨S800000x1, .i32⟩
  | 47 => ⟨S50000, .f32⟩
  | 48 => ⟨S_, .f32⟩
  | 49 => ⟨S50000, .f32⟩
  | 50 => ⟨S50000, .f32⟩
  | 51 => ⟨S50000, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000, .f32⟩
  | 71 => ⟨S800000, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S800000x1, .f32⟩
  | 82 => ⟨S800000x128, .f32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S50000x1, .f32⟩
  | 89 => ⟨S50000x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S_, .f32⟩
  | 99 => ⟨S800000, .f32⟩
  | 100 => ⟨S_, .f32⟩
  | 101 => ⟨S50000, .f32⟩
  | 102 => ⟨S800000x1, .i32⟩
  | 103 => ⟨S50000, .f32⟩
  | 104 => ⟨S_, .f32⟩
  | 105 => ⟨S50000, .f32⟩
  | 106 => ⟨S50000, .f32⟩
  | 107 => ⟨S50000, .f32⟩
  | 108 => ⟨S50000x128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000, .f32⟩
  | 127 => ⟨S800000, .f32⟩
  | _ => ⟨S100000, .i32⟩

abbrev hbmTy0_2 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x128, .f32⟩
  | 9 => ⟨S800000x1, .f32⟩
  | 10 => ⟨S800000x128, .f32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S50000x1, .f32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x128, .f32⟩
  | 35 => ⟨S50000x256, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S50000x3, .f32⟩
  | 44 => ⟨S1x3, .f32⟩
  | 45 => ⟨S50000x3, .f32⟩
  | 46 => ⟨S50000x3, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c : Ref sig .tc := ⟨.hbm, 42, rfl⟩
abbrev main_v14 : Ref sig .tc := ⟨.hbm, 43, rfl⟩
abbrev main_v15 : Ref sig .tc := ⟨.hbm, 44, rfl⟩
abbrev main_c_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_3 : Ref sig .tc := ⟨.hbm, 51, rfl⟩
abbrev main_v21 : Ref sig .tc := ⟨.hbm, 52, rfl⟩
abbrev main_v22 : Ref sig .tc := ⟨.hbm, 53, rfl⟩
abbrev main_c_4 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_5 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_7 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call1_cst : Ref sig .tc := ⟨.hbm, 84, rfl⟩
abbrev main_call1_v0 : Ref sig .tc := ⟨.hbm, 85, rfl⟩
abbrev main_v49 : Ref sig .tc := ⟨.hbm, 86, rfl⟩
abbrev main_cst_8 : Ref sig .tc := ⟨.hbm, 87, rfl⟩
abbrev main_v50 : Ref sig .tc := ⟨.hbm, 88, rfl⟩
abbrev main_cst_9 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_10 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_11 : Ref sig .tc := ⟨.hbm, 98, rfl⟩
abbrev main_v58 : Ref sig .tc := ⟨.hbm, 99, rfl⟩
abbrev main_v59 : Ref sig .tc := ⟨.hbm, 100, rfl⟩
abbrev main_c_12 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_c_13 : Ref sig .tc := ⟨.hbm, 107, rfl⟩
abbrev main_v65 : Ref sig .tc := ⟨.hbm, 108, rfl⟩
abbrev main_v66 : Ref sig .tc := ⟨.hbm, 109, rfl⟩
abbrev main_c_14 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_c_15 : Ref sig .tc := ⟨.hbm, 117, rfl⟩
abbrev main_v73 : Ref sig .tc := ⟨.hbm, 118, rfl⟩
abbrev main_v74 : Ref sig .tc := ⟨.hbm, 119, rfl⟩
abbrev main_c_16 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_17 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_call2_cst : Ref sig .tc := ⟨.hbm, 140, rfl⟩
abbrev main_call2_v0 : Ref sig .tc := ⟨.hbm, 141, rfl⟩
abbrev main_v93 : Ref sig .tc := ⟨.hbm, 142, rfl⟩
abbrev main_cst_18 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_19 : Ref sig .tc := ⟨.hbm, 147, rfl⟩
abbrev main_v97 : Ref sig .tc := ⟨.hbm, 148, rfl⟩
abbrev main_cst_20 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_21 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_22 : Ref sig .tc := ⟨.hbm, 170, rfl⟩
abbrev main_v112 : Ref sig .tc := ⟨.hbm, 171, rfl⟩
abbrev main_cst_23 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_cst_24 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_c_25 : Ref sig .tc := ⟨.hbm, 181, rfl⟩
abbrev main_v120 : Ref sig .tc := ⟨.hbm, 182, rfl⟩
abbrev main_v121 : Ref sig .tc := ⟨.hbm, 183, rfl⟩
abbrev main_c_26 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_c_27 : Ref sig .tc := ⟨.hbm, 190, rfl⟩
abbrev main_v127 : Ref sig .tc := ⟨.hbm, 191, rfl⟩
abbrev main_v128 : Ref sig .tc := ⟨.hbm, 192, rfl⟩
abbrev main_c_28 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_c_29 : Ref sig .tc := ⟨.hbm, 200, rfl⟩
abbrev main_v135 : Ref sig .tc := ⟨.hbm, 201, rfl⟩
abbrev main_v136 : Ref sig .tc := ⟨.hbm, 202, rfl⟩
abbrev main_c_30 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_cst_31 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_call4_cst : Ref sig .tc := ⟨.hbm, 223, rfl⟩
abbrev main_call4_v0 : Ref sig .tc := ⟨.hbm, 224, rfl⟩
abbrev main_v155 : Ref sig .tc := ⟨.hbm, 225, rfl⟩
abbrev main_cst_32 : Ref sig .tc := ⟨.hbm, 226, rfl⟩
abbrev main_v156 : Ref sig .tc := ⟨.hbm, 227, rfl⟩
abbrev main_cst_33 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_cst_34 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_c_35 : Ref sig .tc := ⟨.hbm, 237, rfl⟩
abbrev main_v164 : Ref sig .tc := ⟨.hbm, 238, rfl⟩
abbrev main_v165 : Ref sig .tc := ⟨.hbm, 239, rfl⟩
abbrev main_c_36 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_c_37 : Ref sig .tc := ⟨.hbm, 246, rfl⟩
abbrev main_v171 : Ref sig .tc := ⟨.hbm, 247, rfl⟩
abbrev main_v172 : Ref sig .tc := ⟨.hbm, 248, rfl⟩
abbrev main_c_38 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_c_39 : Ref sig .tc := ⟨.hbm, 256, rfl⟩
abbrev main_v179 : Ref sig .tc := ⟨.hbm, 257, rfl⟩
abbrev main_v180 : Ref sig .tc := ⟨.hbm, 258, rfl⟩
abbrev main_c_40 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_cst_41 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_call5_cst : Ref sig .tc := ⟨.hbm, 279, rfl⟩
abbrev main_call5_v0 : Ref sig .tc := ⟨.hbm, 280, rfl⟩
abbrev main_v199 : Ref sig .tc := ⟨.hbm, 281, rfl⟩
abbrev main_c_42 : Ref sig .tc := ⟨.hbm, 282, rfl⟩
abbrev main_v200 : Ref sig .tc := ⟨.hbm, 283, rfl⟩
abbrev main_v201 : Ref sig .tc := ⟨.hbm, 284, rfl⟩
abbrev main_c_43 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_call6_cst : Ref sig .tc := ⟨.hbm, 296, rfl⟩
abbrev main_call6_v0 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S100000x1_S100000x20_0_1 : S100000x1.BroadcastsInDim S100000x20 (![0, 1] : Fin 2 → Fin S100000x20.rank)
  bcast_S1x20_S100000x20_0_1 : S1x20.BroadcastsInDim S100000x20 (![0, 1] : Fin 2 → Fin S100000x20.rank)
  concatenates_S100000x20_S100000x3_S100000x23_d1 : Shape.Concatenates [S100000x20, S100000x3] S100000x23 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S50000_S50000x1_0 : S50000.BroadcastsInDim S50000x1 (![0] : Fin 1 → Fin S50000x1.rank)
  bcast_S50000x1_S50000x20_0_1 : S50000x1.BroadcastsInDim S50000x20 (![0, 1] : Fin 2 → Fin S50000x20.rank)
  bcast_S1x20_S50000x20_0_1 : S1x20.BroadcastsInDim S50000x20 (![0, 1] : Fin 2 → Fin S50000x20.rank)
  concatenates_S50000x20_S50000x3_S50000x23_d1 : Shape.Concatenates [S50000x20, S50000x3] S50000x23 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  scatter_S100000_S1600000x1_S1600000_n_0_0_1_wf : ScatterDims.WF S100000 S1600000x1 S1600000 [] [0] [0] 1
  dot_S100000x23_S23x128_S100000x128_1_0_0_1_n_n_wf : DotDims.WF S100000x23 S23x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  scatter_S50000_S800000x1_S800000_n_0_0_1_wf : ScatterDims.WF S50000 S800000x1 S800000 [] [0] [0] 1
  dot_S50000x23_S23x128_S50000x128_1_0_0_1_n_n_wf : DotDims.WF S50000x23 S23x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  gather_S64x128_S50000x1_S50000x128_1_0_n_n_0_1_1128_wf : GatherDims.WF S64x128 S50000x1 S50000x128 [1] [0] [] [0] [] 1 ![1, 128]
  dot_S50000x256_S256x128_S50000x128_1_0_0_1_n_n_wf : DotDims.WF S50000x256 S256x128 S50000x128 [1] [0] [0] [1] [] []
  dot_S50000x128_S128x3_S50000x3_1_0_0_1_n_n_wf : DotDims.WF S50000x128 S128x3 S50000x3 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x23_S23x128_S100000x128_1_0_0_1_n_n : DotDims S100000x23 S23x128 S100000x128 where
  lhsContracting := [1]
  rhsContracting := [0]
  lhsNonContracting := [0]
  rhsNonContracting := [1]
  lhsBatch := []
  rhsBatch := []
  wf := dot_S100000x23_S23x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x23_S23x128_S50000x128_1_0_0_1_n_n : DotDims S50000x23 S23x128 S50000x128 where
  lhsContracting := [1]
  rhsContracting := [0]
  lhsNonContracting := [0]
  rhsNonContracting := [1]
  lhsBatch := []
  rhsBatch := []
  wf := dot_S50000x23_S23x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.RefOps.lean ====
/-
  The reference's building blocks as whole-array functions at the ideal instance, over the reference program's
  own dimension records, so that each stage of the reference is one of these applied to earlier stages:

  * the feature products x · W of the two graph convolutions on each graph;
  * the finish of a convolution layer: relu (agg + xw / deg + b), the degree divided row by row, the bias added
    column by column;
  * the head on the small-molecule graph: each node reads its graph's row of the pooled protein table (a negative
    graph number first raised by 64, as indexing does), joins it to its own features, and passes through two
    affine maps with a relu between them.
-/
import proofs.«429129_j3384434230027_2_alg».proof.Proof.Gen.ReferenceIdeal
import Idealize.ShloMosaic.PureOps.Ideal

noncomputable section

namespace Cert.RefOps

open Idealize.ShloMosaic Cert.ReferenceIdeal Cert.ReferenceIdeal.Facts₀ Cert.ReferenceIdeal.Facts

/-- x · W for the first layer on the protein graph: 100000 nodes, 23 input features. -/
def matP1 (x : FVec Ideal S100000x23 .f32) (w : FVec Ideal S23x128 .f32) : FVec Ideal S100000x128 .f32 :=
  Host.dotGeneral dot_S100000x23_S23x128_S100000x128_1_0_0_1_n_n none x w

/-- h · W for the second layer on the protein graph. -/
def matP2 (h : FVec Ideal S100000x128 .f32) (w : FVec Ideal S128x128 .f32) : FVec Ideal S100000x128 .f32 :=
  Host.dotGeneral dot_S100000x128_S128x128_S100000x128_1_0_0_1_n_n none h w

/-- x · W for the first layer on the small-molecule graph: 50000 nodes. -/
def matM1 (x : FVec Ideal S50000x23 .f32) (w : FVec Ideal S23x128 .f32) : FVec Ideal S50000x128 .f32 :=
  Host.dotGeneral dot_S50000x23_S23x128_S50000x128_1_0_0_1_n_n none x w

/-- h · W for the second layer on the small-molecule graph. -/
def matM2 (h : FVec Ideal S50000x128 .f32) (w : FVec Ideal S128x128 .f32) : FVec Ideal S50000x128 .f32 :=
  Host.dotGeneral dot_S50000x128_S128x128_S50000x128_1_0_0_1_n_n none h w

/-- The finish of a layer on the protein graph: relu (agg + xw / deg + b), row r divided by deg r, column k
    shifted by b k. -/
def finishP (agg xw : FVec Ideal S100000x128 .f32) (deg : FVec Ideal S100000 .f32) (b : FVec Ideal S128 .f32) :
    FVec Ideal S100000x128 .f32 :=
  maximumf
    (addf
      (addf agg (Host.divf xw (broadcastInDim S100000x128 ![0, 1] bcast_S100000x1_S100000x128_0_1
        (broadcastInDim S100000x1 ![0] bcast_S100000_S100000x1_0 deg))))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The finish of a layer on the small-molecule graph. -/
def finishM (agg xw : FVec Ideal S50000x128 .f32) (deg : FVec Ideal S50000 .f32) (b : FVec Ideal S128 .f32) :
    FVec Ideal S50000x128 .f32 :=
  maximumf
    (addf
      (addf agg (Host.divf xw (broadcastInDim S50000x128 ![0, 1] bcast_S50000x1_S50000x128_0_1
        (broadcastInDim S50000x1 ![0] bcast_S50000_S50000x1_0 deg))))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- The degree of each protein-graph node: one (the self-loop) more than the number of edges whose destination
    column, given as start indices, names the node. -/
def degP (dst1 : IVec S1600000x1 32) : FVec Ideal S100000 .f32 :=
  addf
    (Host.scatterAdd scatter_S100000_S1600000x1_S1600000_n_0_0_1
      (broadcastInDim S100000 ![] bcast_S_S100000 (constant (F := Ideal) S_ .f32 0x00000000#32)) dst1
      (broadcastInDim S1600000 ![] bcast_S_S1600000 (constant (F := Ideal) S_ .f32 0x3F800000#32)))
    (broadcastInDim S100000 ![] bcast_S_S100000 (constant (F := Ideal) S_ .f32 0x3F800000#32))

/-- The degree of each small-molecule-graph node. -/
def degM (dst1 : IVec S800000x1 32) : FVec Ideal S50000 .f32 :=
  addf
    (Host.scatterAdd scatter_S50000_S800000x1_S800000_n_0_0_1
      (broadcastInDim S50000 ![] bcast_S_S50000 (constant (F := Ideal) S_ .f32 0x00000000#32)) dst1
      (broadcastInDim S800000 ![] bcast_S_S800000 (constant (F := Ideal) S_ .f32 0x3F800000#32)))
    (broadcastInDim S50000 ![] bcast_S_S50000 (constant (F := Ideal) S_ .f32 0x3F800000#32))

/-- The start indices the head's row read uses: a negative graph number raised by 64, as a column. -/
def wrap64 (bm : IVec S50000 32) : IVec S50000x1 32 :=
  broadcastInDim S50000x1 ![0] bcast_S50000_S50000x1_0
    (select (cmpi .slt bm (broadcastInDim S50000 ![] bcast_S_S50000 (constantI S_ 32 0#32)))
      (addi bm (broadcastInDim S50000 ![] bcast_S_S50000 (constantI S_ 32 64#32))) bm)

/-- The head: ctx r = pe (graph of r); out = relu ([h, ctx] · W1 + b1) · W2 + b2. -/
def headM (h : FVec Ideal S50000x128 .f32) (pe : FVec Ideal S64x128 .f32) (bm : IVec S50000 32)
    (w1 : FVec Ideal S256x128 .f32) (b1 : FVec Ideal S128 .f32) (w2 : FVec Ideal S128x3 .f32) (b2 : FVec Ideal S3 .f32) :
    FVec Ideal S50000x3 .f32 :=
  addf
    (Host.dotGeneral dot_S50000x128_S128x3_S50000x3_1_0_0_1_n_n none
      (maximumf
        (addf
          (Host.dotGeneral dot_S50000x256_S256x128_S50000x128_1_0_0_1_n_n none
            (concatenate S50000x256 1
              [⟨S50000x128, h⟩, ⟨S50000x128, Host.gather gather_S64x128_S50000x1_S50000x128_1_0_n_n_0_1_1128 pe (wrap64 bm)⟩]
              concatenates_S50000x128_S50000x128_S50000x256_d1)
            w1)
          (broadcastInDim S50000x128 ![0, 1] bcast_S1x128_S50000x128_0_1 (broadcastInDim S1x128 ![1] bcast_S128_S1x128_1 b1)))
        (broadcastInDim S50000x128 ![] bcast_S_S50000x128 (constant (F := Ideal) S_ .f32 0x00000000#32)))
      w2)
    (broadcastInDim S50000x3 ![0, 1] bcast_S1x3_S50000x3_0_1 (broadcastInDim S1x3 ![1] bcast_S3_S1x3_1 b2))

end Cert.RefOps

end
-- ==== Proof.Forward.lean ====
/-
  The whole computation as one function of the twenty arguments, built from the reference's own operations:
  on each graph, node features, then two graph convolutions (x · W, the edge-weighted aggregate, the finish);
  the protein graph's node features averaged per graph into a 64-row table; and the head on the small-molecule graph.
  The reference recomputes the degrees and the edge coefficients in each layer from the same edge index by the same
  operations: one function of the edge index serves both layers here.
-/
import proofs.«429129_j3384434230027_2_alg».proof.Proof.RefOps

noncomputable section

namespace Cert.Forward

open Idealize.ShloMosaic Cert.ReferenceIdeal Cert.ReferenceIdeal.Facts₀ Cert.ReferenceIdeal.Facts Cert.RefOps

/-! ## The protein graph: 100000 nodes, 1600000 edges -/

/-- The node features: the residue's one-hot row among 20, then the three coordinates. -/
def featP (res : IVec S100000 32) (pos : FVec Ideal S100000x3 .f32) : FVec Ideal S100000x23 .f32 :=
  concatenate S100000x23 1
    [⟨S100000x20, uitofp .f32 (cmpi .eq
        (broadcastInDim S100000x20 ![0, 1] bcast_S100000x1_S100000x20_0_1 (broadcastInDim S100000x1 ![0] bcast_S100000_S100000x1_0 res))
        (broadcastInDim S100000x20 ![0, 1] bcast_S1x20_S100000x20_0_1 (iotaInDim S1x20 32 1)))⟩,
     ⟨S100000x3, pos⟩]
    concatenates_S100000x20_S100000x3_S100000x23_d1

/-- The edges' source nodes: row 0 of the edge index. -/
def srcP (e : IVec S2x1600000 32) : IVec S1600000 32 :=
  shapeCast _ (extractStridedSlice S1x1600000 ![0, 0] e slices_S2x1600000_S1x1600000_0_0) shapeCasts_S1x1600000_S1600000

/-- The edges' destination nodes: row 1 of the edge index. -/
def dstP (e : IVec S2x1600000 32) : IVec S1600000 32 :=
  shapeCast _ (extractStridedSlice S1x1600000 ![1, 0] e slices_S2x1600000_S1x1600000_1_0) shapeCasts_S1x1600000_S1600000

/-- Node numbers as a column of start indices. -/
def colP (s : IVec S1600000 32) : IVec S1600000x1 32 := broadcastInDim S1600000x1 ![0] bcast_S1600000_S1600000x1_0 s

/-- Node numbers as start indices for a row read: a negative number first raised by the node count. -/
def wrapP (s : IVec S1600000 32) : IVec S1600000x1 32 :=
  colP (select (cmpi .slt s (broadcastInDim S1600000 ![] bcast_S_S1600000 (constantI S_ 32 0#32)))
    (addi s (broadcastInDim S1600000 ![] bcast_S_S1600000 (constantI S_ 32 100000#32))) s)

/-- The degrees from the edge index. -/
def degOfP (e : IVec S2x1600000 32) : FVec Ideal S100000 .f32 := degP (colP (dstP e))

/-- Each edge's coefficient: the product of the inverse square roots of its two ends' degrees. -/
def coefP (e : IVec S2x1600000 32) : FVec Ideal S1600000 .f32 :=
  mulf (Host.gather gather_S100000_S1600000x1_S1600000_n_0_n_n_0_1_1 (Host.rsqrt (degOfP e)) (wrapP (srcP e)))
    (Host.gather gather_S100000_S1600000x1_S1600000_n_0_n_n_0_1_1 (Host.rsqrt (degOfP e)) (wrapP (dstP e)))

/-- The aggregate of a layer: each node sums, over the edges that end at it, the source node's row of xw times the
    edge's coefficient. -/
def aggP (xw : FVec Ideal S100000x128 .f32) (e : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (colP (dstP e))
    (mulf (Host.gather gather_S100000x128_S1600000x1_S1600000x128_1_0_n_n_0_1_1128 xw (wrapP (srcP e)))
      (broadcastInDim S1600000x128 ![0, 1] bcast_S1600000x1_S1600000x128_0_1
        (broadcastInDim S1600000x1 ![0] bcast_S1600000_S1600000x1_0 (coefP e))))

/-- The first layer's feature product. -/
def xw1P (res : IVec S100000 32) (pos : FVec Ideal S100000x3 .f32) (w1 : FVec Ideal S23x128 .f32) : FVec Ideal S100000x128 .f32 :=
  matP1 (featP res pos) w1

/-- The second layer's feature product, of the first layer's finished output. -/
def xw2P (res : IVec S100000 32) (pos : FVec Ideal S100000x3 .f32) (e : IVec S2x1600000 32) (w1 : FVec Ideal S23x128 .f32)
    (b1 : FVec Ideal S128 .f32) (w2 : FVec Ideal S128x128 .f32) : FVec Ideal S100000x128 .f32 :=
  matP2 (finishP (aggP (xw1P res pos w1) e) (xw1P res pos w1) (degOfP e) b1) w2

/-- The two graph convolutions: the node features after the second layer. -/
def branchP (res : IVec S100000 32) (pos : FVec Ideal S100000x3 .f32) (e : IVec S2x1600000 32) (w1 : FVec Ideal S23x128 .f32)
    (b1 : FVec Ideal S128 .f32) (w2 : FVec Ideal S128x128 .f32) (b2 : FVec Ideal S128 .f32) : FVec Ideal S100000x128 .f32 :=
  finishP (aggP (xw2P res pos e w1 b1 w2) e) (xw2P res pos e w1 b1 w2) (degOfP e) b2

/-! ## The small-molecule graph: 50000 nodes, 800000 edges -/

/-- The node features: the residue's one-hot row among 20, then the three coordinates. -/
def featM (res : IVec S50000 32) (pos : FVec Ideal S50000x3 .f32) : FVec Ideal S50000x23 .f32 :=
  concatenate S50000x23 1
    [⟨S50000x20, uitofp .f32 (cmpi .eq
        (broadcastInDim S50000x20 ![0, 1] bcast_S50000x1_S50000x20_0_1 (broadcastInDim S50000x1 ![0] bcast_S50000_S50000x1_0 res))
        (broadcastInDim S50000x20 ![0, 1] bcast_S1x20_S50000x20_0_1 (iotaInDim S1x20 32 1)))⟩,
     ⟨S50000x3, pos⟩]
    concatenates_S50000x20_S50000x3_S50000x23_d1

/-- The edges' source nodes: row 0 of the edge index. -/
def srcM (e : IVec S2x800000 32) : IVec S800000 32 :=
  shapeCast _ (extractStridedSlice S1x800000 ![0, 0] e slices_S2x800000_S1x800000_0_0) shapeCasts_S1x800000_S800000

/-- The edges' destination nodes: row 1 of the edge index. -/
def dstM (e : IVec S2x800000 32) : IVec S800000 32 :=
  shapeCast _ (extractStridedSlice S1x800000 ![1, 0] e slices_S2x800000_S1x800000_1_0) shapeCasts_S1x800000_S800000

/-- Node numbers as a column of start indices. -/
def colM (s : IVec S800000 32) : IVec S800000x1 32 := broadcastInDim S800000x1 ![0] bcast_S800000_S800000x1_0 s

/-- Node numbers as start indices for a row read: a negative number first raised by the node count. -/
def wrapM (s : IVec S800000 32) : IVec S800000x1 32 :=
  colM (select (cmpi .slt s (broadcastInDim S800000 ![] bcast_S_S800000 (constantI S_ 32 0#32)))
    (addi s (broadcastInDim S800000 ![] bcast_S_S800000 (constantI S_ 32 50000#32))) s)

/-- The degrees from the edge index. -/
def degOfM (e : IVec S2x800000 32) : FVec Ideal S50000 .f32 := degM (colM (dstM e))

/-- Each edge's coefficient: the product of the inverse square roots of its two ends' degrees. -/
def coefM (e : IVec S2x800000 32) : FVec Ideal S800000 .f32 :=
  mulf (Host.gather gather_S50000_S800000x1_S800000_n_0_n_n_0_1_1 (Host.rsqrt (degOfM e)) (wrapM (srcM e)))
    (Host.gather gather_S50000_S800000x1_S800000_n_0_n_n_0_1_1 (Host.rsqrt (degOfM e)) (wrapM (dstM e)))

/-- The aggregate of a layer: each node sums, over the edges that end at it, the source node's row of xw times the
    edge's coefficient. -/
def aggM (xw : FVec Ideal S50000x128 .f32) (e : IVec S2x800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (colM (dstM e))
    (mulf (Host.gather gather_S50000x128_S800000x1_S800000x128_1_0_n_n_0_1_1128 xw (wrapM (srcM e)))
      (broadcastInDim S800000x128 ![0, 1] bcast_S800000x1_S800000x128_0_1
        (broadcastInDim S800000x1 ![0] bcast_S800000_S800000x1_0 (coefM e))))

/-- The first layer's feature product. -/
def xw1M (res : IVec S50000 32) (pos : FVec Ideal S50000x3 .f32) (w1 : FVec Ideal S23x128 .f32) : FVec Ideal S50000x128 .f32 :=
  matM1 (featM res pos) w1

/-- The second layer's feature product, of the first layer's finished output. -/
def xw2M (res : IVec S50000 32) (pos : FVec Ideal S50000x3 .f32) (e : IVec S2x800000 32) (w1 : FVec Ideal S23x128 .f32)
    (b1 : FVec Ideal S128 .f32) (w2 : FVec Ideal S128x128 .f32) : FVec Ideal S50000x128 .f32 :=
  matM2 (finishM (aggM (xw1M res pos w1) e) (xw1M res pos w1) (degOfM e) b1) w2

/-- The two graph convolutions: the node features after the second layer. -/
def branchM (res : IVec S50000 32) (pos : FVec Ideal S50000x3 .f32) (e : IVec S2x800000 32) (w1 : FVec Ideal S23x128 .f32)
    (b1 : FVec Ideal S128 .f32) (w2 : FVec Ideal S128x128 .f32) (b2 : FVec Ideal S128 .f32) : FVec Ideal S50000x128 .f32 :=
  finishM (aggM (xw2M res pos e w1 b1 w2) e) (xw2M res pos e w1 b1 w2) (degOfM e) b2

/-! ## The pooled table and the result -/

/-- The mean of the protein graph's node features per graph: the per-graph sum over the per-graph count, the count
    raised to one where a graph has no node. -/
def pool (h : FVec Ideal S100000x128 .f32) (bp : IVec S100000 32) : FVec Ideal S64x128 .f32 :=
  Host.divf
    (Host.scatterAdd scatter_S64x128_S100000x1_S100000x128_1_0_0_1
      (broadcastInDim S64x128 ![] bcast_S_S64x128 (constant (F := Ideal) S_ .f32 0x00000000#32))
      (broadcastInDim S100000x1 ![0] bcast_S100000_S100000x1_0 bp) h)
    (broadcastInDim S64x128 ![0, 1] bcast_S64x1_S64x128_0_1 (broadcastInDim S64x1 ![0] bcast_S64_S64x1_0
      (maximumf
        (Host.scatterAdd scatter_S64_S100000x1_S100000_n_0_0_1
          (broadcastInDim S64 ![] bcast_S_S64 (constant (F := Ideal) S_ .f32 0x00000000#32))
          (broadcastInDim S100000x1 ![0] bcast_S100000_S100000x1_0 bp)
          (broadcastInDim S100000 ![] bcast_S_S100000 (constant (F := Ideal) S_ .f32 0x3F800000#32)))
        (broadcastInDim S64 ![] bcast_S_S64 (constant (F := Ideal) S_ .f32 0x3F800000#32)))))

/-- The result: the head applied to the small-molecule graph's features and the protein graph's pooled table. -/
def forward (a0 : IVec S100000 32) (a1 : FVec Ideal S100000x3 .f32) (a2 : IVec S2x1600000 32) (a3 : IVec S100000 32)
    (a4 : IVec S50000 32) (a5 : FVec Ideal S50000x3 .f32) (a6 : IVec S2x800000 32) (a7 : IVec S50000 32)
    (a8 : FVec Ideal S23x128 .f32) (a9 : FVec Ideal S128 .f32) (a10 : FVec Ideal S128x128 .f32) (a11 : FVec Ideal S128 .f32)
    (a12 : FVec Ideal S23x128 .f32) (a13 : FVec Ideal S128 .f32) (a14 : FVec Ideal S128x128 .f32) (a15 : FVec Ideal S128 .f32)
    (a16 : FVec Ideal S256x128 .f32) (a17 : FVec Ideal S128 .f32) (a18 : FVec Ideal S128x3 .f32) (a19 : FVec Ideal S3 .f32) :
    FVec Ideal S50000x3 .f32 :=
  headM (branchM a4 a5 a6 a12 a13 a14 a15) (pool (branchP a0 a1 a2 a8 a9 a10 a11) a3) a7 a16 a17 a18 a19

end Cert.Forward

end
-- ==== Proof.Region0.lean ====
import proofs.«429129_j3384434230027_2_alg».proof.Proof.Gen.KernelIdeal.Frame
import proofs.«429129_j3384434230027_2_alg».proof.Proof.RefOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-
  Region 0: the first layer's feature product on the protein graph, x · W, 5000 rows at a grid point.

  The body loads a [5000, 23] block of x and all of W, multiplies them into a zero accumulator and stores the
  [5000, 128] product. At the ideal instance the changes of float format are the identity, so entry (p, q) of the
  stored block is the inner product of row p of the x block with column q of W. Block t of x is rows
  5000 t … 5000 t + 4999 of x, and the stored block goes back to the same rows of the output; every row lies in
  exactly the block of its quotient by 5000. So the output array is x · W, the reference's product.
-/
namespace Cert.Region0

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-! ## The two products read at an index -/

section KernelDot

theorem dk_lhs_0 (i : S5000x128.Idx) (q : Cert.KernelIdeal.dot_S5000x23_S23x128_S5000x128_1_0_0_1_n_n.contr.Idx) : (Cert.KernelIdeal.dot_S5000x23_S23x128_S5000x128_1_0_0_1_n_n.lhsIdx i q 0).val = (i 0).val := by
  unfold DotDims.lhsIdx
  rw [dif_neg (show ¬(0 : Fin S5000x23.rank) ∈ Cert.KernelIdeal.dot_S5000x23_S23x128_S5000x128_1_0_0_1_n_n.lhsBatch by decide),
    dif_pos (show (0 : Fin S5000x23.rank) ∈ Cert.KernelIdeal.dot_S5000x23_S23x128_S5000x128_1_0_0_1_n_n.lhsNonContracting by decide)]
  rfl
theorem dk_lhs_1 (i : S5000x128.Idx) (q : Cert.KernelIdeal.dot_S5000x23_S23x128_S5000x128_1_0_0_1_n_n.contr.Idx) : (Cert.KernelIdeal.dot_S5000x23_S23x128_S5000x128_1_0_0_1_n_n.lhsIdx i q 1).val = (q ⟨0, by decide⟩).val :=
  Cert.KernelIdeal.dot_S5000x23_S23x128_S5000x128_1_0_0_1_n_n.lhsIdx_val_of_single rfl i q
theorem dk_rhs_0 (i : S5000x128.Idx) (q : Cert.KernelIdeal.dot_S5000x23_S23x128_S5000x128_1_0_0_1_n_n.contr.Idx) : (Cert.KernelIdeal.dot_S5000x23_S23x128_S5000x128_1_0_0_1_n_n.rhsIdx i q 0).val = (q ⟨0, by decide⟩).val :=
  Cert.KernelIdeal.dot_S5000x23_S23x128_S5000x128_1_0_0_1_n_n.rhsIdx_val_of_single rfl i q
theorem dk_rhs_1 (i : S5000x128.Idx) (q : Cert.KernelIdeal.dot_S5000x23_S23x128_S5000x128_1_0_0_1_n_n.contr.Idx) : (Cert.KernelIdeal.dot_S5000x23_S23x128_S5000x128_1_0_0_1_n_n.rhsIdx i q 1).val = (i 1).val := by
  unfold DotDims.rhsIdx
  rw [dif_neg (show ¬(1 : Fin S23x128.rank) ∈ Cert.KernelIdeal.dot_S5000x23_S23x128_S5000x128_1_0_0_1_n_n.rhsBatch by decide),
    dif_pos (show (1 : Fin S23x128.rank) ∈ Cert.KernelIdeal.dot_S5000x23_S23x128_S5000x128_1_0_0_1_n_n.rhsNonContracting by decide)]
  rfl

/-- The body's stored value at row p, column q of a block: row p of the x block against column q of W. -/
theorem payload_apply (x0 : Vec Ideal S5000x23 .f32) (x3 : Vec Ideal S23x128 .f32) (p : Fin 5000) (q : Fin 128) :
    k0_pay1 (F := Ideal) x0 x3 (ix2 p q) = ∑ k : Fin 23, x0 (ix2 p k) * x3 (ix2 k q) := by
  unfold k0_pay1
  simp only [shapeCast_self]
  show FloatOps.matmul Cert.KernelIdeal.dot_S5000x23_S23x128_S5000x128_1_0_0_1_n_n none (truncf .bf16 x0 bitsLt_bf16_f32) (truncf .bf16 x3 bitsLt_bf16_f32)
      (constant (F := Ideal) S5000x128 .f32 0x00000000#32) (ix2 p q) = _
  rw [Ideal.matmul_constant_zero_apply, ← Equiv.sum_comp (contrEquiv1 Cert.KernelIdeal.dot_S5000x23_S23x128_S5000x128_1_0_0_1_n_n 23 rfl rfl).symm]
  refine Finset.sum_congr rfl fun k _ => ?_
  have hk := contrEquiv1_symm_val Cert.KernelIdeal.dot_S5000x23_S23x128_S5000x128_1_0_0_1_n_n 23 rfl rfl k
  have el : Cert.KernelIdeal.dot_S5000x23_S23x128_S5000x128_1_0_0_1_n_n.lhsIdx (ix2 p q) ((contrEquiv1 Cert.KernelIdeal.dot_S5000x23_S23x128_S5000x128_1_0_0_1_n_n 23 rfl rfl).symm k) = ix2 p k := funext fun a => Fin.ext (by
    match a with
    | ⟨0, _⟩ => exact dk_lhs_0 _ _
    | ⟨1, _⟩ => exact (dk_lhs_1 _ _).trans hk)
  have er : Cert.KernelIdeal.dot_S5000x23_S23x128_S5000x128_1_0_0_1_n_n.rhsIdx (ix2 p q) ((contrEquiv1 Cert.KernelIdeal.dot_S5000x23_S23x128_S5000x128_1_0_0_1_n_n 23 rfl rfl).symm k) = ix2 k q := funext fun a => Fin.ext (by
    match a with
    | ⟨0, _⟩ => exact (dk_rhs_0 _ _).trans hk
    | ⟨1, _⟩ => exact dk_rhs_1 _ _)
  rw [el, er]
  rfl

end KernelDot

section ReferenceDot

theorem dr_lhs_0 (i : S100000x128.Idx) (q : Cert.ReferenceIdeal.dot_S100000x23_S23x128_S100000x128_1_0_0_1_n_n.contr.Idx) : (Cert.ReferenceIdeal.dot_S100000x23_S23x128_S100000x128_1_0_0_1_n_n.lhsIdx i q 0).val = (i 0).val := by
  unfold DotDims.lhsIdx
  rw [dif_neg (show ¬(0 : Fin S100000x23.rank) ∈ Cert.ReferenceIdeal.dot_S100000x23_S23x128_S100000x128_1_0_0_1_n_n.lhsBatch by decide),
    dif_pos (show (0 : Fin S100000x23.rank) ∈ Cert.ReferenceIdeal.dot_S100000x23_S23x128_S100000x128_1_0_0_1_n_n.lhsNonContracting by decide)]
  rfl
theorem dr_lhs_1 (i : S100000x128.Idx) (q : Cert.ReferenceIdeal.dot_S100000x23_S23x128_S100000x128_1_0_0_1_n_n.contr.Idx) : (Cert.ReferenceIdeal.dot_S100000x23_S23x128_S100000x128_1_0_0_1_n_n.lhsIdx i q 1).val = (q ⟨0, by decide⟩).val :=
  Cert.ReferenceIdeal.dot_S100000x23_S23x128_S100000x128_1_0_0_1_n_n.lhsIdx_val_of_single rfl i q
theorem dr_rhs_0 (i : S100000x128.Idx) (q : Cert.ReferenceIdeal.dot_S100000x23_S23x128_S100000x128_1_0_0_1_n_n.contr.Idx) : (Cert.ReferenceIdeal.dot_S100000x23_S23x128_S100000x128_1_0_0_1_n_n.rhsIdx i q 0).val = (q ⟨0, by decide⟩).val :=
  Cert.ReferenceIdeal.dot_S100000x23_S23x128_S100000x128_1_0_0_1_n_n.rhsIdx_val_of_single rfl i q
theorem dr_rhs_1 (i : S100000x128.Idx) (q : Cert.ReferenceIdeal.dot_S100000x23_S23x128_S100000x128_1_0_0_1_n_n.contr.Idx) : (Cert.ReferenceIdeal.dot_S100000x23_S23x128_S100000x128_1_0_0_1_n_n.rhsIdx i q 1).val = (i 1).val := by
  unfold DotDims.rhsIdx
  rw [dif_neg (show ¬(1 : Fin S23x128.rank) ∈ Cert.ReferenceIdeal.dot_S100000x23_S23x128_S100000x128_1_0_0_1_n_n.rhsBatch by decide),
    dif_pos (show (1 : Fin S23x128.rank) ∈ Cert.ReferenceIdeal.dot_S100000x23_S23x128_S100000x128_1_0_0_1_n_n.rhsNonContracting by decide)]
  rfl

/-- The reference's product at row r, column q: row r of x against column q of W. -/
theorem matP1_apply (x : FVec Ideal S100000x23 .f32) (w : FVec Ideal S23x128 .f32) (r : Fin 100000) (q : Fin 128) :
    Cert.RefOps.matP1 x w (ix2 r q) = ∑ k : Fin 23, x (ix2 r k) * w (ix2 k q) := by
  unfold Cert.RefOps.matP1
  simp only [Host.dotGeneral]
  rw [Ideal.dotGeneral_apply, ← Equiv.sum_comp (contrEquiv1 Cert.ReferenceIdeal.dot_S100000x23_S23x128_S100000x128_1_0_0_1_n_n 23 rfl rfl).symm]
  refine Finset.sum_congr rfl fun k _ => ?_
  have hk := contrEquiv1_symm_val Cert.ReferenceIdeal.dot_S100000x23_S23x128_S100000x128_1_0_0_1_n_n 23 rfl rfl k
  have el : Cert.ReferenceIdeal.dot_S100000x23_S23x128_S100000x128_1_0_0_1_n_n.lhsIdx (ix2 r q) ((contrEquiv1 Cert.ReferenceIdeal.dot_S100000x23_S23x128_S100000x128_1_0_0_1_n_n 23 rfl rfl).symm k) = ix2 r k := funext fun a => Fin.ext (by
    match a with
    | ⟨0, _⟩ => exact dr_lhs_0 _ _
    | ⟨1, _⟩ => exact (dr_lhs_1 _ _).trans hk)
  have er : Cert.ReferenceIdeal.dot_S100000x23_S23x128_S100000x128_1_0_0_1_n_n.rhsIdx (ix2 r q) ((contrEquiv1 Cert.ReferenceIdeal.dot_S100000x23_S23x128_S100000x128_1_0_0_1_n_n 23 rfl rfl).symm k) = ix2 k q := funext fun a => Fin.ext (by
    match a with
    | ⟨0, _⟩ => exact (dr_rhs_0 _ _).trans hk
    | ⟨1, _⟩ => exact dr_rhs_1 _ _)
  rw [el, er]

end ReferenceDot

/-! ## From blocks to the array -/

/-- A stored block against the whole product: if the x block is rows r0 … r0 + 4999 of x and the W block is W, the
    block's entry at y is the product's entry at row r0 + y 0, column y 1. -/
theorem block_entry (x0 : Vec Ideal S5000x23 .f32) (x3 : Vec Ideal S23x128 .f32)
    (X : FVec Ideal S100000x23 .f32) (W : FVec Ideal S23x128 .f32) (r0 : Nat)
    (hx : ∀ (p : Fin 5000) (k : Fin 23) (hp : r0 + p.val < 100000), x0 (ix2 p k) = X (ix2 ⟨r0 + p.val, hp⟩ k))
    (hw : ∀ (k : Fin 23) (q : Fin 128), x3 (ix2 k q) = W (ix2 k q))
    (y : S5000x128.Idx) (i : S100000x128.Idx) (hi0 : (i 0).val = r0 + (y 0).val) (hi1 : (i 1).val = (y 1).val) :
    k0_pay1 (F := Ideal) x0 x3 y = Cert.RefOps.matP1 X W i := by
  obtain ⟨p, q, rfl⟩ : ∃ (p : Fin 5000) (q : Fin 128), y = ix2 p q := ⟨y 0, y 1, eq_ix2 y⟩
  have hp : r0 + p.val < 100000 := by have h := idx2_lt0 i; have e : (i 0).val = r0 + p.val := hi0; omega
  obtain rfl : i = ix2 ⟨r0 + p.val, hp⟩ q := by
    funext a; apply Fin.ext
    match a with
    | ⟨0, _⟩ => exact hi0
    | ⟨1, _⟩ => exact hi1
  rw [payload_apply, matP1_apply]
  exact Finset.sum_congr rfl fun k _ => by rw [hx p k hp, hw k q]

/-- The printed index maps over the grid: at point t the x block and the output block are block t of the rows and
    block 0 of the columns; W's one block is block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product x · W of the arrays as the region finds them. -/
theorem flushed_eq (c : Dev nD) (t : Fin cfg0.N) :
    (dat0 (F := Ideal) V c).flushed 2 t
      = ((cfg0.win 2).blk t).view.read (Elt Ideal) (Cert.RefOps.matP1 (V c main_v1) (V c main_arg8)) := by
  show (cfg0.win 2).cut (grid0.coords t) ((dat0 (F := Ideal) V c).after 2 t) = _
  rw [after0_2]
  unfold out0_2
  rw [View.canon_unit_zero offsets_zero]
  simp only [View.ld_unit_zero (S := S5000x23) offsets_zero, View.ld_unit_zero (S := S23x128) offsets_zero]
  obtain ⟨e0, e1, e2, e3, e4, e5⟩ := index_facts t
  funext j
  refine block_entry (iblk0 V c 0 t) (iblk0 V c 1 t) (V c main_v1) (V c main_arg8) (t.val * 5000) ?_ ?_ j
    (((cfg0.win 2).blk t).view.emb j) ?_ ?_
  · intro p k hp
    show V c main_v1 (((cfg0.win 0).blk t).view.emb (ix2 p k)) = _
    refine congrArg (V c main_v1) (funext fun a => Fin.ext ?_)
    match a with
    | ⟨0, _⟩ => show win0_0.index t (0 : Fin 2) * 5000 + 1 * p.val = t.val * 5000 + p.val; omega
    | ⟨1, _⟩ => show win0_0.index t (1 : Fin 2) * 23 + 1 * k.val = k.val; omega
  · intro k q
    show V c main_arg8 (((cfg0.win 1).blk t).view.emb (ix2 k q)) = _
    refine congrArg (V c main_arg8) (funext fun a => Fin.ext ?_)
    match a with
    | ⟨0, _⟩ => show win0_1.index t (0 : Fin 2) * 23 + 1 * k.val = k.val; omega
    | ⟨1, _⟩ => show win0_1.index t (1 : Fin 2) * 128 + 1 * q.val = q.val; omega
  · show win0_2.index t (0 : Fin 2) * 5000 + 1 * (j 0).val = t.val * 5000 + (j 0).val; omega
  · show win0_2.index t (1 : Fin 2) * 128 + 1 * (j 1).val = (j 1).val; omega

/-- An index of the output array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every index of the output array lies in the block of the point its row's quotient by 5000 names. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨e0, e1, e2, e3, e4, e5⟩ := index_facts t
  have tv : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the product x · W of the region's two input arrays. -/
theorem array (c : Dev nD) :
    (dat0 (F := Ideal) V c).arrAt 2 cfg0.N = Cert.RefOps.matP1 (V c main_v1) (V c main_arg8) :=
  (dat0 (F := Ideal) V c).arrAt_eq_of_cover 2 (Cert.RefOps.matP1 (V c main_v1) (V c main_arg8))
    (fun t _ => flushed_eq V c t) cover

end Cert.Region0

end
-- ==== Proof.Algebra.lean ====
/-
  The few laws on the extended reals that join the two programs.

  * The kernel multiplies a row of features by the reciprocal of the node's degree, computed once; the reference
    divides by the degree. Off zero the quotient is the product with the inverse, so the two agree at every
    extended real as soon as the degree is not zero.
  * A degree is one more than a count: a sum of ones over the edges that end at the node, added to zero. A sum of
    nonnegative terms plus one is positive, hence never zero.
  * The kernel picks a row of the pooled table by multiplying with a row that is one at the graph's number and zero
    elsewhere and summing over the 64 graphs; the reference reads the row directly. Zero times any extended real is
    zero, so the sum is the one selected term, whatever the table holds.
-/
import Idealize.ShloMosaic.PureOps.Ideal
import Idealize.ShloMosaic.PureOps.Ideal.Laws

namespace Cert.GnnAlgebra

open Idealize.ShloMosaic

/-- Off zero, multiplying by the reciprocal is dividing. -/
theorem mul_div_one (x d : EReal) (hd : d ≠ 0) : x * Ideal.div 1 d = Ideal.div x d := by
  simp only [Ideal.div, if_neg hd, one_mul]

/-- One more than a nonnegative extended real is not zero. -/
theorem add_one_ne_zero {a : EReal} (ha : 0 ≤ a) : a + 1 ≠ 0 := by
  have h : (1 : EReal) ≤ a + 1 :=
    calc (1 : EReal) = 0 + 1 := (zero_add 1).symm
      _ ≤ a + 1 := add_le_add_left ha 1
  exact (lt_of_lt_of_le zero_lt_one h).ne'

/-- Zero plus a sum of ones is nonnegative. -/
theorem zero_add_sum_ones_nonneg {ι : Type} (s : Finset ι) : (0 : EReal) ≤ 0 + ∑ _j ∈ s, (1 : EReal) := by
  rw [zero_add]
  exact Finset.sum_nonneg fun _ _ => zero_le_one

/-- A sum against an indicator of one index is the term at that index. -/
theorem sum_indicator_mul {n : Nat} (b : Fin n) (f : Fin n → EReal) :
    ∑ g : Fin n, (if g = b then (1 : EReal) else 0) * f g = f b := by
  rw [Finset.sum_eq_single b]
  · rw [if_pos rfl, one_mul]
  · intro g _ hg
    rw [if_neg hg, zero_mul]
  · intro h
    exact absurd (Finset.mem_univ b) h

end Cert.GnnAlgebra
-- ==== Proof.Region1.lean ====
import proofs.«429129_j3384434230027_2_alg».proof.Proof.Gen.KernelIdeal.Frame
import proofs.«429129_j3384434230027_2_alg».proof.Proof.RefOps
import proofs.«429129_j3384434230027_2_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region1

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The kernel's product read at an index -/

/-- Row coordinate of the left operand's index: the output's row. -/
theorem kdot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Column coordinate of the left operand's index: the contraction index. -/
theorem kdot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Row coordinate of the right operand's index: the contraction index. -/
theorem kdot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Column coordinate of the right operand's index: the output's column. -/
theorem kdot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product with a zero accumulator, entry (p, q): the sum over k of h (p, k) · w (k, q). -/
theorem kmatmul_apply (h : FVec Ideal S5000x128 .bf16) (w : FVec Ideal S128x128 .bf16) (p : Fin 5000) (q : Fin 128) :
    matmul (F := Ideal) dot_S5000x128_S128x128_S5000x128_1_0_0_1_n_n none h w (constant (F := Ideal) S5000x128 .f32 0x00000000#32) (ix2 p q)
      = ∑ k : Fin 128, h (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact kdot_lhs_0 _ _
    | ⟨1, _⟩ => exact (kdot_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (kdot_rhs_0 _ _).trans hk
    | ⟨1, _⟩ => exact kdot_rhs_1 _ _)
  rw [el, er]

/-! ## The body's arithmetic read at an index -/

/-- A column broadcast along the features, entry (p, q): the column's entry p. -/
theorem bcast_col_apply (v : FVec Ideal S5000x1 .f32) (p : Fin 5000) (q : Fin 128) :
    broadcastTo S5000x128 v broadcasts_S5000x1_S5000x128 (ix2 p q) = v (ix2 p (0 : Fin 1)) := by
  refine broadcastTo_apply v _ (ix2 p q) (ix2 p (0 : Fin 1)) fun ax => ?_
  match ax with
  | ⟨0, _⟩ => show p.val = if (5000 : Nat) = 1 then 0 else p.val; rw [if_neg (by decide)]
  | ⟨1, _⟩ => show 0 = if (1 : Nat) = 1 then 0 else q.val; rw [if_pos rfl]

/-- The body's payload, entry (p, q): the sum over k of relu (agg (p, k) + xw (p, k) · rd p + b k) · W (k, q). -/
theorem pay_apply (x0 : Vec Ideal S5000x128 .f32) (x1 : Vec Ideal S5000x128 .bf16) (x2 : Vec Ideal S5000x1 .f32)
    (x3 : Vec Ideal S1x128 .f32) (x4 : Vec Ideal S128x128 .f32) (p : Fin 5000) (q : Fin 128) :
    k1_pay1 (F := Ideal) x0 x1 x2 x3 x4 (ix2 p q)
      = ∑ k : Fin 128, max (x0 (ix2 p k) + x1 (ix2 p k) * x2 (ix2 p (0 : Fin 1)) + x3 (ix2 (0 : Fin 1) k)) 0 * x4 (ix2 k q) := by
  unfold k1_pay1
  rw [truncf_apply]
  refine (kmatmul_apply _ _ p q).trans ?_
  refine Finset.sum_congr rfl fun k _ => ?_
  simp only [shapeCast_self]
  rw [truncf_apply, truncf_apply, maximumf_apply, addf_apply, addf_apply, mulf_apply, extf_apply, broadcast_apply,
    bcast_col_apply, broadcastTo_1b_ab_apply]
  show max _ (Ideal.ofBits .f32 0x00000000#32) * _ = _
  rw [Ideal.ofBits_zero_f32]

/-! ## The reference's finish and product read at an index -/

/-- Row coordinate of the left operand's index: the output's row. -/
theorem rdot_lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- Column coordinate of the left operand's index: the contraction index. -/
theorem rdot_lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- Row coordinate of the right operand's index: the contraction index. -/
theorem rdot_rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- Column coordinate of the right operand's index: the output's column. -/
theorem rdot_rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The reference's product h · W, entry (r, q): the sum over k of h (r, k) · W (k, q). -/
theorem matP2_apply (h : FVec Ideal Cert.ReferenceIdeal.S100000x128 .f32) (w : FVec Ideal Cert.ReferenceIdeal.S128x128 .f32)
    (r : Fin 100000) (q : Fin 128) :
    Cert.RefOps.matP2 h w (ix2 r q) = ∑ k : Fin 128, h (ix2 r k) * w (ix2 k q) := by
  unfold Cert.RefOps.matP2
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact rdot_lhs_0 _ _
    | ⟨1, _⟩ => exact (rdot_lhs_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (rdot_rhs_0 _ _).trans hk
    | ⟨1, _⟩ => exact rdot_rhs_1 _ _)
  rw [el, er]

/-- The degrees as a column, then along the features, entry (r, k): the degree of row r. -/
theorem bcast_deg_apply (deg : FVec Ideal Cert.ReferenceIdeal.S100000 .f32) (r : Fin 100000) (k : Fin 128) :
    broadcastInDim Cert.ReferenceIdeal.S100000x128 ![0, 1] Cert.ReferenceIdeal.Facts₀.bcast_S100000x1_S100000x128_0_1
        (broadcastInDim Cert.ReferenceIdeal.S100000x1 ![0] Cert.ReferenceIdeal.Facts₀.bcast_S100000_S100000x1_0 deg) (ix2 r k)
      = deg (ix1 r) := by
  refine (broadcastInDim_apply _ Cert.ReferenceIdeal.Facts₀.bcast_S100000x1_S100000x128_0_1 _ (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])).trans ?_
  exact broadcastInDim_apply _ Cert.ReferenceIdeal.Facts₀.bcast_S100000_S100000x1_0 deg (ix2 r (0 : Fin 1)) (ix1 r) (fun a => match a with
    | ⟨0, _⟩ => by show r.val = if (100000 : Nat) = 1 then 0 else r.val; rw [if_neg (by decide)])

/-- The bias as a row, then along the nodes, entry (r, k): the bias of feature k. -/
theorem bcast_bias_apply (b : FVec Ideal Cert.ReferenceIdeal.S128 .f32) (r : Fin 100000) (k : Fin 128) :
    broadcastInDim Cert.ReferenceIdeal.S100000x128 ![0, 1] Cert.ReferenceIdeal.Facts₀.bcast_S1x128_S100000x128_0_1
        (broadcastInDim Cert.ReferenceIdeal.S1x128 ![1] Cert.ReferenceIdeal.Facts₀.bcast_S128_S1x128_1 b) (ix2 r k)
      = b (ix1 k) := by
  refine (broadcastInDim_apply _ Cert.ReferenceIdeal.Facts₀.bcast_S1x128_S100000x128_0_1 _ (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])).trans ?_
  exact broadcastInDim_apply _ Cert.ReferenceIdeal.Facts₀.bcast_S128_S1x128_1 b (ix2 (0 : Fin 1) k) (ix1 k) (fun a => match a with
    | ⟨0, _⟩ => by show k.val = if (128 : Nat) = 1 then 0 else k.val; rw [if_neg (by decide)])

/-- The reference's finish, entry (r, k): relu (agg (r, k) + xw (r, k) / deg r + b k). -/
theorem finishP_apply (agg xw : FVec Ideal Cert.ReferenceIdeal.S100000x128 .f32) (deg : FVec Ideal Cert.ReferenceIdeal.S100000 .f32)
    (b : FVec Ideal Cert.ReferenceIdeal.S128 .f32) (r : Fin 100000) (k : Fin 128) :
    Cert.RefOps.finishP agg xw deg b (ix2 r k)
      = max (agg (ix2 r k) + Ideal.div (xw (ix2 r k)) (deg (ix1 r)) + b (ix1 k)) 0 := by
  unfold Cert.RefOps.finishP
  rw [maximumf_apply, addf_apply, addf_apply, bcast_bias_apply]
  show max (agg (ix2 r k) + Ideal.div (xw (ix2 r k)) (broadcastInDim Cert.ReferenceIdeal.S100000x128 ![0, 1] Cert.ReferenceIdeal.Facts₀.bcast_S100000x1_S100000x128_0_1
        (broadcastInDim Cert.ReferenceIdeal.S100000x1 ![0] Cert.ReferenceIdeal.Facts₀.bcast_S100000_S100000x1_0 deg) (ix2 r k)) + b (ix1 k)) (Ideal.ofBits .f32 0x00000000#32) = _
  rw [bcast_deg_apply, Ideal.ofBits_zero_f32]

/-! ## From blocks to the array -/

theorem zero_offsets : (![0, 0] : Fin 2 → Nat) = fun _ => 0 :=
  funext fun a => match a with | ⟨0, _⟩ => rfl | ⟨1, _⟩ => rfl

/-- The index maps over the grid: the row-blocked windows sit at row block t, the bias and the weights at their
    one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block t of the aggregate, entry (p, k): row 5000 t + p of the array. -/
theorem blk_agg_apply (c : Dev nD) (t : Fin cfg1.N) (p : Fin 5000) (k : Fin 128) (r : Fin 100000)
    (hr : r.val = 5000 * t.val + p.val) :
    iblk1 (F := Ideal) V c 0 t (ix2 p k) = V c main_v45 (ix2 r k) := by
  obtain ⟨e0, e1, -⟩ := idx_facts t
  show V c main_v45 (((cfg1.win 0).blk t).view.emb (ix2 p k)) = V c main_v45 (ix2 r k)
  refine congrArg (V c main_v45) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Block t of the feature product, entry (p, k): row 5000 t + p of the array. -/
theorem blk_xw_apply (c : Dev nD) (t : Fin cfg1.N) (p : Fin 5000) (k : Fin 128) (r : Fin 100000)
    (hr : r.val = 5000 * t.val + p.val) :
    iblk1 (F := Ideal) V c 1 t (ix2 p k) = V c main_v31 (ix2 r k) := by
  obtain ⟨-, -, e0, e1, -⟩ := idx_facts t
  show V c main_v31 (((cfg1.win 1).blk t).view.emb (ix2 p k)) = V c main_v31 (ix2 r k)
  refine congrArg (V c main_v31) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- Block t of the reciprocal degrees, entry (p, 0): row 5000 t + p of the column. -/
theorem blk_rd_apply (c : Dev nD) (t : Fin cfg1.N) (p : Fin 5000) (r : Fin 100000)
    (hr : r.val = 5000 * t.val + p.val) :
    iblk1 (F := Ideal) V c 2 t (ix2 p (0 : Fin 1)) = V c main_v15 (ix2 r (0 : Fin 1)) := by
  obtain ⟨-, -, -, -, e0, e1, -⟩ := idx_facts t
  show V c main_v15 (((cfg1.win 2).blk t).view.emb (ix2 p (0 : Fin 1))) = V c main_v15 (ix2 r (0 : Fin 1))
  refine congrArg (V c main_v15) (funext fun a => Fin.ext ?_)
  match a with
  | ⟨0, _⟩ => show win1_2.index t (0 : Fin 2) * 5000 + 1 * p.val = r.val; omega
  | ⟨1, _⟩ => show win1_2.index t (1 : Fin 2) * 1 + 1 * 0 = 0; omega

/-- The bias row's one block, entry (0, k): the row's entry k. -/
theorem blk_bias_apply (c : Dev nD) (t : Fin cfg1.N) (k : Fin 128) :
    iblk1 (F := Ideal) V c 3 t (ix2 (0 : Fin 1) k) = V c main_v46 (ix2 (0 : Fin 1) k) := by
  obtain ⟨-, -, -, -, -, -, e0, e1, -⟩ := idx_facts t
  show V c main_v46 (((cfg1.win 3).blk t).view.emb (ix2 (0 : Fin 1) k)) = V c main_v46 (ix2 (0 : Fin 1) k)
  refine congrArg (V c main_v46) (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

/-- The weights' one block, entry (k, q): the array's entry (k, q). -/
theorem blk_w_apply (c : Dev nD) (t : Fin cfg1.N) (k q : Fin 128) :
    iblk1 (F := Ideal) V c 4 t (ix2 k q) = V c main_arg10 (ix2 k q) := by
  obtain ⟨-, -, -, -, -, -, -, -, e0, e1, -⟩ := idx_facts t
  show V c main_arg10 (((cfg1.win 4).blk t).view.emb (ix2 k q)) = V c main_arg10 (ix2 k q)
  refine congrArg (V c main_arg10) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- One term of the two sums: multiplying by the reciprocal degree is dividing by the degree, off zero. -/
theorem combine_term (a x rd bias w d bk : EReal) (hrd : rd = Ideal.div 1 d) (hd : d ≠ 0) (hb : bias = bk) :
    max (a + x * rd + bias) 0 * w = max (a + Ideal.div x d + bk) 0 * w := by
  rw [hrd, hb, Cert.GnnAlgebra.mul_div_one x d hd]

/-- WHAT POINT t WRITES BACK is block t of the reference's finish-then-product of the arrays as the region finds them. -/
theorem flushed_eq (c : Dev nD) (deg : FVec Ideal S100000 .f32) (b : FVec Ideal S128 .f32)
    (hrd : ∀ r : Fin 100000, V c main_v15 (ix2 r (0 : Fin 1)) = Ideal.div 1 (deg (ix1 r)))
    (hdeg : ∀ r : Fin 100000, deg (ix1 r) ≠ 0)
    (hb : ∀ k : Fin 128, V c main_v46 (ix2 (0 : Fin 1) k) = b (ix1 k)) (t : Fin cfg1.N) :
    (dat1 (F := Ideal) V c).flushed 5 t = ((cfg1.win 5).blk t).view.read (Elt Ideal)
      (Cert.RefOps.matP2 (Cert.RefOps.finishP (V c main_v45) (V c main_v31) deg b) (V c main_arg10)) := by
  show (cfg1.win 5).cut (grid1.coords t) ((dat1 (F := Ideal) V c).after 5 t) = _
  rw [after1_5]
  unfold out1_5
  rw [View.canon_unit_zero zero_offsets]
  simp only [View.ld_unit_zero (S := S5000x128) zero_offsets, View.ld_unit_zero (S := S5000x1) zero_offsets,
    View.ld_unit_zero (S := S1x128) zero_offsets, View.ld_unit_zero (S := S128x128) zero_offsets]
  funext j
  obtain ⟨p, q, rfl⟩ : ∃ (p : Fin 5000) (q : Fin 128), j = ix2 p q := ⟨j 0, j 1, eq_ix2 j⟩
  have hN : grid1.N = 20 := N_1
  have ht : t.val < grid1.N := t.isLt
  have hp : p.val < 5000 := p.isLt
  obtain ⟨r, hr⟩ : ∃ r : Fin 100000, r.val = 5000 * t.val + p.val := ⟨⟨5000 * t.val + p.val, by omega⟩, rfl⟩
  have hemb : ((cfg1.win 5).blk t).view.emb (ix2 p q) = ix2 r q := funext fun a => Fin.ext (by
    obtain ⟨-, -, -, -, -, -, -, -, -, -, e0, e1⟩ := idx_facts t
    match a with
    | ⟨0, _⟩ => show win1_5.index t (0 : Fin 2) * 5000 + 1 * p.val = r.val; omega
    | ⟨1, _⟩ => show win1_5.index t (1 : Fin 2) * 128 + 1 * q.val = q.val; omega)
  show k1_pay1 (F := Ideal) (iblk1 V c 0 t) (iblk1 V c 1 t) (iblk1 V c 2 t) (iblk1 V c 3 t) (iblk1 V c 4 t) (ix2 p q)
    = Cert.RefOps.matP2 (Cert.RefOps.finishP (V c main_v45) (V c main_v31) deg b) (V c main_arg10) (((cfg1.win 5).blk t).view.emb (ix2 p q))
  rw [hemb]
  refine (pay_apply _ _ _ _ _ p q).trans ?_
  refine Eq.trans ?_ (matP2_apply _ _ r q).symm
  refine Finset.sum_congr rfl fun k _ => ?_
  rw [finishP_apply, blk_agg_apply V c t p k r hr, blk_xw_apply V c t p k r hr, blk_rd_apply V c t p r hr,
    blk_bias_apply V c t k, blk_w_apply V c t k q]
  exact combine_term _ _ _ _ _ _ _ (hrd r) (hdeg r) (hb k)

/-- An index of the array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v47).slice (win1_5.rect t)).set ↔ _
  rw [View.set_slice_whole, Rect.mem_set_unit]
  exact Iff.rfl

/-- Row r lies in the block of point r / 5000. -/
theorem cover (i : S100000x128.Idx) :
    ∃ t : Fin cfg1.N, (cfg1.win 5).flush t = true ∧ i ∈ ((cfg1.win 5).blk t).view.set := by
  have h0 : (i 0).val < 100000 := idx2_lt0 i
  have h1 : (i 1).val < 128 := idx2_lt1 i
  have hN : grid1.N = 20 := N_1
  obtain ⟨t, htv⟩ : ∃ t : Fin cfg1.N, t.val = (i 0).val / 5000 := ⟨⟨(i 0).val / 5000, by show _ < grid1.N; omega⟩, rfl⟩
  refine ⟨t, flush1_5 t, ?_⟩
  rw [mem_blk]
  obtain ⟨-, -, -, -, -, -, -, -, -, -, e0, e1⟩ := idx_facts t
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

theorem array (c : Dev nD) (deg : FVec Ideal S100000 .f32) (b : FVec Ideal S128 .f32)
    (hrd : ∀ r : Fin 100000, V c main_v15 (ix2 r (0 : Fin 1)) = Ideal.div 1 (deg (ix1 r)))
    (hdeg : ∀ r : Fin 100000, deg (ix1 r) ≠ 0)
    (hb : ∀ k : Fin 128, V c main_v46 (ix2 (0 : Fin 1) k) = b (ix1 k)) :
    (dat1 (F := Ideal) V c).arrAt 5 cfg1.N
      = Cert.RefOps.matP2 (Cert.RefOps.finishP (V c main_v45) (V c main_v31) deg b) (V c main_arg10) :=
  (dat1 (F := Ideal) V c).arrAt_eq_of_cover 5 _ (fun t _ => flushed_eq V c deg b hrd hdeg hb t) cover

end Cert.Region1

end
-- ==== Proof.Region2.lean ====
/-
  Region 2 of @main: the second layer's finish on the protein graph, 20 grid points of 5000 rows each.

  Point t reads rows 5000·t … 5000·t+4999 of the aggregate agg and of the feature product xw, the same rows of the
  column of reciprocal degrees, and the bias row, and writes max (agg + xw · rd + b) 0 to the same rows of the
  output. With the column's entry r equal to 1 / deg r and deg r ≠ 0, xw · (1 / deg r) = xw / deg r, so every
  entry is the reference's relu (agg + xw / deg + b); the 20 row blocks fill the 100000 rows, so the output array
  is that function of the arrays the region finds.
-/
import proofs.«429129_j3384434230027_2_alg».proof.Proof.Gen.KernelIdeal.Frame
import proofs.«429129_j3384434230027_2_alg».proof.Proof.RefOps
import proofs.«429129_j3384434230027_2_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region2

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The zero offset of a block's rectangle, as a function. -/
theorem offset_zero : (![0, 0] : Fin 2 → Nat) = fun _ => 0 := funext fun a => by fin_cases a <;> rfl

/-! ## The body's result at an index -/

/-- A column [5000,1] spread along the lanes, read at (p, q), is the column's entry p. -/
theorem column_spread_apply (x : Vec Ideal S5000x1 .f32) (p : Fin 5000) (q : Fin 128) :
    broadcastTo S5000x128 x broadcasts_S5000x1_S5000x128 (ix2 p q) = x (ix2 p (0 : Fin 1)) :=
  broadcastTo_apply x broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A row [1,128] spread along the rows, read at (p, q), is the row's entry q. -/
theorem row_spread_apply (x : Vec Ideal S1x128 .f32) (p : Fin 5000) (q : Fin 128) :
    broadcastTo S5000x128 x broadcasts_S1x128_S5000x128 (ix2 p q) = x (ix2 (0 : Fin 1) q) :=
  broadcastTo_apply x broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The body's result at (p, q): max (agg + xw · rd + b) 0, the column read at row p, the row at lane q. -/
theorem payload_apply (x0 : Vec Ideal S5000x128 .f32) (x1 : Vec Ideal S5000x128 .bf16) (x2 : Vec Ideal S5000x1 .f32)
    (x3 : Vec Ideal S1x128 .f32) (p : Fin 5000) (q : Fin 128) :
    k2_pay1 (F := Ideal) x0 x1 x2 x3 (ix2 p q)
      = max (x0 (ix2 p q) + x1 (ix2 p q) * x2 (ix2 p (0 : Fin 1)) + x3 (ix2 (0 : Fin 1) q)) 0 := by
  unfold k2_pay1
  rw [maximumf_apply, addf_apply, addf_apply, mulf_apply, extf_apply, broadcast_apply]
  rw [shapeCast_self, shapeCast_self, shapeCast_self, shapeCast_self, column_spread_apply, row_spread_apply]
  exact congrArg (max _) Ideal.ofBits_zero_f32

/-! ## The reference's finish at an index -/

/-- A vector [100000] set as a column and spread along the lanes, read at (r, k), is its entry r. -/
theorem ref_column_apply (deg : FVec Ideal S100000 .f32) (h1 : S100000.BroadcastsInDim S100000x1 ![0])
    (h2 : S100000x1.BroadcastsInDim S100000x128 ![0, 1]) (r : Fin 100000) (k : Fin 128) :
    broadcastInDim S100000x128 ![0, 1] h2 (broadcastInDim S100000x1 ![0] h1 deg) (ix2 r k) = deg (ix1 r) := by
  refine (broadcastInDim_apply _ h2 _ (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])).trans ?_
  exact broadcastInDim_apply _ h1 deg (ix2 r (0 : Fin 1)) (ix1 r) (fun a => match a with
    | ⟨0, _⟩ => by show r.val = if (100000 : Nat) = 1 then 0 else r.val; rw [if_neg (by decide)])

/-- A vector [128] set as a row and spread along the rows, read at (r, k), is its entry k. -/
theorem ref_row_apply (b : FVec Ideal S128 .f32) (h1 : S128.BroadcastsInDim S1x128 ![1])
    (h2 : S1x128.BroadcastsInDim S100000x128 ![0, 1]) (r : Fin 100000) (k : Fin 128) :
    broadcastInDim S100000x128 ![0, 1] h2 (broadcastInDim S1x128 ![1] h1 b) (ix2 r k) = b (ix1 k) := by
  refine (broadcastInDim_apply _ h2 _ (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])).trans ?_
  exact broadcastInDim_apply _ h1 b (ix2 (0 : Fin 1) k) (ix1 k) (fun a => match a with
    | ⟨0, _⟩ => by show k.val = if (128 : Nat) = 1 then 0 else k.val; rw [if_neg (by decide)])

/-- The zero scalar spread over [100000,128] is 0 at every index. -/
theorem ref_zero_apply (h : Cert.ReferenceIdeal.S_.BroadcastsInDim S100000x128 ![]) (i : S100000x128.Idx) :
    broadcastInDim S100000x128 ![] h (constant (F := Ideal) Cert.ReferenceIdeal.S_ .f32 0x00000000#32) i = 0 := by
  refine (broadcastInDim_apply _ h _ i (fun a => a.elim0) (fun a => a.elim0)).trans ?_
  rw [constant_apply]
  exact Ideal.ofBits_zero_f32

/-- The host's quotient of two arrays at an index is the quotient of the entries. -/
theorem host_div_apply {s : Shape} {φ : FTy} (x y : FVec Ideal s φ) (i : s.Idx) :
    Host.divf x y i = Ideal.div (x i) (y i) := rfl

/-- The reference's finish at (r, k): max (agg + xw / deg r + b k) 0. -/
theorem finishP_apply (agg xw : FVec Ideal S100000x128 .f32) (deg : FVec Ideal S100000 .f32) (b : FVec Ideal S128 .f32)
    (r : Fin 100000) (k : Fin 128) :
    Cert.RefOps.finishP agg xw deg b (ix2 r k)
      = max (agg (ix2 r k) + Ideal.div (xw (ix2 r k)) (deg (ix1 r)) + b (ix1 k)) 0 := by
  unfold Cert.RefOps.finishP
  rw [maximumf_apply, addf_apply, addf_apply, ref_zero_apply, ref_row_apply, host_div_apply, ref_column_apply]

/-! ## Kernel and reference agree entry by entry -/

/-- With the column holding the reciprocal degrees and the row the bias, the body's arithmetic at row r, lane k is the
    reference's finish there: xw · (1 / deg r) = xw / deg r off zero. -/
theorem point_eq (agg xw : FVec Ideal S100000x128 .f32) (rd : FVec Ideal S100000x1 .f32) (bias : FVec Ideal S1x128 .f32)
    (deg : FVec Ideal S100000 .f32) (b : FVec Ideal S128 .f32)
    (hrd : ∀ r : Fin 100000, rd (ix2 r (0 : Fin 1)) = Ideal.div 1 (deg (ix1 r)))
    (hdeg : ∀ r : Fin 100000, deg (ix1 r) ≠ 0)
    (hb : ∀ k : Fin 128, bias (ix2 (0 : Fin 1) k) = b (ix1 k)) (r : Fin 100000) (k : Fin 128) :
    max (agg (ix2 r k) + xw (ix2 r k) * rd (ix2 r (0 : Fin 1)) + bias (ix2 (0 : Fin 1) k)) 0
      = Cert.RefOps.finishP agg xw deg b (ix2 r k) := by
  rw [finishP_apply, hrd r, hb k, Cert.GnnAlgebra.mul_div_one _ _ (hdeg r)]

/-! ## From blocks to the array -/

/-- The printed index maps, decided over the 20 grid points: every row-blocked window sits at row block t, lane block 0;
    the bias row at its one block. -/
theorem index_facts : ∀ t : Fin cfg2.N, t.val < 20
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Every row block is some point's. -/
theorem index_onto : ∀ q0 : Fin 20, ∃ t : Fin cfg2.N, win2_4.index t = ![q0.val, 0] :=
  (by decide +kernel : ∀ q0 : Fin 20, ∃ t : Fin grid2.N, win2_4.index t = ![q0.val, 0])

/-- WHAT POINT t WRITES BACK is block t of the reference's finish. -/
theorem flushed_eq (c : Dev nD) (deg : FVec Ideal S100000 .f32) (b : FVec Ideal S128 .f32)
    (hrd : ∀ r : Fin 100000, V c main_v15 (ix2 r (0 : Fin 1)) = Ideal.div 1 (deg (ix1 r)))
    (hdeg : ∀ r : Fin 100000, deg (ix1 r) ≠ 0)
    (hb : ∀ k : Fin 128, V c main_v62 (ix2 (0 : Fin 1) k) = b (ix1 k)) (t : Fin cfg2.N) :
    (dat2 (F := Ideal) V c).flushed 4 t
      = ((cfg2.win 4).blk t).view.read (Elt Ideal) (Cert.RefOps.finishP (V c main_v61) (V c main_v47) deg b) := by
  show (cfg2.win 4).cut (grid2.coords t) ((dat2 (F := Ideal) V c).after 4 t) = _
  rw [after2_4]
  unfold out2_4
  rw [View.canon_unit_zero offset_zero]
  simp only [View.ld_unit_zero (S := S5000x128) offset_zero, View.ld_unit_zero (S := S5000x1) offset_zero,
    View.ld_unit_zero (S := S1x128) offset_zero]
  obtain ⟨ht, e00, e01, e10, e11, e20, e21, e30, e31, e40, e41⟩ := index_facts t
  funext j
  obtain ⟨p, q, rfl⟩ : ∃ (p : Fin 5000) (q : Fin 128), j = ix2 p q := ⟨j 0, j 1, eq_ix2 j⟩
  have hr : t.val * 5000 + p.val < 100000 := by have hp : p.val < 5000 := p.isLt; omega
  have h0 : ((cfg2.win 0).blk t).view.emb (ix2 p q) = ix2 (⟨t.val * 5000 + p.val, hr⟩ : Fin 100000) q := by
    funext a; apply Fin.ext
    match a with
    | ⟨0, _⟩ => show win2_0.index t (0 : Fin 2) * 5000 + 1 * p.val = t.val * 5000 + p.val; omega
    | ⟨1, _⟩ => show win2_0.index t (1 : Fin 2) * 128 + 1 * q.val = q.val; omega
  have h1 : ((cfg2.win 1).blk t).view.emb (ix2 p q) = ix2 (⟨t.val * 5000 + p.val, hr⟩ : Fin 100000) q := by
    funext a; apply Fin.ext
    match a with
    | ⟨0, _⟩ => show win2_1.index t (0 : Fin 2) * 5000 + 1 * p.val = t.val * 5000 + p.val; omega
    | ⟨1, _⟩ => show win2_1.index t (1 : Fin 2) * 128 + 1 * q.val = q.val; omega
  have h2 : ((cfg2.win 2).blk t).view.emb (ix2 p (0 : Fin 1)) = ix2 (⟨t.val * 5000 + p.val, hr⟩ : Fin 100000) (0 : Fin 1) := by
    funext a; apply Fin.ext
    match a with
    | ⟨0, _⟩ => show win2_2.index t (0 : Fin 2) * 5000 + 1 * p.val = t.val * 5000 + p.val; omega
    | ⟨1, _⟩ => show win2_2.index t (1 : Fin 2) * 1 + 1 * 0 = 0; omega
  have h3 : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 128 + 1 * q.val = q.val; omega
  have h4 : ((cfg2.win 4).blk t).view.emb (ix2 p q) = ix2 (⟨t.val * 5000 + p.val, hr⟩ : Fin 100000) q := by
    funext a; apply Fin.ext
    match a with
    | ⟨0, _⟩ => show win2_4.index t (0 : Fin 2) * 5000 + 1 * p.val = t.val * 5000 + p.val; omega
    | ⟨1, _⟩ => show win2_4.index t (1 : Fin 2) * 128 + 1 * q.val = q.val; omega
  show k2_pay1 (iblk2 V c 0 t) (iblk2 V c 1 t) (iblk2 V c 2 t) (iblk2 V c 3 t) (ix2 p q)
    = Cert.RefOps.finishP (V c main_v61) (V c main_v47) deg b (((cfg2.win 4).blk t).view.emb (ix2 p q))
  refine (payload_apply (iblk2 V c 0 t) (iblk2 V c 1 t) (iblk2 V c 2 t) (iblk2 V c 3 t) p q).trans ?_
  have g0 : iblk2 V c 0 t (ix2 p q) = V c main_v61 (ix2 (⟨t.val * 5000 + p.val, hr⟩ : Fin 100000) q) :=
    congrArg (V c main_v61) h0
  have g1 : iblk2 V c 1 t (ix2 p q) = V c main_v47 (ix2 (⟨t.val * 5000 + p.val, hr⟩ : Fin 100000) q) :=
    congrArg (V c main_v47) h1
  have g2 : iblk2 V c 2 t (ix2 p (0 : Fin 1)) = V c main_v15 (ix2 (⟨t.val * 5000 + p.val, hr⟩ : Fin 100000) (0 : Fin 1)) :=
    congrArg (V c main_v15) h2
  have g3 : iblk2 V c 3 t (ix2 (0 : Fin 1) q) = V c main_v62 (ix2 (0 : Fin 1) q) :=
    congrArg (V c main_v62) h3
  rw [g0, g1, g2, g3, h4]
  exact point_eq (V c main_v61) (V c main_v47) (V c main_v15) (V c main_v62) deg b hrd hdeg hb _ q

/-- An index of the array is in point t's block iff each coordinate is in the block's range on its axis. -/
theorem mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v63).slice (win2_4.rect t)).set ↔ _
  rw [View.set_slice_whole, Rect.mem_set_unit]
  exact Iff.rfl

/-- Row r lies in the block of point r / 5000: the 20 blocks of 5000 rows fill the 100000 rows. -/
theorem cover (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, ht⟩ := index_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- THE ARRAY after the region: the reference's finish of the aggregate, the feature product, the degrees and the bias. -/
theorem array (c : Dev nD) (deg : FVec Ideal S100000 .f32) (b : FVec Ideal S128 .f32)
    (hrd : ∀ r : Fin 100000, V c main_v15 (ix2 r (0 : Fin 1)) = Ideal.div 1 (deg (ix1 r)))
    (hdeg : ∀ r : Fin 100000, deg (ix1 r) ≠ 0)
    (hb : ∀ k : Fin 128, V c main_v62 (ix2 (0 : Fin 1) k) = b (ix1 k)) :
    (dat2 (F := Ideal) V c).arrAt 4 cfg2.N = Cert.RefOps.finishP (V c main_v61) (V c main_v47) deg b :=
  (dat2 (F := Ideal) V c).arrAt_eq_of_cover 4 (Cert.RefOps.finishP (V c main_v61) (V c main_v47) deg b)
    (fun t _ => flushed_eq V c deg b hrd hdeg hb t) cover

end Cert.Region2

end
-- ==== Proof.Region3.lean ====
import proofs.«429129_j3384434230027_2_alg».proof.Proof.Gen.KernelIdeal.Frame
import proofs.«429129_j3384434230027_2_alg».proof.Proof.RefOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-
  :Region 3:: the first layer's feature product on the small-molecule graph, x · W, 5000 rows at a grid point.

  The body loads a [5000, 23] block of x and all of W, multiplies them into a zero accumulator and stores the
  [5000, 128] product. At the ideal instance the changes of float format are the identity, so entry (p, q) of the
  stored block is the inner product of row p of the x block with column q of W. Block t of x is rows
  5000 t … 5000 t + 4999 of x, and the stored block goes back to the same rows of the output; every row lies in
  exactly the block of its quotient by 5000. So the output array is x · W, the reference's product.
-/
namespace Cert.Region3

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-! ## The two products read at an index -/

section KernelDot

theorem dk_lhs_0 (i : S5000x128.Idx) (q : Cert.KernelIdeal.dot_S5000x23_S23x128_S5000x128_1_0_0_1_n_n.contr.Idx) : (Cert.KernelIdeal.dot_S5000x23_S23x128_S5000x128_1_0_0_1_n_n.lhsIdx i q 0).val = (i 0).val := by
  unfold DotDims.lhsIdx
  rw [dif_neg (show ¬(0 : Fin S5000x23.rank) ∈ Cert.KernelIdeal.dot_S5000x23_S23x128_S5000x128_1_0_0_1_n_n.lhsBatch by decide),
    dif_pos (show (0 : Fin S5000x23.rank) ∈ Cert.KernelIdeal.dot_S5000x23_S23x128_S5000x128_1_0_0_1_n_n.lhsNonContracting by decide)]
  rfl
theorem dk_lhs_1 (i : S5000x128.Idx) (q : Cert.KernelIdeal.dot_S5000x23_S23x128_S5000x128_1_0_0_1_n_n.contr.Idx) : (Cert.KernelIdeal.dot_S5000x23_S23x128_S5000x128_1_0_0_1_n_n.lhsIdx i q 1).val = (q ⟨0, by decide⟩).val :=
  Cert.KernelIdeal.dot_S5000x23_S23x128_S5000x128_1_0_0_1_n_n.lhsIdx_val_of_single rfl i q
theorem dk_rhs_0 (i : S5000x128.Idx) (q : Cert.KernelIdeal.dot_S5000x23_S23x128_S5000x128_1_0_0_1_n_n.contr.Idx) : (Cert.KernelIdeal.dot_S5000x23_S23x128_S5000x128_1_0_0_1_n_n.rhsIdx i q 0).val = (q ⟨0, by decide⟩).val :=
  Cert.KernelIdeal.dot_S5000x23_S23x128_S5000x128_1_0_0_1_n_n.rhsIdx_val_of_single rfl i q
theorem dk_rhs_1 (i : S5000x128.Idx) (q : Cert.KernelIdeal.dot_S5000x23_S23x128_S5000x128_1_0_0_1_n_n.contr.Idx) : (Cert.KernelIdeal.dot_S5000x23_S23x128_S5000x128_1_0_0_1_n_n.rhsIdx i q 1).val = (i 1).val := by
  unfold DotDims.rhsIdx
  rw [dif_neg (show ¬(1 : Fin S23x128.rank) ∈ Cert.KernelIdeal.dot_S5000x23_S23x128_S5000x128_1_0_0_1_n_n.rhsBatch by decide),
    dif_pos (show (1 : Fin S23x128.rank) ∈ Cert.KernelIdeal.dot_S5000x23_S23x128_S5000x128_1_0_0_1_n_n.rhsNonContracting by decide)]
  rfl

/-- The body's stored value at row p, column q of a block: row p of the x block against column q of W. -/
theorem payload_apply (x0 : Vec Ideal S5000x23 .f32) (x3 : Vec Ideal S23x128 .f32) (p : Fin 5000) (q : Fin 128) :
    k3_pay1 (F := Ideal) x0 x3 (ix2 p q) = ∑ k : Fin 23, x0 (ix2 p k) * x3 (ix2 k q) := by
  unfold k3_pay1
  simp only [shapeCast_self]
  show FloatOps.matmul Cert.KernelIdeal.dot_S5000x23_S23x128_S5000x128_1_0_0_1_n_n none (truncf .bf16 x0 bitsLt_bf16_f32) (truncf .bf16 x3 bitsLt_bf16_f32)
      (constant (F := Ideal) S5000x128 .f32 0x00000000#32) (ix2 p q) = _
  rw [Ideal.matmul_constant_zero_apply, ← Equiv.sum_comp (contrEquiv1 Cert.KernelIdeal.dot_S5000x23_S23x128_S5000x128_1_0_0_1_n_n 23 rfl rfl).symm]
  refine Finset.sum_congr rfl fun k _ => ?_
  have hk := contrEquiv1_symm_val Cert.KernelIdeal.dot_S5000x23_S23x128_S5000x128_1_0_0_1_n_n 23 rfl rfl k
  have el : Cert.KernelIdeal.dot_S5000x23_S23x128_S5000x128_1_0_0_1_n_n.lhsIdx (ix2 p q) ((contrEquiv1 Cert.KernelIdeal.dot_S5000x23_S23x128_S5000x128_1_0_0_1_n_n 23 rfl rfl).symm k) = ix2 p k := funext fun a => Fin.ext (by
    match a with
    | ⟨0, _⟩ => exact dk_lhs_0 _ _
    | ⟨1, _⟩ => exact (dk_lhs_1 _ _).trans hk)
  have er : Cert.KernelIdeal.dot_S5000x23_S23x128_S5000x128_1_0_0_1_n_n.rhsIdx (ix2 p q) ((contrEquiv1 Cert.KernelIdeal.dot_S5000x23_S23x128_S5000x128_1_0_0_1_n_n 23 rfl rfl).symm k) = ix2 k q := funext fun a => Fin.ext (by
    match a with
    | ⟨0, _⟩ => exact (dk_rhs_0 _ _).trans hk
    | ⟨1, _⟩ => exact dk_rhs_1 _ _)
  rw [el, er]
  rfl

end KernelDot

section ReferenceDot

theorem dr_lhs_0 (i : S50000x128.Idx) (q : Cert.ReferenceIdeal.dot_S50000x23_S23x128_S50000x128_1_0_0_1_n_n.contr.Idx) : (Cert.ReferenceIdeal.dot_S50000x23_S23x128_S50000x128_1_0_0_1_n_n.lhsIdx i q 0).val = (i 0).val := by
  unfold DotDims.lhsIdx
  rw [dif_neg (show ¬(0 : Fin S50000x23.rank) ∈ Cert.ReferenceIdeal.dot_S50000x23_S23x128_S50000x128_1_0_0_1_n_n.lhsBatch by decide),
    dif_pos (show (0 : Fin S50000x23.rank) ∈ Cert.ReferenceIdeal.dot_S50000x23_S23x128_S50000x128_1_0_0_1_n_n.lhsNonContracting by decide)]
  rfl
theorem dr_lhs_1 (i : S50000x128.Idx) (q : Cert.ReferenceIdeal.dot_S50000x23_S23x128_S50000x128_1_0_0_1_n_n.contr.Idx) : (Cert.ReferenceIdeal.dot_S50000x23_S23x128_S50000x128_1_0_0_1_n_n.lhsIdx i q 1).val = (q ⟨0, by decide⟩).val :=
  Cert.ReferenceIdeal.dot_S50000x23_S23x128_S50000x128_1_0_0_1_n_n.lhsIdx_val_of_single rfl i q
theorem dr_rhs_0 (i : S50000x128.Idx) (q : Cert.ReferenceIdeal.dot_S50000x23_S23x128_S50000x128_1_0_0_1_n_n.contr.Idx) : (Cert.ReferenceIdeal.dot_S50000x23_S23x128_S50000x128_1_0_0_1_n_n.rhsIdx i q 0).val = (q ⟨0, by decide⟩).val :=
  Cert.ReferenceIdeal.dot_S50000x23_S23x128_S50000x128_1_0_0_1_n_n.rhsIdx_val_of_single rfl i q
theorem dr_rhs_1 (i : S50000x128.Idx) (q : Cert.ReferenceIdeal.dot_S50000x23_S23x128_S50000x128_1_0_0_1_n_n.contr.Idx) : (Cert.ReferenceIdeal.dot_S50000x23_S23x128_S50000x128_1_0_0_1_n_n.rhsIdx i q 1).val = (i 1).val := by
  unfold DotDims.rhsIdx
  rw [dif_neg (show ¬(1 : Fin S23x128.rank) ∈ Cert.ReferenceIdeal.dot_S50000x23_S23x128_S50000x128_1_0_0_1_n_n.rhsBatch by decide),
    dif_pos (show (1 : Fin S23x128.rank) ∈ Cert.ReferenceIdeal.dot_S50000x23_S23x128_S50000x128_1_0_0_1_n_n.rhsNonContracting by decide)]
  rfl

/-- The reference's product at row r, column q: row r of x against column q of W. -/
theorem matM1_apply (x : FVec Ideal S50000x23 .f32) (w : FVec Ideal S23x128 .f32) (r : Fin 50000) (q : Fin 128) :
    Cert.RefOps.matM1 x w (ix2 r q) = ∑ k : Fin 23, x (ix2 r k) * w (ix2 k q) := by
  unfold Cert.RefOps.matM1
  simp only [Host.dotGeneral]
  rw [Ideal.dotGeneral_apply, ← Equiv.sum_comp (contrEquiv1 Cert.ReferenceIdeal.dot_S50000x23_S23x128_S50000x128_1_0_0_1_n_n 23 rfl rfl).symm]
  refine Finset.sum_congr rfl fun k _ => ?_
  have hk := contrEquiv1_symm_val Cert.ReferenceIdeal.dot_S50000x23_S23x128_S50000x128_1_0_0_1_n_n 23 rfl rfl k
  have el : Cert.ReferenceIdeal.dot_S50000x23_S23x128_S50000x128_1_0_0_1_n_n.lhsIdx (ix2 r q) ((contrEquiv1 Cert.ReferenceIdeal.dot_S50000x23_S23x128_S50000x128_1_0_0_1_n_n 23 rfl rfl).symm k) = ix2 r k := funext fun a => Fin.ext (by
    match a with
    | ⟨0, _⟩ => exact dr_lhs_0 _ _
    | ⟨1, _⟩ => exact (dr_lhs_1 _ _).trans hk)
  have er : Cert.ReferenceIdeal.dot_S50000x23_S23x128_S50000x128_1_0_0_1_n_n.rhsIdx (ix2 r q) ((contrEquiv1 Cert.ReferenceIdeal.dot_S50000x23_S23x128_S50000x128_1_0_0_1_n_n 23 rfl rfl).symm k) = ix2 k q := funext fun a => Fin.ext (by
    match a with
    | ⟨0, _⟩ => exact (dr_rhs_0 _ _).trans hk
    | ⟨1, _⟩ => exact dr_rhs_1 _ _)
  rw [el, er]

end ReferenceDot

/-! ## From blocks to the array -/

/-- A stored block against the whole product: if the x block is rows r0 … r0 + 4999 of x and the W block is W, the
    block's entry at y is the product's entry at row r0 + y 0, column y 1. -/
theorem block_entry (x0 : Vec Ideal S5000x23 .f32) (x3 : Vec Ideal S23x128 .f32)
    (X : FVec Ideal S50000x23 .f32) (W : FVec Ideal S23x128 .f32) (r0 : Nat)
    (hx : ∀ (p : Fin 5000) (k : Fin 23) (hp : r0 + p.val < 50000), x0 (ix2 p k) = X (ix2 ⟨r0 + p.val, hp⟩ k))
    (hw : ∀ (k : Fin 23) (q : Fin 128), x3 (ix2 k q) = W (ix2 k q))
    (y : S5000x128.Idx) (i : S50000x128.Idx) (hi0 : (i 0).val = r0 + (y 0).val) (hi1 : (i 1).val = (y 1).val) :
    k3_pay1 (F := Ideal) x0 x3 y = Cert.RefOps.matM1 X W i := by
  obtain ⟨p, q, rfl⟩ : ∃ (p : Fin 5000) (q : Fin 128), y = ix2 p q := ⟨y 0, y 1, eq_ix2 y⟩
  have hp : r0 + p.val < 50000 := by have h := idx2_lt0 i; have e : (i 0).val = r0 + p.val := hi0; omega
  obtain rfl : i = ix2 ⟨r0 + p.val, hp⟩ q := by
    funext a; apply Fin.ext
    match a with
    | ⟨0, _⟩ => exact hi0
    | ⟨1, _⟩ => exact hi1
  rw [payload_apply, matM1_apply]
  exact Finset.sum_congr rfl fun k _ => by rw [hx p k hp, hw k q]

/-- The printed index maps over the grid: at point t the x block and the output block are block t of the rows and
    block 0 of the columns; W's one block is block (0, 0). -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the product x · W of the arrays as the region finds them. -/
theorem flushed_eq (c : Dev nD) (t : Fin cfg3.N) :
    (dat3 (F := Ideal) V c).flushed 2 t
      = ((cfg3.win 2).blk t).view.read (Elt Ideal) (Cert.RefOps.matM1 (V c main_v77) (V c main_arg12)) := by
  show (cfg3.win 2).cut (grid3.coords t) ((dat3 (F := Ideal) V c).after 2 t) = _
  rw [after3_2]
  unfold out3_2
  rw [View.canon_unit_zero offsets_zero]
  simp only [View.ld_unit_zero (S := S5000x23) offsets_zero, View.ld_unit_zero (S := S23x128) offsets_zero]
  obtain ⟨e0, e1, e2, e3, e4, e5⟩ := index_facts t
  funext j
  refine block_entry (iblk3 V c 0 t) (iblk3 V c 1 t) (V c main_v77) (V c main_arg12) (t.val * 5000) ?_ ?_ j
    (((cfg3.win 2).blk t).view.emb j) ?_ ?_
  · intro p k hp
    show V c main_v77 (((cfg3.win 0).blk t).view.emb (ix2 p k)) = _
    refine congrArg (V c main_v77) (funext fun a => Fin.ext ?_)
    match a with
    | ⟨0, _⟩ => show win3_0.index t (0 : Fin 2) * 5000 + 1 * p.val = t.val * 5000 + p.val; omega
    | ⟨1, _⟩ => show win3_0.index t (1 : Fin 2) * 23 + 1 * k.val = k.val; omega
  · intro k q
    show V c main_arg12 (((cfg3.win 1).blk t).view.emb (ix2 k q)) = _
    refine congrArg (V c main_arg12) (funext fun a => Fin.ext ?_)
    match a with
    | ⟨0, _⟩ => show win3_1.index t (0 : Fin 2) * 23 + 1 * k.val = k.val; omega
    | ⟨1, _⟩ => show win3_1.index t (1 : Fin 2) * 128 + 1 * q.val = q.val; omega
  · show win3_2.index t (0 : Fin 2) * 5000 + 1 * (j 0).val = t.val * 5000 + (j 0).val; omega
  · show win3_2.index t (1 : Fin 2) * 128 + 1 * (j 1).val = (j 1).val; omega

/-- An index of the output array is in point t's block iff each coordinate is in the block's range on its axis. -/
theorem mem_block (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v107).slice (win3_2.rect t)).set ↔ _
  rw [View.set_slice_whole, Rect.mem_set_unit]
  exact Iff.rfl

/-- Every index of the output array lies in the block of the point its row's quotient by 5000 names. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  let t : Fin cfg3.N := ⟨(i 0).val / 5000, by rw [show cfg3.N = 10 from N_3]; omega⟩
  obtain ⟨e0, e1, e2, e3, e4, e5⟩ := index_facts t
  have tv : t.val = (i 0).val / 5000 := rfl
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region is the product x · W of the region's two input arrays. -/
theorem array (c : Dev nD) :
    (dat3 (F := Ideal) V c).arrAt 2 cfg3.N = Cert.RefOps.matM1 (V c main_v77) (V c main_arg12) :=
  (dat3 (F := Ideal) V c).arrAt_eq_of_cover 2 (Cert.RefOps.matM1 (V c main_v77) (V c main_arg12))
    (fun t _ => flushed_eq V c t) cover

end Cert.Region3

end
-- ==== Proof.Region4.lean ====
import proofs.«429129_j3384434230027_2_alg».proof.Proof.Gen.KernelIdeal.Frame
import proofs.«429129_j3384434230027_2_alg».proof.Proof.RefOps
import proofs.«429129_j3384434230027_2_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region4

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The kernel's product read at an index -/

/-- Row coordinate of the left operand's index: the output's row. -/
theorem kdot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Column coordinate of the left operand's index: the contraction index. -/
theorem kdot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Row coordinate of the right operand's index: the contraction index. -/
theorem kdot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Column coordinate of the right operand's index: the output's column. -/
theorem kdot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product with a zero accumulator, entry (p, q): the sum over k of h (p, k) · w (k, q). -/
theorem kmatmul_apply (h : FVec Ideal S5000x128 .bf16) (w : FVec Ideal S128x128 .bf16) (p : Fin 5000) (q : Fin 128) :
    matmul (F := Ideal) dot_S5000x128_S128x128_S5000x128_1_0_0_1_n_n none h w (constant (F := Ideal) S5000x128 .f32 0x00000000#32) (ix2 p q)
      = ∑ k : Fin 128, h (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact kdot_lhs_0 _ _
    | ⟨1, _⟩ => exact (kdot_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (kdot_rhs_0 _ _).trans hk
    | ⟨1, _⟩ => exact kdot_rhs_1 _ _)
  rw [el, er]

/-! ## The body's arithmetic read at an index -/

/-- A column broadcast along the features, entry (p, q): the column's entry p. -/
theorem bcast_col_apply (v : FVec Ideal S5000x1 .f32) (p : Fin 5000) (q : Fin 128) :
    broadcastTo S5000x128 v broadcasts_S5000x1_S5000x128 (ix2 p q) = v (ix2 p (0 : Fin 1)) := by
  refine broadcastTo_apply v _ (ix2 p q) (ix2 p (0 : Fin 1)) fun ax => ?_
  match ax with
  | ⟨0, _⟩ => show p.val = if (5000 : Nat) = 1 then 0 else p.val; rw [if_neg (by decide)]
  | ⟨1, _⟩ => show 0 = if (1 : Nat) = 1 then 0 else q.val; rw [if_pos rfl]

/-- The body's payload, entry (p, q): the sum over k of relu (agg (p, k) + xw (p, k) · rd p + b k) · W (k, q). -/
theorem pay_apply (x0 : Vec Ideal S5000x128 .f32) (x1 : Vec Ideal S5000x128 .bf16) (x2 : Vec Ideal S5000x1 .f32)
    (x3 : Vec Ideal S1x128 .f32) (x4 : Vec Ideal S128x128 .f32) (p : Fin 5000) (q : Fin 128) :
    k4_pay1 (F := Ideal) x0 x1 x2 x3 x4 (ix2 p q)
      = ∑ k : Fin 128, max (x0 (ix2 p k) + x1 (ix2 p k) * x2 (ix2 p (0 : Fin 1)) + x3 (ix2 (0 : Fin 1) k)) 0 * x4 (ix2 k q) := by
  unfold k4_pay1
  rw [truncf_apply]
  refine (kmatmul_apply _ _ p q).trans ?_
  refine Finset.sum_congr rfl fun k _ => ?_
  simp only [shapeCast_self]
  rw [truncf_apply, truncf_apply, maximumf_apply, addf_apply, addf_apply, mulf_apply, extf_apply, broadcast_apply,
    bcast_col_apply, broadcastTo_1b_ab_apply]
  show max _ (Ideal.ofBits .f32 0x00000000#32) * _ = _
  rw [Ideal.ofBits_zero_f32]

/-! ## The reference's finish and product read at an index -/

/-- Row coordinate of the left operand's index: the output's row. -/
theorem rdot_lhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
/-- Column coordinate of the left operand's index: the contraction index. -/
theorem rdot_lhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
/-- Row coordinate of the right operand's index: the contraction index. -/
theorem rdot_rhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
/-- Column coordinate of the right operand's index: the output's column. -/
theorem rdot_rhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The reference's product h · W, entry (r, q): the sum over k of h (r, k) · W (k, q). -/
theorem matM2_apply (h : FVec Ideal Cert.ReferenceIdeal.S50000x128 .f32) (w : FVec Ideal Cert.ReferenceIdeal.S128x128 .f32)
    (r : Fin 50000) (q : Fin 128) :
    Cert.RefOps.matM2 h w (ix2 r q) = ∑ k : Fin 128, h (ix2 r k) * w (ix2 k q) := by
  unfold Cert.RefOps.matM2
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k := funext fun a => Fin.ext (by
    match a with
    | ⟨0, _⟩ => exact rdot_lhs_0 _ _
    | ⟨1, _⟩ => exact (rdot_lhs_1 _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q := funext fun a => Fin.ext (by
    match a with
    | ⟨0, _⟩ => exact (rdot_rhs_0 _ _).trans hk
    | ⟨1, _⟩ => exact rdot_rhs_1 _ _)
  rw [el, er]

/-- The degrees as a column, then along the features, entry (r, k): the degree of row r. -/
theorem bcast_deg_apply (deg : FVec Ideal Cert.ReferenceIdeal.S50000 .f32) (r : Fin 50000) (k : Fin 128) :
    broadcastInDim Cert.ReferenceIdeal.S50000x128 ![0, 1] Cert.ReferenceIdeal.Facts₀.bcast_S50000x1_S50000x128_0_1
        (broadcastInDim Cert.ReferenceIdeal.S50000x1 ![0] Cert.ReferenceIdeal.Facts₀.bcast_S50000_S50000x1_0 deg) (ix2 r k)
      = deg (ix1 r) := by
  refine (broadcastInDim_apply _ Cert.ReferenceIdeal.Facts₀.bcast_S50000x1_S50000x128_0_1 _ (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])).trans ?_
  exact broadcastInDim_apply _ Cert.ReferenceIdeal.Facts₀.bcast_S50000_S50000x1_0 deg (ix2 r (0 : Fin 1)) (ix1 r) (fun a => match a with
    | ⟨0, _⟩ => by show r.val = if (50000 : Nat) = 1 then 0 else r.val; rw [if_neg (by decide)])

/-- The bias as a row, then along the nodes, entry (r, k): the bias of feature k. -/
theorem bcast_bias_apply (b : FVec Ideal Cert.ReferenceIdeal.S128 .f32) (r : Fin 50000) (k : Fin 128) :
    broadcastInDim Cert.ReferenceIdeal.S50000x128 ![0, 1] Cert.ReferenceIdeal.Facts₀.bcast_S1x128_S50000x128_0_1
        (broadcastInDim Cert.ReferenceIdeal.S1x128 ![1] Cert.ReferenceIdeal.Facts₀.bcast_S128_S1x128_1 b) (ix2 r k)
      = b (ix1 k) := by
  refine (broadcastInDim_apply _ Cert.ReferenceIdeal.Facts₀.bcast_S1x128_S50000x128_0_1 _ (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])).trans ?_
  exact broadcastInDim_apply _ Cert.ReferenceIdeal.Facts₀.bcast_S128_S1x128_1 b (ix2 (0 : Fin 1) k) (ix1 k) (fun a => match a with
    | ⟨0, _⟩ => by show k.val = if (128 : Nat) = 1 then 0 else k.val; rw [if_neg (by decide)])

/-- The reference's finish, entry (r, k): relu (agg (r, k) + xw (r, k) / deg r + b k). -/
theorem finishM_apply (agg xw : FVec Ideal Cert.ReferenceIdeal.S50000x128 .f32) (deg : FVec Ideal Cert.ReferenceIdeal.S50000 .f32)
    (b : FVec Ideal Cert.ReferenceIdeal.S128 .f32) (r : Fin 50000) (k : Fin 128) :
    Cert.RefOps.finishM agg xw deg b (ix2 r k)
      = max (agg (ix2 r k) + Ideal.div (xw (ix2 r k)) (deg (ix1 r)) + b (ix1 k)) 0 := by
  unfold Cert.RefOps.finishM
  rw [maximumf_apply, addf_apply, addf_apply, bcast_bias_apply]
  show max (agg (ix2 r k) + Ideal.div (xw (ix2 r k)) (broadcastInDim Cert.ReferenceIdeal.S50000x128 ![0, 1] Cert.ReferenceIdeal.Facts₀.bcast_S50000x1_S50000x128_0_1
        (broadcastInDim Cert.ReferenceIdeal.S50000x1 ![0] Cert.ReferenceIdeal.Facts₀.bcast_S50000_S50000x1_0 deg) (ix2 r k)) + b (ix1 k)) (Ideal.ofBits .f32 0x00000000#32) = _
  rw [bcast_deg_apply, Ideal.ofBits_zero_f32]

/-! ## From blocks to the array -/

theorem zero_offsets : (![0, 0] : Fin 2 → Nat) = fun _ => 0 :=
  funext fun a => match a with | ⟨0, _⟩ => rfl | ⟨1, _⟩ => rfl

/-- The index maps over the grid: the row-blocked windows sit at row block t, the bias and the weights at their
    one block. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Block t of the aggregate, entry (p, k): row 5000 t + p of the array. -/
theorem blk_agg_apply (c : Dev nD) (t : Fin cfg4.N) (p : Fin 5000) (k : Fin 128) (r : Fin 50000)
    (hr : r.val = 5000 * t.val + p.val) :
    iblk4 (F := Ideal) V c 0 t (ix2 p k) = V c main_v121 (ix2 r k) := by
  obtain ⟨e0, e1, -⟩ := idx_facts t
  show V c main_v121 (((cfg4.win 0).blk t).view.emb (ix2 p k)) = V c main_v121 (ix2 r k)
  refine congrArg (V c main_v121) (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

/-- Block t of the feature product, entry (p, k): row 5000 t + p of the array. -/
theorem blk_xw_apply (c : Dev nD) (t : Fin cfg4.N) (p : Fin 5000) (k : Fin 128) (r : Fin 50000)
    (hr : r.val = 5000 * t.val + p.val) :
    iblk4 (F := Ideal) V c 1 t (ix2 p k) = V c main_v107 (ix2 r k) := by
  obtain ⟨-, -, e0, e1, -⟩ := idx_facts t
  show V c main_v107 (((cfg4.win 1).blk t).view.emb (ix2 p k)) = V c main_v107 (ix2 r k)
  refine congrArg (V c main_v107) (funext fun a => Fin.ext ?_)
  match a with
  | ⟨0, _⟩ => show win4_1.index t (0 : Fin 2) * 5000 + 1 * p.val = r.val; omega
  | ⟨1, _⟩ => show win4_1.index t (1 : Fin 2) * 128 + 1 * k.val = k.val; omega

/-- Block t of the reciprocal degrees, entry (p, 0): row 5000 t + p of the column. -/
theorem blk_rd_apply (c : Dev nD) (t : Fin cfg4.N) (p : Fin 5000) (r : Fin 50000)
    (hr : r.val = 5000 * t.val + p.val) :
    iblk4 (F := Ideal) V c 2 t (ix2 p (0 : Fin 1)) = V c main_v91 (ix2 r (0 : Fin 1)) := by
  obtain ⟨-, -, -, -, e0, e1, -⟩ := idx_facts t
  show V c main_v91 (((cfg4.win 2).blk t).view.emb (ix2 p (0 : Fin 1))) = V c main_v91 (ix2 r (0 : Fin 1))
  refine congrArg (V c main_v91) (funext fun a => Fin.ext ?_)
  match a with
  | ⟨0, _⟩ => show win4_2.index t (0 : Fin 2) * 5000 + 1 * p.val = r.val; omega
  | ⟨1, _⟩ => show win4_2.index t (1 : Fin 2) * 1 + 1 * 0 = 0; omega

/-- The bias row's one block, entry (0, k): the row's entry k. -/
theorem blk_bias_apply (c : Dev nD) (t : Fin cfg4.N) (k : Fin 128) :
    iblk4 (F := Ideal) V c 3 t (ix2 (0 : Fin 1) k) = V c main_v122 (ix2 (0 : Fin 1) k) := by
  obtain ⟨-, -, -, -, -, -, e0, e1, -⟩ := idx_facts t
  show V c main_v122 (((cfg4.win 3).blk t).view.emb (ix2 (0 : Fin 1) k)) = V c main_v122 (ix2 (0 : Fin 1) k)
  refine congrArg (V c main_v122) (funext fun a => Fin.ext ?_)
  match a with
  | ⟨0, _⟩ => show win4_3.index t (0 : Fin 2) * 1 + 1 * 0 = 0; omega
  | ⟨1, _⟩ => show win4_3.index t (1 : Fin 2) * 128 + 1 * k.val = k.val; omega

/-- The weights' one block, entry (k, q): the array's entry (k, q). -/
theorem blk_w_apply (c : Dev nD) (t : Fin cfg4.N) (k q : Fin 128) :
    iblk4 (F := Ideal) V c 4 t (ix2 k q) = V c main_arg14 (ix2 k q) := by
  obtain ⟨-, -, -, -, -, -, -, -, e0, e1, -⟩ := idx_facts t
  show V c main_arg14 (((cfg4.win 4).blk t).view.emb (ix2 k q)) = V c main_arg14 (ix2 k q)
  refine congrArg (V c main_arg14) (funext fun a => Fin.ext ?_)
  match a with
  | ⟨0, _⟩ => show win4_4.index t (0 : Fin 2) * 128 + 1 * k.val = k.val; omega
  | ⟨1, _⟩ => show win4_4.index t (1 : Fin 2) * 128 + 1 * q.val = q.val; omega

/-- One term of the two sums: multiplying by the reciprocal degree is dividing by the degree, off zero. -/
theorem combine_term (a x rd bias w d bk : EReal) (hrd : rd = Ideal.div 1 d) (hd : d ≠ 0) (hb : bias = bk) :
    max (a + x * rd + bias) 0 * w = max (a + Ideal.div x d + bk) 0 * w := by
  rw [hrd, hb, Cert.GnnAlgebra.mul_div_one x d hd]

/-- WHAT POINT t WRITES BACK is block t of the reference's finish-then-product of the arrays as the region finds them. -/
theorem flushed_eq (c : Dev nD) (deg : FVec Ideal S50000 .f32) (b : FVec Ideal S128 .f32)
    (hrd : ∀ r : Fin 50000, V c main_v91 (ix2 r (0 : Fin 1)) = Ideal.div 1 (deg (ix1 r)))
    (hdeg : ∀ r : Fin 50000, deg (ix1 r) ≠ 0)
    (hb : ∀ k : Fin 128, V c main_v122 (ix2 (0 : Fin 1) k) = b (ix1 k)) (t : Fin cfg4.N) :
    (dat4 (F := Ideal) V c).flushed 5 t = ((cfg4.win 5).blk t).view.read (Elt Ideal)
      (Cert.RefOps.matM2 (Cert.RefOps.finishM (V c main_v121) (V c main_v107) deg b) (V c main_arg14)) := by
  show (cfg4.win 5).cut (grid4.coords t) ((dat4 (F := Ideal) V c).after 5 t) = _
  rw [after4_5]
  unfold out4_5
  rw [View.canon_unit_zero zero_offsets]
  simp only [View.ld_unit_zero (S := S5000x128) zero_offsets, View.ld_unit_zero (S := S5000x1) zero_offsets,
    View.ld_unit_zero (S := S1x128) zero_offsets, View.ld_unit_zero (S := S128x128) zero_offsets]
  funext j
  obtain ⟨p, q, rfl⟩ : ∃ (p : Fin 5000) (q : Fin 128), j = ix2 p q := ⟨j 0, j 1, eq_ix2 j⟩
  have hN : grid4.N = 10 := N_4
  have ht : t.val < grid4.N := t.isLt
  have hp : p.val < 5000 := p.isLt
  obtain ⟨r, hr⟩ : ∃ r : Fin 50000, r.val = 5000 * t.val + p.val := ⟨⟨5000 * t.val + p.val, by omega⟩, rfl⟩
  have hemb : ((cfg4.win 5).blk t).view.emb (ix2 p q) = ix2 r q := funext fun a => Fin.ext (by
    obtain ⟨-, -, -, -, -, -, -, -, -, -, e0, e1⟩ := idx_facts t
    match a with
    | ⟨0, _⟩ => show win4_5.index t (0 : Fin 2) * 5000 + 1 * p.val = r.val; omega
    | ⟨1, _⟩ => show win4_5.index t (1 : Fin 2) * 128 + 1 * q.val = q.val; omega)
  show k4_pay1 (F := Ideal) (iblk4 V c 0 t) (iblk4 V c 1 t) (iblk4 V c 2 t) (iblk4 V c 3 t) (iblk4 V c 4 t) (ix2 p q)
    = Cert.RefOps.matM2 (Cert.RefOps.finishM (V c main_v121) (V c main_v107) deg b) (V c main_arg14) (((cfg4.win 5).blk t).view.emb (ix2 p q))
  rw [hemb]
  refine (pay_apply _ _ _ _ _ p q).trans ?_
  refine Eq.trans ?_ (matM2_apply _ _ r q).symm
  refine Finset.sum_congr rfl fun k _ => ?_
  rw [finishM_apply, blk_agg_apply V c t p k r hr, blk_xw_apply V c t p k r hr, blk_rd_apply V c t p r hr,
    blk_bias_apply V c t k, blk_w_apply V c t k q]
  exact combine_term _ _ _ _ _ _ _ (hrd r) (hdeg r) (hb k)

/-- An index of the array is in point t's block iff each coordinate is in the block's range on its axis. -/
theorem mem_blk (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v123).slice (win4_5.rect t)).set ↔ _
  rw [View.set_slice_whole, Rect.mem_set_unit]
  exact Iff.rfl

/-- Row r lies in the block of point r / 5000. -/
theorem cover (i : S50000x128.Idx) :
    ∃ t : Fin cfg4.N, (cfg4.win 5).flush t = true ∧ i ∈ ((cfg4.win 5).blk t).view.set := by
  have h0 : (i 0).val < 50000 := idx2_lt0 i
  have h1 : (i 1).val < 128 := idx2_lt1 i
  have hN : grid4.N = 10 := N_4
  obtain ⟨t, htv⟩ : ∃ t : Fin cfg4.N, t.val = (i 0).val / 5000 := ⟨⟨(i 0).val / 5000, by show _ < grid4.N; omega⟩, rfl⟩
  refine ⟨t, flush4_5 t, ?_⟩
  rw [mem_blk]
  obtain ⟨-, -, -, -, -, -, -, -, -, -, e0, e1⟩ := idx_facts t
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

theorem array (c : Dev nD) (deg : FVec Ideal S50000 .f32) (b : FVec Ideal S128 .f32)
    (hrd : ∀ r : Fin 50000, V c main_v91 (ix2 r (0 : Fin 1)) = Ideal.div 1 (deg (ix1 r)))
    (hdeg : ∀ r : Fin 50000, deg (ix1 r) ≠ 0)
    (hb : ∀ k : Fin 128, V c main_v122 (ix2 (0 : Fin 1) k) = b (ix1 k)) :
    (dat4 (F := Ideal) V c).arrAt 5 cfg4.N
      = Cert.RefOps.matM2 (Cert.RefOps.finishM (V c main_v121) (V c main_v107) deg b) (V c main_arg14) :=
  (dat4 (F := Ideal) V c).arrAt_eq_of_cover 5 _ (fun t _ => flushed_eq V c deg b hrd hdeg hb t) cover

end Cert.Region4

end
-- ==== Proof.Region5.lean ====
/-
  Region 5 of @main: the second layer's finish on the small-molecule graph, 10 grid points of 5000 rows each.

  Point t reads rows 5000·t … 5000·t+4999 of the aggregate agg and of the feature product xw, the same rows of the
  column of reciprocal degrees, and the bias row, and writes max (agg + xw · rd + b) 0 to the same rows of the
  output. With the column's entry r equal to 1 / deg r and deg r ≠ 0, xw · (1 / deg r) = xw / deg r, so every
  entry is the reference's relu (agg + xw / deg + b); the 10 row blocks fill the 50000 rows, so the output array
  is that function of the arrays the region finds.
-/
import proofs.«429129_j3384434230027_2_alg».proof.Proof.Gen.KernelIdeal.Frame
import proofs.«429129_j3384434230027_2_alg».proof.Proof.RefOps
import proofs.«429129_j3384434230027_2_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region5

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The zero offset of a block's rectangle, as a function. -/
theorem offset_zero : (![0, 0] : Fin 2 → Nat) = fun _ => 0 := funext fun a => by fin_cases a <;> rfl

/-! ## The body's result at an index -/

/-- A column [5000,1] spread along the lanes, read at (p, q), is the column's entry p. -/
theorem column_spread_apply (x : Vec Ideal S5000x1 .f32) (p : Fin 5000) (q : Fin 128) :
    broadcastTo S5000x128 x broadcasts_S5000x1_S5000x128 (ix2 p q) = x (ix2 p (0 : Fin 1)) :=
  broadcastTo_apply x broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A row [1,128] spread along the rows, read at (p, q), is the row's entry q. -/
theorem row_spread_apply (x : Vec Ideal S1x128 .f32) (p : Fin 5000) (q : Fin 128) :
    broadcastTo S5000x128 x broadcasts_S1x128_S5000x128 (ix2 p q) = x (ix2 (0 : Fin 1) q) :=
  broadcastTo_apply x broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The body's result at (p, q): max (agg + xw · rd + b) 0, the column read at row p, the row at lane q. -/
theorem payload_apply (x0 : Vec Ideal S5000x128 .f32) (x1 : Vec Ideal S5000x128 .bf16) (x2 : Vec Ideal S5000x1 .f32)
    (x3 : Vec Ideal S1x128 .f32) (p : Fin 5000) (q : Fin 128) :
    k5_pay1 (F := Ideal) x0 x1 x2 x3 (ix2 p q)
      = max (x0 (ix2 p q) + x1 (ix2 p q) * x2 (ix2 p (0 : Fin 1)) + x3 (ix2 (0 : Fin 1) q)) 0 := by
  unfold k5_pay1
  rw [maximumf_apply, addf_apply, addf_apply, mulf_apply, extf_apply, broadcast_apply]
  rw [shapeCast_self, shapeCast_self, shapeCast_self, shapeCast_self, column_spread_apply, row_spread_apply]
  exact congrArg (max _) Ideal.ofBits_zero_f32

/-! ## The reference's finish at an index -/

/-- A vector [50000] set as a column and spread along the lanes, read at (r, k), is its entry r. -/
theorem ref_column_apply (deg : FVec Ideal S50000 .f32) (h1 : S50000.BroadcastsInDim S50000x1 ![0])
    (h2 : S50000x1.BroadcastsInDim S50000x128 ![0, 1]) (r : Fin 50000) (k : Fin 128) :
    broadcastInDim S50000x128 ![0, 1] h2 (broadcastInDim S50000x1 ![0] h1 deg) (ix2 r k) = deg (ix1 r) := by
  refine (broadcastInDim_apply _ h2 _ (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])).trans ?_
  exact broadcastInDim_apply _ h1 deg (ix2 r (0 : Fin 1)) (ix1 r) (fun a => match a with
    | ⟨0, _⟩ => by show r.val = if (50000 : Nat) = 1 then 0 else r.val; rw [if_neg (by decide)])

/-- A vector [128] set as a row and spread along the rows, read at (r, k), is its entry k. -/
theorem ref_row_apply (b : FVec Ideal S128 .f32) (h1 : S128.BroadcastsInDim S1x128 ![1])
    (h2 : S1x128.BroadcastsInDim S50000x128 ![0, 1]) (r : Fin 50000) (k : Fin 128) :
    broadcastInDim S50000x128 ![0, 1] h2 (broadcastInDim S1x128 ![1] h1 b) (ix2 r k) = b (ix1 k) := by
  refine (broadcastInDim_apply _ h2 _ (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])).trans ?_
  exact broadcastInDim_apply _ h1 b (ix2 (0 : Fin 1) k) (ix1 k) (fun a => match a with
    | ⟨0, _⟩ => by show k.val = if (128 : Nat) = 1 then 0 else k.val; rw [if_neg (by decide)])

/-- The zero scalar spread over [50000,128] is 0 at every index. -/
theorem ref_zero_apply (h : Cert.ReferenceIdeal.S_.BroadcastsInDim S50000x128 ![]) (i : S50000x128.Idx) :
    broadcastInDim S50000x128 ![] h (constant (F := Ideal) Cert.ReferenceIdeal.S_ .f32 0x00000000#32) i = 0 := by
  refine (broadcastInDim_apply _ h _ i (fun a => a.elim0) (fun a => a.elim0)).trans ?_
  rw [constant_apply]
  exact Ideal.ofBits_zero_f32

/-- The host's quotient of two arrays at an index is the quotient of the entries. -/
theorem host_div_apply {s : Shape} {φ : FTy} (x y : FVec Ideal s φ) (i : s.Idx) :
    Host.divf x y i = Ideal.div (x i) (y i) := rfl

/-- The reference's finish at (r, k): max (agg + xw / deg r + b k) 0. -/
theorem finishM_apply (agg xw : FVec Ideal S50000x128 .f32) (deg : FVec Ideal S50000 .f32) (b : FVec Ideal S128 .f32)
    (r : Fin 50000) (k : Fin 128) :
    Cert.RefOps.finishM agg xw deg b (ix2 r k)
      = max (agg (ix2 r k) + Ideal.div (xw (ix2 r k)) (deg (ix1 r)) + b (ix1 k)) 0 := by
  unfold Cert.RefOps.finishM
  rw [maximumf_apply, addf_apply, addf_apply, ref_zero_apply, ref_row_apply, host_div_apply, ref_column_apply]

/-! ## Kernel and reference agree entry by entry -/

/-- With the column holding the reciprocal degrees and the row the bias, the body's arithmetic at row r, lane k is the
    reference's finish there: xw · (1 / deg r) = xw / deg r off zero. -/
theorem point_eq (agg xw : FVec Ideal S50000x128 .f32) (rd : FVec Ideal S50000x1 .f32) (bias : FVec Ideal S1x128 .f32)
    (deg : FVec Ideal S50000 .f32) (b : FVec Ideal S128 .f32)
    (hrd : ∀ r : Fin 50000, rd (ix2 r (0 : Fin 1)) = Ideal.div 1 (deg (ix1 r)))
    (hdeg : ∀ r : Fin 50000, deg (ix1 r) ≠ 0)
    (hb : ∀ k : Fin 128, bias (ix2 (0 : Fin 1) k) = b (ix1 k)) (r : Fin 50000) (k : Fin 128) :
    max (agg (ix2 r k) + xw (ix2 r k) * rd (ix2 r (0 : Fin 1)) + bias (ix2 (0 : Fin 1) k)) 0
      = Cert.RefOps.finishM agg xw deg b (ix2 r k) := by
  rw [finishM_apply, hrd r, hb k, Cert.GnnAlgebra.mul_div_one _ _ (hdeg r)]

/-! ## From blocks to the array -/

/-- The printed index maps, decided over the 10 grid points: every row-blocked window sits at row block t, lane block 0;
    the bias row at its one block. -/
theorem index_facts : ∀ t : Fin cfg5.N, t.val < 10
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Every row block is some point's. -/
theorem index_onto : ∀ q0 : Fin 10, ∃ t : Fin cfg5.N, win5_4.index t = ![q0.val, 0] :=
  (by decide +kernel : ∀ q0 : Fin 10, ∃ t : Fin grid5.N, win5_4.index t = ![q0.val, 0])

/-- WHAT POINT t WRITES BACK is block t of the reference's finish. -/
theorem flushed_eq (c : Dev nD) (deg : FVec Ideal S50000 .f32) (b : FVec Ideal S128 .f32)
    (hrd : ∀ r : Fin 50000, V c main_v91 (ix2 r (0 : Fin 1)) = Ideal.div 1 (deg (ix1 r)))
    (hdeg : ∀ r : Fin 50000, deg (ix1 r) ≠ 0)
    (hb : ∀ k : Fin 128, V c main_v138 (ix2 (0 : Fin 1) k) = b (ix1 k)) (t : Fin cfg5.N) :
    (dat5 (F := Ideal) V c).flushed 4 t
      = ((cfg5.win 4).blk t).view.read (Elt Ideal) (Cert.RefOps.finishM (V c main_v137) (V c main_v123) deg b) := by
  show (cfg5.win 4).cut (grid5.coords t) ((dat5 (F := Ideal) V c).after 4 t) = _
  rw [after5_4]
  unfold out5_4
  rw [View.canon_unit_zero offset_zero]
  simp only [View.ld_unit_zero (S := S5000x128) offset_zero, View.ld_unit_zero (S := S5000x1) offset_zero,
    View.ld_unit_zero (S := S1x128) offset_zero]
  obtain ⟨ht, e00, e01, e10, e11, e20, e21, e30, e31, e40, e41⟩ := index_facts t
  funext j
  obtain ⟨p, q, rfl⟩ : ∃ (p : Fin 5000) (q : Fin 128), j = ix2 p q := ⟨j 0, j 1, eq_ix2 j⟩
  have hr : t.val * 5000 + p.val < 50000 := by have hp : p.val < 5000 := p.isLt; omega
  have h0 : ((cfg5.win 0).blk t).view.emb (ix2 p q) = ix2 (⟨t.val * 5000 + p.val, hr⟩ : Fin 50000) q := by
    funext a; apply Fin.ext
    match a with
    | ⟨0, _⟩ => show win5_0.index t (0 : Fin 2) * 5000 + 1 * p.val = t.val * 5000 + p.val; omega
    | ⟨1, _⟩ => show win5_0.index t (1 : Fin 2) * 128 + 1 * q.val = q.val; omega
  have h1 : ((cfg5.win 1).blk t).view.emb (ix2 p q) = ix2 (⟨t.val * 5000 + p.val, hr⟩ : Fin 50000) q := by
    funext a; apply Fin.ext
    match a with
    | ⟨0, _⟩ => show win5_1.index t (0 : Fin 2) * 5000 + 1 * p.val = t.val * 5000 + p.val; omega
    | ⟨1, _⟩ => show win5_1.index t (1 : Fin 2) * 128 + 1 * q.val = q.val; omega
  have h2 : ((cfg5.win 2).blk t).view.emb (ix2 p (0 : Fin 1)) = ix2 (⟨t.val * 5000 + p.val, hr⟩ : Fin 50000) (0 : Fin 1) := by
    funext a; apply Fin.ext
    match a with
    | ⟨0, _⟩ => show win5_2.index t (0 : Fin 2) * 5000 + 1 * p.val = t.val * 5000 + p.val; omega
    | ⟨1, _⟩ => show win5_2.index t (1 : Fin 2) * 1 + 1 * 0 = 0; omega
  have h3 : ((cfg5.win 3).blk t).view.emb (ix2 (0 : Fin 1) q) = ix2 (0 : Fin 1) q := by
    funext a; apply Fin.ext
    match a with
    | ⟨0, _⟩ => show win5_3.index t (0 : Fin 2) * 1 + 1 * 0 = 0; omega
    | ⟨1, _⟩ => show win5_3.index t (1 : Fin 2) * 128 + 1 * q.val = q.val; omega
  have h4 : ((cfg5.win 4).blk t).view.emb (ix2 p q) = ix2 (⟨t.val * 5000 + p.val, hr⟩ : Fin 50000) q := by
    funext a; apply Fin.ext
    match a with
    | ⟨0, _⟩ => show win5_4.index t (0 : Fin 2) * 5000 + 1 * p.val = t.val * 5000 + p.val; omega
    | ⟨1, _⟩ => show win5_4.index t (1 : Fin 2) * 128 + 1 * q.val = q.val; omega
  show k5_pay1 (iblk5 V c 0 t) (iblk5 V c 1 t) (iblk5 V c 2 t) (iblk5 V c 3 t) (ix2 p q)
    = Cert.RefOps.finishM (V c main_v137) (V c main_v123) deg b (((cfg5.win 4).blk t).view.emb (ix2 p q))
  refine (payload_apply (iblk5 V c 0 t) (iblk5 V c 1 t) (iblk5 V c 2 t) (iblk5 V c 3 t) p q).trans ?_
  have g0 : iblk5 V c 0 t (ix2 p q) = V c main_v137 (ix2 (⟨t.val * 5000 + p.val, hr⟩ : Fin 50000) q) :=
    congrArg (V c main_v137) h0
  have g1 : iblk5 V c 1 t (ix2 p q) = V c main_v123 (ix2 (⟨t.val * 5000 + p.val, hr⟩ : Fin 50000) q) :=
    congrArg (V c main_v123) h1
  have g2 : iblk5 V c 2 t (ix2 p (0 : Fin 1)) = V c main_v91 (ix2 (⟨t.val * 5000 + p.val, hr⟩ : Fin 50000) (0 : Fin 1)) :=
    congrArg (V c main_v91) h2
  have g3 : iblk5 V c 3 t (ix2 (0 : Fin 1) q) = V c main_v138 (ix2 (0 : Fin 1) q) :=
    congrArg (V c main_v138) h3
  rw [g0, g1, g2, g3, h4]
  exact point_eq (V c main_v137) (V c main_v123) (V c main_v91) (V c main_v138) deg b hrd hdeg hb _ q

/-- An index of the array is in point t's block iff each coordinate is in the block's range on its axis. -/
theorem mem_blk (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v139).slice (win5_4.rect t)).set ↔ _
  rw [View.set_slice_whole, Rect.mem_set_unit]
  exact Iff.rfl

/-- Row r lies in the block of point r / 5000: the 10 blocks of 5000 rows fill the 50000 rows. -/
theorem cover (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht⟩ := index_onto ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- THE ARRAY after the region: the reference's finish of the aggregate, the feature product, the degrees and the bias. -/
theorem array (c : Dev nD) (deg : FVec Ideal S50000 .f32) (b : FVec Ideal S128 .f32)
    (hrd : ∀ r : Fin 50000, V c main_v91 (ix2 r (0 : Fin 1)) = Ideal.div 1 (deg (ix1 r)))
    (hdeg : ∀ r : Fin 50000, deg (ix1 r) ≠ 0)
    (hb : ∀ k : Fin 128, V c main_v138 (ix2 (0 : Fin 1) k) = b (ix1 k)) :
    (dat5 (F := Ideal) V c).arrAt 4 cfg5.N = Cert.RefOps.finishM (V c main_v137) (V c main_v123) deg b :=
  (dat5 (F := Ideal) V c).arrAt_eq_of_cover 4 (Cert.RefOps.finishM (V c main_v137) (V c main_v123) deg b)
    (fun t _ => flushed_eq V c deg b hrd hdeg hb t) cover

end Cert.Region5

end
-- ==== Proof.Region6.lean ====
import proofs.«429129_j3384434230027_2_alg».proof.Proof.Gen.KernelIdeal.Frame
import proofs.«429129_j3384434230027_2_alg».proof.Proof.RefOps
import proofs.«429129_j3384434230027_2_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region6

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-!
  Region 6: the head on the small-molecule graph, block by block and then as one array.

  The mathematics. Row r of the output is the head of row r: the node's 128 features joined with the row of the
  pooled table its graph number b names, an affine map into 128 hidden features, the relu, and an affine map into 3
  outputs. The kernel finds the table row as the sum over the 64 graphs of an indicator (1 at g = b, 0 elsewhere) times
  row g; zero times any extended real is zero, so the sum is row b whatever the table holds. The reference finds it by a
  row read at a start index: a graph number below 64 is not negative, so it is neither raised by 64 nor moved by the
  clamp into [0, 63], and the read is row b as well. Both sides then contract the same 256 joined columns with the
  first weight matrix, so they are the same sums. Every window is blocked along rows only (5000 rows to a block, ten
  blocks), so row p of point t's block is row 5000·t + p of the array, and the ten blocks cover the 50000 rows.
-/

/-! ## Words -/

/-- The indicator of a graph: column g compared with a graph number b below 64, widened and read as a float, is 1 at
    g = b and 0 elsewhere. -/
theorem indicator_word (b : BitVec 32) (g0 : Fin 64) (hb : b.toNat = g0.val) (g : Fin 64) :
    (FloatOps.sitofp (F := Ideal) .f32 ((IntOp.cmpi .eq (BitVec.ofNat 32 g.val) b).setWidth 32) : EReal)
      = if g = g0 then 1 else 0 := by
  have h1 : ((1#1 : BitVec 1).setWidth 32).toInt = 1 := by decide
  have h0 : ((0#1 : BitVec 1).setWidth 32).toInt = 0 := by decide
  have hg0 := g0.isLt
  by_cases h : g = g0
  · rw [if_pos h]
    have e : BitVec.ofNat 32 g.val = b := by rw [h, ← hb]; simp
    have hc : IntOp.cmpi .eq (BitVec.ofNat 32 g.val) b = 1#1 := by rw [e]; simp [IntOp.cmpi]
    rw [hc]
    show (((((1#1 : BitVec 1).setWidth 32).toInt : ℤ) : ℝ) : EReal) = 1
    rw [h1]; simp
  · rw [if_neg h]
    have e : ¬ BitVec.ofNat 32 g.val = b := by
      intro e
      apply h
      apply Fin.ext
      have := congrArg BitVec.toNat e
      simp at this
      have hg := g.isLt
      omega
    have hc : IntOp.cmpi .eq (BitVec.ofNat 32 g.val) b = 0#1 := by
      have hb' : (BitVec.ofNat 32 g.val == b) = false := beq_eq_false_iff_ne.mpr e
      simp [IntOp.cmpi, hb']
    rw [hc]
    show (((((0#1 : BitVec 1).setWidth 32).toInt : ℤ) : ℝ) : EReal) = 0
    rw [h0]; simp

/-- A graph number below 64 is not negative, so raising the negative ones by 64 leaves it alone. -/
theorem wrap_word (b : BitVec 32) (hb : b.toNat < 64) :
    Scalar.select (IntOp.cmpi .slt b 0#32) (IntOp.addi b 64#32) b = b := by
  have hs : IntOp.cmpi .slt b 0#32 = 0#1 := by
    have : b.slt 0#32 = false := by
      simp only [BitVec.slt, decide_eq_false_iff_not, not_lt]
      have : b.toInt = b.toNat := BitVec.toInt_eq_toNat_of_lt (by omega)
      rw [this]; simp
    simp [IntOp.cmpi, this]
  rw [hs, select_zero]

/-- Read signed and clamped into the 64 rows of the table, a graph number below 64 is itself. -/
theorem clamp_word (b : BitVec 32) (hb : b.toNat < 64) : min b.toInt.toNat 63 = b.toNat := by
  have : b.toInt = b.toNat := BitVec.toInt_eq_toNat_of_lt (by omega)
  rw [this]; simp; omega

section Plain
variable {N K M : Nat} (D : DotDims ⟨2, ![N, K]⟩ ⟨2, ![K, M]⟩ ⟨2, ![N, M]⟩)

/-- Rows times columns: with one contracted axis of extent K, the left operand read along its row and the right one
    down its column, the sum over the contraction index is the sum over k below K. -/
theorem sum_contr_plain (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (f : (⟨2, ![N, K]⟩ : Shape).Idx → EReal) (g : (⟨2, ![K, M]⟩ : Shape).Idx → EReal) (p : Fin N) (q : Fin M) :
    ∑ k : D.contr.Idx, f (D.lhsIdx (ix2 p q) k) * g (D.rhsIdx (ix2 p q) k) = ∑ k : Fin K, f (ix2 p k) * g (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact l0 _ _
    | ⟨1, _⟩ => exact (l1 _ _).trans hk)
  have er : D.rhsIdx (ix2 p q) ((contrEquiv1 D K hr hs).symm k) = ix2 k q := funext fun a => Fin.ext (by
    match a with
    | ⟨0, _⟩ => exact (r0 _ _).trans hk
    | ⟨1, _⟩ => exact r1 _ _)
  rw [el, er]

theorem lhs_row (hb : D.lhsBatch = []) (hn : D.lhsNonContracting = [0]) (i : (⟨2, ![N, M]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  have key : ∀ (a b : Nat) (ha : a < 2) (hb : b < 2), a = b → (i ⟨a, ha⟩).val = (i ⟨b, hb⟩).val :=
    fun a b ha hb h => by subst h; rfl
  exact key _ _ _ _ (by simp [hb, hn])

theorem rhs_col (hb : D.rhsBatch = []) (hlb : D.lhsBatch = []) (hln : D.lhsNonContracting = [0]) (hn : D.rhsNonContracting = [1])
    (i : (⟨2, ![N, M]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  have key : ∀ (a b : Nat) (ha : a < 2) (hb : b < 2), a = b → (i ⟨a, ha⟩).val = (i ⟨b, hb⟩).val :=
    fun a b ha hb h => by subst h; rfl
  exact key _ _ _ _ (by simp [hlb, hln, hn])

/-- The same from the dimension numbers of a plain product: contract the left operand's columns with the right one's rows. -/
theorem sum_contr_of_dims (hlc : D.lhsContracting = [1]) (hrc : D.rhsContracting = [0]) (hlb : D.lhsBatch = []) (hrb : D.rhsBatch = [])
    (hln : D.lhsNonContracting = [0]) (hrn : D.rhsNonContracting = [1])
    (f : (⟨2, ![N, K]⟩ : Shape).Idx → EReal) (g : (⟨2, ![K, M]⟩ : Shape).Idx → EReal) (p : Fin N) (q : Fin M) :
    ∑ k : D.contr.Idx, f (D.lhsIdx (ix2 p q) k) * g (D.rhsIdx (ix2 p q) k) = ∑ k : Fin K, f (ix2 p k) * g (ix2 k q) := by
  have hr : D.contr.rank = 1 := by rw [D.rank_contr, hlc]; rfl
  have hp : 0 < D.lhsContracting.length := by rw [hlc]; exact Nat.one_pos
  have hs : D.contr.size ⟨0, by omega⟩ = K := by
    have h1 := D.size_contr 0 hp
    have h2 : D.lhsContracting[0]'hp = 1 := by simp [hlc]
    rw [h2] at h1
    exact h1
  exact sum_contr_plain D hr hs (lhs_row D hlb hln) (fun i q => D.lhsIdx_val_of_single hlc i q)
    (fun i q => D.rhsIdx_val_of_single hrc i q) (rhs_col D hrb hlb hln hrn) f g p q

end Plain

/-- A kernel product into a zero accumulator, read at (p, q). -/
theorem matmul_plain_apply {N K M : Nat} {φ₁ φ₂ : FTy} (D : DotDims ⟨2, ![N, K]⟩ ⟨2, ![K, M]⟩ ⟨2, ![N, M]⟩)
    (hlc : D.lhsContracting = [1]) (hrc : D.rhsContracting = [0]) (hlb : D.lhsBatch = []) (hrb : D.rhsBatch = [])
    (hln : D.lhsNonContracting = [0]) (hrn : D.rhsNonContracting = [1])
    (f : FVec Ideal ⟨2, ![N, K]⟩ φ₁) (g : FVec Ideal ⟨2, ![K, M]⟩ φ₂) (p : Fin N) (q : Fin M) :
    matmul (F := Ideal) D none f g (constant (F := Ideal) ⟨2, ![N, M]⟩ .f32 0x00000000#32) (ix2 p q) = ∑ k : Fin K, f (ix2 p k) * g (ix2 k q) := by
  simp only [matmul]
  rw [Ideal.matmul_constant_zero_apply]
  exact sum_contr_of_dims D hlc hrc hlb hrb hln hrn f g p q

/-- The reference's product, read at (p, q). -/
theorem dotGeneral_plain_apply {N K M : Nat} {φ₁ φ₂ : FTy} (D : DotDims ⟨2, ![N, K]⟩ ⟨2, ![K, M]⟩ ⟨2, ![N, M]⟩)
    (hlc : D.lhsContracting = [1]) (hrc : D.rhsContracting = [0]) (hlb : D.lhsBatch = []) (hrb : D.rhsBatch = [])
    (hln : D.lhsNonContracting = [0]) (hrn : D.rhsNonContracting = [1])
    (f : FVec Ideal ⟨2, ![N, K]⟩ φ₁) (g : FVec Ideal ⟨2, ![K, M]⟩ φ₂) (p : Fin N) (q : Fin M) :
    Host.dotGeneral (F := Ideal) D none f g (ix2 p q) = ∑ k : Fin K, f (ix2 p k) * g (ix2 k q) := by
  simp only [Host.dotGeneral]
  rw [Ideal.dotGeneral_apply]
  exact sum_contr_of_dims D hlc hrc hlb hrb hln hrn f g p q

/-! ## Two arrays joined along columns -/

/-- Two [N,128] arrays joined along columns, read at (p, m): the first below column 128, the second from there on. -/
theorem concat_cols_apply {N : Nat} (A B : (⟨2, ![N, 128]⟩ : Shape).Idx → EReal)
    (hc : Shape.Concatenates [(⟨2, ![N, 128]⟩ : Shape), ⟨2, ![N, 128]⟩] ⟨2, ![N, 256]⟩ 1) (p : Fin N) (m : Fin 256) :
    concatenate ⟨2, ![N, 256]⟩ 1 [⟨⟨2, ![N, 128]⟩, A⟩, ⟨⟨2, ![N, 128]⟩, B⟩] hc (ix2 p m)
      = if hm : m.val < 128 then A (ix2 p ⟨m.val, hm⟩) else B (ix2 p ⟨m.val - 128, by have := m.isLt; omega⟩) := by
  by_cases hm : m.val < 128
  · rw [dif_pos hm]
    refine concatenate_pair_apply_left 1 A B hc (ix2 p m) rfl (ix2 p ⟨m.val, hm⟩) (fun b => ?_)
    match b with
    | ⟨0, _⟩ => rfl
    | ⟨1, _⟩ => rfl
  · rw [dif_neg hm]
    refine concatenate_pair_apply_right 1 A B hc (ix2 p m) rfl rfl (ix2 p ⟨m.val - 128, by have := m.isLt; omega⟩) (fun b hb => ?_) ?_
    · match b with
      | ⟨0, _⟩ => rfl
      | ⟨1, _⟩ => exact absurd rfl hb
    · show (m.val - 128) + 128 = m.val
      omega

/-! ## The head at one row -/

/-- The head at one row and one output column: the node's features joined with its graph's row of the pooled table,
    the first affine map and the relu, then the second affine map. -/
def headRow (hrow ctx : Fin 128 → EReal) (W1 : Fin 256 → Fin 128 → EReal) (B1 : Fin 128 → EReal) (W2 : Fin 128 → EReal)
    (B2 : EReal) : EReal :=
  (∑ k : Fin 128, max ((∑ m : Fin 256,
      (if hm : m.val < 128 then hrow ⟨m.val, hm⟩ else ctx ⟨m.val - 128, by have := m.isLt; omega⟩) * W1 m k) + B1 k) 0 * W2 k) + B2

/-! ## The kernel's body at an index -/

/-- The indicator array at (p, g): column g compared with row p's graph number. -/
theorem indicator_apply (x1 : IVec S5000x1 32) (hi : S5000x64.Iotas .tc 32 [1]) (hc : S5000x1.ShapeCasts S5000x1)
    (hb : S5000x1.Broadcasts S5000x64) (hlt : 1 < 32) (p : Fin 5000) (g : Fin 64) :
    (sitofp (F := Ideal) .f32 (extui 32 (cmpi .eq (iota .tc S5000x64 32 [1] hi)
        (broadcastTo S5000x64 (shapeCast S5000x1 (shapeCast S5000x1 x1 hc) hc) hb)) hlt) : FVec Ideal S5000x64 .f32) (ix2 p g)
      = FloatOps.sitofp (F := Ideal) .f32 ((IntOp.cmpi .eq (BitVec.ofNat 32 g.val) (x1 (ix2 p (0 : Fin 1)))).setWidth 32) := by
  rw [shapeCast_self, shapeCast_self]
  show FloatOps.sitofp (F := Ideal) .f32 ((IntOp.cmpi .eq (iota .tc S5000x64 32 [1] hi (ix2 p g))
      (broadcastTo S5000x64 x1 hb (ix2 p g))).setWidth 32) = _
  rw [iota_single_apply, broadcastTo_apply x1 hb (ix2 p g) (ix2 p (0 : Fin 1)) (fun a => match a with
    | ⟨0, _⟩ => by show p.val = if (5000 : Nat) = 1 then 0 else p.val; rw [if_neg (by decide)]
    | ⟨1, _⟩ => by show 0 = if (1 : Nat) = 1 then 0 else g.val; rw [if_pos rfl])]

/-- The indicators times the pooled table, summed over the 64 graphs: row p's graph's row of the table. -/
theorem ctx_apply (x1 : IVec S5000x1 32) (x2 : FVec Ideal S64x128 .f32) (hi : S5000x64.Iotas .tc 32 [1])
    (hc : S5000x1.ShapeCasts S5000x1) (hb : S5000x1.Broadcasts S5000x64) (hlt : 1 < 32) (hc2 : S64x128.ShapeCasts S64x128)
    (p : Fin 5000) (j : Fin 128) (g0 : Fin 64) (h0 : (x1 (ix2 p (0 : Fin 1))).toNat = g0.val) :
    matmul (F := Ideal) dot_S5000x64_S64x128_S5000x128_1_0_0_1_n_n none
        (sitofp (F := Ideal) .f32 (extui 32 (cmpi .eq (iota .tc S5000x64 32 [1] hi)
          (broadcastTo S5000x64 (shapeCast S5000x1 (shapeCast S5000x1 x1 hc) hc) hb)) hlt))
        (shapeCast S64x128 x2 hc2) (constant (F := Ideal) S5000x128 .f32 0x00000000#32) (ix2 p j)
      = x2 (ix2 g0 j) := by
  rw [matmul_plain_apply _ rfl rfl rfl rfl rfl rfl]
  rw [Finset.sum_congr rfl (fun g _ => by rw [indicator_apply, indicator_word _ g0 h0 g, shapeCast_self x2 hc2])]
  exact Cert.GnnAlgebra.sum_indicator_mul g0 (fun g => x2 (ix2 g j))

/-- The joined features at (p, m): the node's own below column 128, its graph's row of the pooled table from there on. -/
theorem joined_apply (x1 : IVec S5000x1 32) (x2 : FVec Ideal S64x128 .f32) (x0 : FVec Ideal S5000x128 .f32)
    (hi : S5000x64.Iotas .tc 32 [1]) (hc : S5000x1.ShapeCasts S5000x1) (hb : S5000x1.Broadcasts S5000x64) (hlt : 1 < 32)
    (hc2 : S64x128.ShapeCasts S64x128) (hc0 : S5000x128.ShapeCasts S5000x128)
    (hcc : Shape.Concatenates [S5000x128, S5000x128] S5000x256 1)
    (p : Fin 5000) (m : Fin 256) (g0 : Fin 64) (h0 : (x1 (ix2 p (0 : Fin 1))).toNat = g0.val) :
    concatenate S5000x256 1 [⟨S5000x128, shapeCast S5000x128 x0 hc0⟩,
        ⟨S5000x128, matmul (F := Ideal) dot_S5000x64_S64x128_S5000x128_1_0_0_1_n_n none
          (sitofp (F := Ideal) .f32 (extui 32 (cmpi .eq (iota .tc S5000x64 32 [1] hi)
            (broadcastTo S5000x64 (shapeCast S5000x1 (shapeCast S5000x1 x1 hc) hc) hb)) hlt))
          (shapeCast S64x128 x2 hc2) (constant (F := Ideal) S5000x128 .f32 0x00000000#32)⟩] hcc (ix2 p m)
      = if hm : m.val < 128 then x0 (ix2 p ⟨m.val, hm⟩) else x2 (ix2 g0 ⟨m.val - 128, by have := m.isLt; omega⟩) := by
  rw [concat_cols_apply]
  by_cases hm : m.val < 128
  · rw [dif_pos hm, dif_pos hm, shapeCast_self x0 hc0]
  · rw [dif_neg hm, dif_neg hm, ctx_apply x1 x2 hi hc hb hlt hc2 p _ g0 h0]

/-- The first affine map and the relu at (p, k), over any joined features. -/
theorem hidden_apply (feat : FVec Ideal S5000x256 .f32) (x3 : FVec Ideal S256x128 .f32) (x4 : FVec Ideal S1x128 .f32)
    (h1 : FTy.bf16.bits < FTy.f32.bits) (hc4 : S1x128.ShapeCasts S1x128) (hb4 : S1x128.Broadcasts S5000x128)
    (p : Fin 5000) (k : Fin 128) :
    maximumf (addf (matmul (F := Ideal) dot_S5000x256_S256x128_S5000x128_1_0_0_1_n_n none (truncf .bf16 feat h1) (truncf .bf16 x3 h1)
        (constant (F := Ideal) S5000x128 .f32 0x00000000#32)) (broadcastTo S5000x128 (shapeCast S1x128 x4 hc4) hb4))
        (broadcast S5000x128 (Scalar.ofBits (F := Ideal) .f32 0x00000000#32)) (ix2 p k)
      = max ((∑ m : Fin 256, feat (ix2 p m) * x3 (ix2 m k)) + x4 (ix2 (0 : Fin 1) k)) 0 := by
  rw [maximumf_apply, addf_apply, matmul_plain_apply _ rfl rfl rfl rfl rfl rfl, shapeCast_self x4 hc4,
    broadcastTo_apply x4 hb4 (ix2 p k) (ix2 (0 : Fin 1) k) (fun a => match a with
      | ⟨0, _⟩ => by show 0 = if (1 : Nat) = 1 then 0 else p.val; rw [if_pos rfl]
      | ⟨1, _⟩ => by show k.val = if (128 : Nat) = 1 then 0 else k.val; rw [if_neg (by decide)])]
  show max ((∑ m : Fin 256, feat (ix2 p m) * x3 (ix2 m k)) + x4 (ix2 (0 : Fin 1) k)) (Ideal.ofBits .f32 0x00000000#32) = _
  rw [Ideal.ofBits_zero_f32]

/-- The second affine map at (p, q), over any hidden features. -/
theorem out_apply (hid : FVec Ideal S5000x128 .f32) (x5 : FVec Ideal S128x3 .f32) (x6 : FVec Ideal S1x3 .f32)
    (h1 : FTy.bf16.bits < FTy.f32.bits) (hc6 : S1x3.ShapeCasts S1x3) (hb6 : S1x3.Broadcasts S5000x3)
    (p : Fin 5000) (q : Fin 3) :
    addf (matmul (F := Ideal) dot_S5000x128_S128x3_S5000x3_1_0_0_1_n_n none (truncf .bf16 hid h1) (truncf .bf16 x5 h1)
        (constant (F := Ideal) S5000x3 .f32 0x00000000#32)) (broadcastTo S5000x3 (shapeCast S1x3 x6 hc6) hb6) (ix2 p q)
      = (∑ k : Fin 128, hid (ix2 p k) * x5 (ix2 k q)) + x6 (ix2 (0 : Fin 1) q) := by
  rw [addf_apply, matmul_plain_apply _ rfl rfl rfl rfl rfl rfl, shapeCast_self x6 hc6,
    broadcastTo_apply x6 hb6 (ix2 p q) (ix2 (0 : Fin 1) q) (fun a => match a with
      | ⟨0, _⟩ => by show 0 = if (1 : Nat) = 1 then 0 else p.val; rw [if_pos rfl]
      | ⟨1, _⟩ => by show q.val = if (3 : Nat) = 1 then 0 else q.val; rw [if_neg (by decide)])]
  rfl

/-- THE BODY AT AN INDEX: the head at row p of the block, output column q. -/
theorem pay_apply (x1 : Vec Ideal S5000x1 .i32) (x2 : Vec Ideal S64x128 .f32) (x0 : Vec Ideal S5000x128 .f32)
    (x3 : Vec Ideal S256x128 .f32) (x4 : Vec Ideal S1x128 .f32) (x5 : Vec Ideal S128x3 .f32) (x6 : Vec Ideal S1x3 .f32)
    (p : Fin 5000) (q : Fin 3) (g0 : Fin 64) (h0 : (x1 (ix2 p (0 : Fin 1))).toNat = g0.val) :
    k6_pay1 (F := Ideal) x1 x2 x0 x3 x4 x5 x6 (ix2 p q)
      = headRow (fun m => x0 (ix2 p m)) (fun j => x2 (ix2 g0 j)) (fun m k => x3 (ix2 m k)) (fun k => x4 (ix2 (0 : Fin 1) k))
          (fun k => x5 (ix2 k q)) (x6 (ix2 (0 : Fin 1) q)) := by
  unfold k6_pay1 headRow
  refine (out_apply _ x5 x6 _ _ _ p q).trans ?_
  refine congrArg (· + x6 (ix2 (0 : Fin 1) q)) (Finset.sum_congr rfl fun k _ => ?_)
  refine congrArg (· * x5 (ix2 k q)) ?_
  refine (hidden_apply _ x3 x4 _ _ _ p k).trans ?_
  refine congrArg (fun z => max (z + x4 (ix2 (0 : Fin 1) k)) 0) (Finset.sum_congr rfl fun m _ => ?_)
  refine congrArg (· * x3 (ix2 m k)) ?_
  exact joined_apply x1 x2 x0 _ _ _ _ _ _ _ p m g0 h0

/-! ## The reference's row read -/
/-- The row read of the reference: result entry (r, j) is the table at the clamped start index of row r, column j. -/
theorem gather_row (pe : FVec Ideal Cert.ReferenceIdeal.S64x128 .f32) (idx : IVec Cert.ReferenceIdeal.S50000x1 32)
    (r : Fin 50000) (j : Fin 128) :
    Host.gather Cert.ReferenceIdeal.gather_S64x128_S50000x1_S50000x128_1_0_n_n_0_1_1128 pe idx (ix2 r j)
      = pe (ix2 ⟨min (idx (ix2 r (0 : Fin 1))).toInt.toNat 63, by omega⟩ j) := by
  unfold Host.gather
  refine congrArg pe (funext fun a => Fin.ext ?_)
  match a with
  | ⟨0, _⟩ =>
    show Cert.ReferenceIdeal.gather_S64x128_S50000x1_S50000x128_1_0_n_n_0_1_1128.start (ix2 r j) idx 0
        + Cert.ReferenceIdeal.gather_S64x128_S50000x1_S50000x128_1_0_n_n_0_1_1128.batchCoord (ix2 r j) 0
        + Cert.ReferenceIdeal.gather_S64x128_S50000x1_S50000x128_1_0_n_n_0_1_1128.offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin Cert.ReferenceIdeal.S64x128.rank) ∈ Cert.ReferenceIdeal.gather_S64x128_S50000x1_S50000x128_1_0_n_n_0_1_1128.startIndexMap from List.mem_singleton.mpr rfl)]
    have hsi : Cert.ReferenceIdeal.gather_S64x128_S50000x1_S50000x128_1_0_n_n_0_1_1128.siIdx (ix2 r j)
        ⟨List.idxOf (0 : Fin Cert.ReferenceIdeal.S64x128.rank) Cert.ReferenceIdeal.gather_S64x128_S50000x1_S50000x128_1_0_n_n_0_1_1128.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show Cert.ReferenceIdeal.gather_S64x128_S50000x1_S50000x128_1_0_n_n_0_1_1128.start (ix2 r j) idx 1
        + Cert.ReferenceIdeal.gather_S64x128_S50000x1_S50000x128_1_0_n_n_0_1_1128.batchCoord (ix2 r j) 1
        + Cert.ReferenceIdeal.gather_S64x128_S50000x1_S50000x128_1_0_n_n_0_1_1128.offCoord (ix2 r j) 1 = _
    rw [GatherDims.batchCoord_eq_zero _ _ _ List.not_mem_nil]
    unfold GatherDims.start
    rw [dif_neg (show ¬ (1 : Fin Cert.ReferenceIdeal.S64x128.rank) ∈ Cert.ReferenceIdeal.gather_S64x128_S50000x1_S50000x128_1_0_n_n_0_1_1128.startIndexMap by decide)]
    unfold GatherDims.offCoord
    rw [dif_pos (show (1 : Fin Cert.ReferenceIdeal.S64x128.rank) ∈ Cert.ReferenceIdeal.gather_S64x128_S50000x1_S50000x128_1_0_n_n_0_1_1128.sKept by decide)]
    simp only [Nat.zero_add, Nat.add_zero]
    rfl

/-- The start indices of the row read at row r: the graph number itself when it is below 64. -/
theorem wrap64_apply (bm : IVec Cert.ReferenceIdeal.S50000 32) (r : Fin 50000) (hb : (bm (ix1 r)).toNat < 64) :
    Cert.RefOps.wrap64 bm (ix2 r (0 : Fin 1)) = bm (ix1 r) := by
  unfold Cert.RefOps.wrap64
  refine (broadcastInDim_apply _ _ _ (ix2 r (0 : Fin 1)) (ix1 r) (fun a => match a with
    | ⟨0, _⟩ => by show r.val = if (50000 : Nat) = 1 then 0 else r.val; rw [if_neg (by decide)])).trans ?_
  exact wrap_word _ hb

/-- The reference's context row at (r, j): row r's graph's row of the pooled table. -/
theorem ref_ctx_apply (pe : FVec Ideal Cert.ReferenceIdeal.S64x128 .f32) (bm : IVec Cert.ReferenceIdeal.S50000 32)
    (r : Fin 50000) (j : Fin 128) (g0 : Fin 64) (h0 : (bm (ix1 r)).toNat = g0.val) :
    Host.gather Cert.ReferenceIdeal.gather_S64x128_S50000x1_S50000x128_1_0_n_n_0_1_1128 pe (Cert.RefOps.wrap64 bm) (ix2 r j)
      = pe (ix2 g0 j) := by
  have hlt : (bm (ix1 r)).toNat < 64 := by rw [h0]; exact g0.isLt
  rw [gather_row]
  refine congrArg pe (Shape.idx_ext₂ ?_ rfl)
  show min (Cert.RefOps.wrap64 bm (ix2 r (0 : Fin 1))).toInt.toNat 63 = g0.val
  rw [wrap64_apply bm r hlt, clamp_word _ hlt]
  exact h0

/-- A bias vector laid along every row of an [N,M] array, read at (r, k). -/
theorem bias_rows_apply {N M : Nat} (b : (⟨1, ![M]⟩ : Shape).Idx → EReal)
    (h1 : (⟨1, ![M]⟩ : Shape).BroadcastsInDim ⟨2, ![1, M]⟩ ![1])
    (h2 : (⟨2, ![1, M]⟩ : Shape).BroadcastsInDim ⟨2, ![N, M]⟩ ![0, 1]) (hM : M ≠ 1) (r : Fin N) (k : Fin M) :
    broadcastInDim ⟨2, ![N, M]⟩ ![0, 1] h2 (broadcastInDim ⟨2, ![1, M]⟩ ![1] h1 b) (ix2 r k) = b (ix1 k) := by
  rw [broadcastInDim_apply _ h2 _ (ix2 r k) (ix2 (0 : Fin 1) k) (fun a => match a with
      | ⟨0, _⟩ => by show 0 = if (1 : Nat) = 1 then 0 else r.val; rw [if_pos rfl]
      | ⟨1, _⟩ => by show k.val = if M = 1 then 0 else k.val; rw [if_neg hM]),
    broadcastInDim_apply _ h1 b (ix2 (0 : Fin 1) k) (ix1 k) (fun a => match a with
      | ⟨0, _⟩ => by show k.val = if M = 1 then 0 else k.val; rw [if_neg hM])]

/-- The reference's joined features at (r, m). -/
theorem ref_joined_apply (h : FVec Ideal Cert.ReferenceIdeal.S50000x128 .f32) (pe : FVec Ideal Cert.ReferenceIdeal.S64x128 .f32)
    (bm : IVec Cert.ReferenceIdeal.S50000 32)
    (hcc : Shape.Concatenates [Cert.ReferenceIdeal.S50000x128, Cert.ReferenceIdeal.S50000x128] Cert.ReferenceIdeal.S50000x256 1)
    (r : Fin 50000) (m : Fin 256) (g0 : Fin 64) (h0 : (bm (ix1 r)).toNat = g0.val) :
    concatenate Cert.ReferenceIdeal.S50000x256 1 [⟨Cert.ReferenceIdeal.S50000x128, h⟩,
        ⟨Cert.ReferenceIdeal.S50000x128, Host.gather Cert.ReferenceIdeal.gather_S64x128_S50000x1_S50000x128_1_0_n_n_0_1_1128 pe
          (Cert.RefOps.wrap64 bm)⟩] hcc (ix2 r m)
      = if hm : m.val < 128 then h (ix2 r ⟨m.val, hm⟩) else pe (ix2 g0 ⟨m.val - 128, by have := m.isLt; omega⟩) := by
  rw [concat_cols_apply]
  by_cases hm : m.val < 128
  · rw [dif_pos hm, dif_pos hm]
  · rw [dif_neg hm, dif_neg hm, ref_ctx_apply pe bm r _ g0 h0]

/-- The reference's first affine map and relu at (r, k), over any joined features. -/
theorem ref_hidden_apply (feat : FVec Ideal Cert.ReferenceIdeal.S50000x256 .f32) (w1 : FVec Ideal Cert.ReferenceIdeal.S256x128 .f32)
    (b1 : FVec Ideal Cert.ReferenceIdeal.S128 .f32)
    (h1 : Cert.ReferenceIdeal.S128.BroadcastsInDim Cert.ReferenceIdeal.S1x128 ![1])
    (h2 : Cert.ReferenceIdeal.S1x128.BroadcastsInDim Cert.ReferenceIdeal.S50000x128 ![0, 1])
    (h3 : Cert.ReferenceIdeal.S_.BroadcastsInDim Cert.ReferenceIdeal.S50000x128 ![])
    (r : Fin 50000) (k : Fin 128) :
    maximumf (addf (Host.dotGeneral (F := Ideal) Cert.ReferenceIdeal.dot_S50000x256_S256x128_S50000x128_1_0_0_1_n_n none feat w1)
        (broadcastInDim Cert.ReferenceIdeal.S50000x128 ![0, 1] h2 (broadcastInDim Cert.ReferenceIdeal.S1x128 ![1] h1 b1)))
        (broadcastInDim Cert.ReferenceIdeal.S50000x128 ![] h3 (constant (F := Ideal) Cert.ReferenceIdeal.S_ .f32 0x00000000#32)) (ix2 r k)
      = max ((∑ m : Fin 256, feat (ix2 r m) * w1 (ix2 m k)) + b1 (ix1 k)) 0 := by
  rw [maximumf_apply, addf_apply, dotGeneral_plain_apply _ rfl rfl rfl rfl rfl rfl, bias_rows_apply b1 h1 h2 (by decide) r k]
  show max ((∑ m : Fin 256, feat (ix2 r m) * w1 (ix2 m k)) + b1 (ix1 k)) (Ideal.ofBits .f32 0x00000000#32) = _
  rw [Ideal.ofBits_zero_f32]

/-- The reference's second affine map at (r, q), over any hidden features. -/
theorem ref_out_apply (hid : FVec Ideal Cert.ReferenceIdeal.S50000x128 .f32) (w2 : FVec Ideal Cert.ReferenceIdeal.S128x3 .f32)
    (b2 : FVec Ideal Cert.ReferenceIdeal.S3 .f32)
    (h1 : Cert.ReferenceIdeal.S3.BroadcastsInDim Cert.ReferenceIdeal.S1x3 ![1])
    (h2 : Cert.ReferenceIdeal.S1x3.BroadcastsInDim Cert.ReferenceIdeal.S50000x3 ![0, 1])
    (r : Fin 50000) (q : Fin 3) :
    addf (Host.dotGeneral (F := Ideal) Cert.ReferenceIdeal.dot_S50000x128_S128x3_S50000x3_1_0_0_1_n_n none hid w2)
        (broadcastInDim Cert.ReferenceIdeal.S50000x3 ![0, 1] h2 (broadcastInDim Cert.ReferenceIdeal.S1x3 ![1] h1 b2)) (ix2 r q)
      = (∑ k : Fin 128, hid (ix2 r k) * w2 (ix2 k q)) + b2 (ix1 q) := by
  rw [addf_apply, dotGeneral_plain_apply _ rfl rfl rfl rfl rfl rfl, bias_rows_apply b2 h1 h2 (by decide) r q]

/-- THE REFERENCE AT AN INDEX: the head at row r, output column q. -/
theorem head_ref_apply (h : FVec Ideal Cert.ReferenceIdeal.S50000x128 .f32) (pe : FVec Ideal Cert.ReferenceIdeal.S64x128 .f32)
    (bm : IVec Cert.ReferenceIdeal.S50000 32) (w1 : FVec Ideal Cert.ReferenceIdeal.S256x128 .f32)
    (b1 : FVec Ideal Cert.ReferenceIdeal.S128 .f32) (w2 : FVec Ideal Cert.ReferenceIdeal.S128x3 .f32)
    (b2 : FVec Ideal Cert.ReferenceIdeal.S3 .f32) (r : Fin 50000) (q : Fin 3) (g0 : Fin 64) (h0 : (bm (ix1 r)).toNat = g0.val) :
    Cert.RefOps.headM h pe bm w1 b1 w2 b2 (ix2 r q)
      = headRow (fun m => h (ix2 r m)) (fun j => pe (ix2 g0 j)) (fun m k => w1 (ix2 m k)) (fun k => b1 (ix1 k))
          (fun k => w2 (ix2 k q)) (b2 (ix1 q)) := by
  unfold Cert.RefOps.headM headRow
  refine (ref_out_apply _ w2 b2 _ _ r q).trans ?_
  refine congrArg (· + b2 (ix1 q)) (Finset.sum_congr rfl fun k _ => ?_)
  refine congrArg (· * w2 (ix2 k q)) ?_
  refine (ref_hidden_apply _ w1 b1 _ _ _ r k).trans ?_
  refine congrArg (fun z => max (z + b1 (ix1 k)) 0) (Finset.sum_congr rfl fun m _ => ?_)
  refine congrArg (· * w1 (ix2 m k)) ?_
  exact ref_joined_apply h pe bm _ r m g0 h0

/-! ## From blocks to the array -/

theorem zero_offsets : (![0, 0] : Fin 2 → Nat) = fun _ => 0 := funext fun a => by fin_cases a <;> rfl

/-- The printed index maps over the ten grid points: the row-blocked inputs move with the output's row block, the whole-array
    inputs stay at block 0, and the output's row block is below 10. -/
theorem index_facts : ∀ t : Fin cfg6.N, win6_0.index t (0 : Fin 2) = win6_7.index t (0 : Fin 2)
    ∧ win6_0.index t (1 : Fin 2) = 0
    ∧ win6_1.index t (0 : Fin 2) = win6_7.index t (0 : Fin 2)
    ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) ≤ 9 ∧ win6_7.index t (1 : Fin 2) = 0 :=
  (by decide +kernel : ∀ t : Fin grid6.N, _)

/-- Every row block of the output is some point's. -/
theorem index_onto : ∀ q0 : Fin 10, ∃ t : Fin cfg6.N, win6_7.index t = ![q0.val, 0] :=
  (by decide +kernel : ∀ q0 : Fin 10, ∃ t : Fin grid6.N, win6_7.index t = ![q0.val, 0])

/-- The row of the array that row p of point t's output block is. -/
abbrev rowOf (t : Fin cfg6.N) (p : Fin 5000) : Fin 50000 :=
  ⟨win6_7.index t (0 : Fin 2) * 5000 + p.val, by
    obtain ⟨_, _, _, _, _, _, _, _, _, _, _, _, _, _, e14, _⟩ := index_facts t
    have := p.isLt; omega⟩

/-- Point t's block of the node features, read at (p, m): row (row block · 5000 + p) of the array. -/
theorem block_h (c : Dev nD) (t : Fin cfg6.N) (p : Fin 5000) (m : Fin 128) :
    (iblk6 (F := Ideal) V c 0 t : Vec Ideal S5000x128 .f32) (ix2 p m) = V c main_v139 (ix2 (rowOf t p) m) := by
  obtain ⟨e0, e1, _⟩ := index_facts t
  show V c main_v139 (((cfg6.win 0).blk t).view.emb (ix2 p m)) = _
  refine congrArg (V c main_v139) (funext fun a => Fin.ext ?_)
  match a with
  | ⟨0, _⟩ => show win6_0.index t (0 : Fin 2) * 5000 + 1 * p.val = win6_7.index t (0 : Fin 2) * 5000 + p.val; omega
  | ⟨1, _⟩ => show win6_0.index t (1 : Fin 2) * 128 + 1 * m.val = m.val; omega

/-- Point t's block of the graph numbers, read at (p, 0). -/
theorem block_batch (c : Dev nD) (t : Fin cfg6.N) (p : Fin 5000) :
    (iblk6 (F := Ideal) V c 1 t : Vec Ideal S5000x1 .i32) (ix2 p (0 : Fin 1)) = V c main_v140 (ix2 (rowOf t p) (0 : Fin 1)) := by
  obtain ⟨_, _, e2, e3, _⟩ := index_facts t
  show V c main_v140 (((cfg6.win 1).blk t).view.emb (ix2 p (0 : Fin 1))) = _
  refine congrArg (V c main_v140) (funext fun a => Fin.ext ?_)
  match a with
  | ⟨0, _⟩ => show win6_1.index t (0 : Fin 2) * 5000 + 1 * p.val = win6_7.index t (0 : Fin 2) * 5000 + p.val; omega
  | ⟨1, _⟩ => show win6_1.index t (1 : Fin 2) * 1 + 1 * 0 = 0; omega

/-- The pooled table's one block is the table. -/
theorem block_pe (c : Dev nD) (t : Fin cfg6.N) (g : Fin 64) (j : Fin 128) :
    (iblk6 (F := Ideal) V c 2 t : Vec Ideal S64x128 .f32) (ix2 g j) = V c main_v75 (ix2 g j) := by
  obtain ⟨_, _, _, _, e4, e5, _⟩ := index_facts t
  show V c main_v75 (((cfg6.win 2).blk t).view.emb (ix2 g j)) = _
  refine congrArg (V c main_v75) (funext fun a => Fin.ext ?_)
  match a with
  | ⟨0, _⟩ => show win6_2.index t (0 : Fin 2) * 64 + 1 * g.val = g.val; omega
  | ⟨1, _⟩ => show win6_2.index t (1 : Fin 2) * 128 + 1 * j.val = j.val; omega

/-- The first weight matrix's one block is the matrix. -/
theorem block_w1 (c : Dev nD) (t : Fin cfg6.N) (m : Fin 256) (k : Fin 128) :
    (iblk6 (F := Ideal) V c 3 t : Vec Ideal S256x128 .f32) (ix2 m k) = V c main_arg16 (ix2 m k) := by
  obtain ⟨_, _, _, _, _, _, e6, e7, _⟩ := index_facts t
  show V c main_arg16 (((cfg6.win 3).blk t).view.emb (ix2 m k)) = _
  refine congrArg (V c main_arg16) (funext fun a => Fin.ext ?_)
  match a with
  | ⟨0, _⟩ => show win6_3.index t (0 : Fin 2) * 256 + 1 * m.val = m.val; omega
  | ⟨1, _⟩ => show win6_3.index t (1 : Fin 2) * 128 + 1 * k.val = k.val; omega

/-- The first bias row's one block is the row. -/
theorem block_b1 (c : Dev nD) (t : Fin cfg6.N) (k : Fin 128) :
    (iblk6 (F := Ideal) V c 4 t : Vec Ideal S1x128 .f32) (ix2 (0 : Fin 1) k) = V c main_v141 (ix2 (0 : Fin 1) k) := by
  obtain ⟨_, _, _, _, _, _, _, _, e8, e9, _⟩ := index_facts t
  show V c main_v141 (((cfg6.win 4).blk t).view.emb (ix2 (0 : Fin 1) k)) = _
  refine congrArg (V c main_v141) (funext fun a => Fin.ext ?_)
  match a with
  | ⟨0, _⟩ => show win6_4.index t (0 : Fin 2) * 1 + 1 * 0 = 0; omega
  | ⟨1, _⟩ => show win6_4.index t (1 : Fin 2) * 128 + 1 * k.val = k.val; omega

/-- The second weight matrix's one block is the matrix. -/
theorem block_w2 (c : Dev nD) (t : Fin cfg6.N) (k : Fin 128) (q : Fin 3) :
    (iblk6 (F := Ideal) V c 5 t : Vec Ideal S128x3 .f32) (ix2 k q) = V c main_arg18 (ix2 k q) := by
  obtain ⟨_, _, _, _, _, _, _, _, _, _, e10, e11, _⟩ := index_facts t
  show V c main_arg18 (((cfg6.win 5).blk t).view.emb (ix2 k q)) = _
  refine congrArg (V c main_arg18) (funext fun a => Fin.ext ?_)
  match a with
  | ⟨0, _⟩ => show win6_5.index t (0 : Fin 2) * 128 + 1 * k.val = k.val; omega
  | ⟨1, _⟩ => show win6_5.index t (1 : Fin 2) * 3 + 1 * q.val = q.val; omega

/-- The second bias row's one block is the row. -/
theorem block_b2 (c : Dev nD) (t : Fin cfg6.N) (q : Fin 3) :
    (iblk6 (F := Ideal) V c 6 t : Vec Ideal S1x3 .f32) (ix2 (0 : Fin 1) q) = V c main_v142 (ix2 (0 : Fin 1) q) := by
  obtain ⟨_, _, _, _, _, _, _, _, _, _, _, _, e12, e13, _⟩ := index_facts t
  show V c main_v142 (((cfg6.win 6).blk t).view.emb (ix2 (0 : Fin 1) q)) = _
  refine congrArg (V c main_v142) (funext fun a => Fin.ext ?_)
  match a with
  | ⟨0, _⟩ => show win6_6.index t (0 : Fin 2) * 1 + 1 * 0 = 0; omega
  | ⟨1, _⟩ => show win6_6.index t (1 : Fin 2) * 3 + 1 * q.val = q.val; omega

/-- WHAT POINT t WRITES BACK is block t of the reference's head of the arrays the region finds. -/
theorem flushed_eq (c : Dev nD) (bm : IVec S50000 32) (b1 : FVec Ideal S128 .f32) (b2 : FVec Ideal S3 .f32)
    (hbm : ∀ r : Fin 50000, V c main_v140 (ix2 r (0 : Fin 1)) = bm (ix1 r))
    (hrange : ∀ r : Fin 50000, (bm (ix1 r)).toNat < 64)
    (hb1 : ∀ k : Fin 128, V c main_v141 (ix2 (0 : Fin 1) k) = b1 (ix1 k))
    (hb2 : ∀ k : Fin 3, V c main_v142 (ix2 (0 : Fin 1) k) = b2 (ix1 k)) (t : Fin cfg6.N) :
    (dat6 (F := Ideal) V c).flushed 7 t = ((cfg6.win 7).blk t).view.read (Elt Ideal)
      (Cert.RefOps.headM (V c main_v139) (V c main_v75) bm (V c main_arg16) b1 (V c main_arg18) b2) := by
  show (cfg6.win 7).cut (grid6.coords t) ((dat6 (F := Ideal) V c).after 7 t) = _
  rw [after6_7]
  unfold out6_7
  rw [View.canon_unit_zero zero_offsets]
  simp only [View.ld_unit_zero (S := S5000x1) zero_offsets, View.ld_unit_zero (S := S64x128) zero_offsets,
    View.ld_unit_zero (S := S5000x128) zero_offsets, View.ld_unit_zero (S := S256x128) zero_offsets,
    View.ld_unit_zero (S := S1x128) zero_offsets, View.ld_unit_zero (S := S128x3) zero_offsets,
    View.ld_unit_zero (S := S1x3) zero_offsets]
  funext j
  obtain ⟨p, q, rfl⟩ : ∃ (p : Fin 5000) (q : Fin 3), j = ix2 p q := ⟨j 0, j 1, eq_ix2 j⟩
  obtain ⟨_, _, _, _, _, _, _, _, _, _, _, _, _, _, e14, e15⟩ := index_facts t
  have he : ((cfg6.win 7).blk t).view.emb (ix2 p q) = ix2 (rowOf t p) q := by
    funext a; apply Fin.ext
    match a with
    | ⟨0, _⟩ => show win6_7.index t (0 : Fin 2) * 5000 + 1 * p.val = win6_7.index t (0 : Fin 2) * 5000 + p.val; omega
    | ⟨1, _⟩ => show win6_7.index t (1 : Fin 2) * 3 + 1 * q.val = q.val; omega
  show k6_pay1 (F := Ideal) (iblk6 V c 1 t) (iblk6 V c 2 t) (iblk6 V c 0 t) (iblk6 V c 3 t) (iblk6 V c 4 t) (iblk6 V c 5 t)
      (iblk6 V c 6 t) (ix2 p q)
    = Cert.RefOps.headM (V c main_v139) (V c main_v75) bm (V c main_arg16) b1 (V c main_arg18) b2
      (((cfg6.win 7).blk t).view.emb (ix2 p q))
  rw [he]
  have hg : ((iblk6 (F := Ideal) V c 1 t : Vec Ideal S5000x1 .i32) (ix2 p (0 : Fin 1))).toNat
      = (⟨(bm (ix1 (rowOf t p))).toNat, hrange (rowOf t p)⟩ : Fin 64).val := by
    rw [block_batch V c t p, hbm]
  refine (pay_apply (iblk6 V c 1 t) (iblk6 V c 2 t) (iblk6 V c 0 t) (iblk6 V c 3 t) (iblk6 V c 4 t) (iblk6 V c 5 t)
    (iblk6 V c 6 t) p q ⟨(bm (ix1 (rowOf t p))).toNat, hrange (rowOf t p)⟩ hg).trans ?_
  refine Eq.trans ?_ (head_ref_apply (V c main_v139) (V c main_v75) bm (V c main_arg16) b1 (V c main_arg18) b2 (rowOf t p) q
    ⟨(bm (ix1 (rowOf t p))).toNat, hrange (rowOf t p)⟩ rfl).symm
  have a0 : (fun m : Fin 128 => (iblk6 (F := Ideal) V c 0 t : Vec Ideal S5000x128 .f32) (ix2 p m))
      = fun m => V c main_v139 (ix2 (rowOf t p) m) := funext fun m => block_h V c t p m
  have a1 : (fun j : Fin 128 => (iblk6 (F := Ideal) V c 2 t : Vec Ideal S64x128 .f32)
        (ix2 (⟨(bm (ix1 (rowOf t p))).toNat, hrange (rowOf t p)⟩ : Fin 64) j))
      = fun j => V c main_v75 (ix2 (⟨(bm (ix1 (rowOf t p))).toNat, hrange (rowOf t p)⟩ : Fin 64) j) :=
    funext fun j => block_pe V c t _ j
  have a2 : (fun (m : Fin 256) (k : Fin 128) => (iblk6 (F := Ideal) V c 3 t : Vec Ideal S256x128 .f32) (ix2 m k))
      = fun m k => V c main_arg16 (ix2 m k) := funext fun m => funext fun k => block_w1 V c t m k
  have a3 : (fun k : Fin 128 => (iblk6 (F := Ideal) V c 4 t : Vec Ideal S1x128 .f32) (ix2 (0 : Fin 1) k))
      = fun k => b1 (ix1 k) := funext fun k => (block_b1 V c t k).trans (hb1 k)
  have a4 : (fun k : Fin 128 => (iblk6 (F := Ideal) V c 5 t : Vec Ideal S128x3 .f32) (ix2 k q))
      = fun k => V c main_arg18 (ix2 k q) := funext fun k => block_w2 V c t k q
  have a5 : (iblk6 (F := Ideal) V c 6 t : Vec Ideal S1x3 .f32) (ix2 (0 : Fin 1) q) = b2 (ix1 q) :=
    (block_b2 V c t q).trans (hb2 q)
  rw [a0, a1, a2, a3, a4, a5]

/-- An index of the output array is in point t's block iff each coordinate is in the block's range on its axis. -/
theorem mem_block (t : Fin cfg6.N) (i : S50000x3.Idx) :
    i ∈ ((cfg6.win 7).blk t).view.set ↔ ∀ a : Fin 2, win6_7.index t a * S5000x3.size a ≤ (i a).val
      ∧ (i a).val < win6_7.index t a * S5000x3.size a + S5000x3.size a := by
  show i ∈ ((View.whole main_v143).slice (win6_7.rect t)).set ↔ _
  rw [View.set_slice_whole, Rect.mem_set_unit]
  exact Iff.rfl

/-- The ten row blocks cover the output array: row r lies in the block of the point whose row block is r / 5000. -/
theorem covered (i : S50000x3.Idx) : ∃ t : Fin cfg6.N, (cfg6.win 7).flush t = true ∧ i ∈ ((cfg6.win 7).blk t).view.set := by
  have hi0 : (i 0).val < 50000 := (i 0).isLt
  have hi1 : (i 1).val < 3 := (i 1).isLt
  obtain ⟨t, ht⟩ := index_onto ⟨(i 0).val / 5000, by omega⟩
  have q0 : win6_7.index t (0 : Fin 2) = (i 0).val / 5000 := congrFun ht 0
  have q1 : win6_7.index t (1 : Fin 2) = 0 := congrFun ht 1
  refine ⟨t, flush6_7 t, ?_⟩
  rw [mem_block]
  intro a
  match a with
  | ⟨0, _⟩ => show win6_7.index t (0 : Fin 2) * 5000 ≤ (i 0).val ∧ (i 0).val < win6_7.index t (0 : Fin 2) * 5000 + 5000; omega
  | ⟨1, _⟩ => show win6_7.index t (1 : Fin 2) * 3 ≤ (i 1).val ∧ (i 1).val < win6_7.index t (1 : Fin 2) * 3 + 3; omega

theorem array (c : Dev nD) (bm : IVec S50000 32) (b1 : FVec Ideal S128 .f32) (b2 : FVec Ideal S3 .f32)
    (hbm : ∀ r : Fin 50000, V c main_v140 (ix2 r (0 : Fin 1)) = bm (ix1 r))
    (hrange : ∀ r : Fin 50000, (bm (ix1 r)).toNat < 64)
    (hb1 : ∀ k : Fin 128, V c main_v141 (ix2 (0 : Fin 1) k) = b1 (ix1 k))
    (hb2 : ∀ k : Fin 3, V c main_v142 (ix2 (0 : Fin 1) k) = b2 (ix1 k)) :
    (dat6 (F := Ideal) V c).arrAt 7 cfg6.N
      = Cert.RefOps.headM (V c main_v139) (V c main_v75) bm (V c main_arg16) b1 (V c main_arg18) b2 :=
  (dat6 (F := Ideal) V c).arrAt_eq_of_cover 7 _ (fun t _ => flushed_eq V c bm b1 b2 hbm hrange hb1 hb2 t) covered

end Cert.Region6

end
-- ==== Proof.HostP.lean ====
import proofs.«429129_j3384434230027_2_alg».proof.Proof.Gen.KernelIdeal.Frame
import proofs.«429129_j3384434230027_2_alg».proof.Proof.Forward
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

/-
  The host operations around the protein graph's three regions, read as values: each buffer a region or a later
  stretch reads holds the function of the arguments that the reference computes by the same operations.
  Every statement is over the contents `U` the stretch starts from; what an earlier stretch or region left in a buffer
  the stretch reads enters as a hypothesis.
-/
namespace Cert.HostP

open Idealize.ShloMosaic Idealize.ShloMosaic.TcCoe Idealize.SL.Sem Idealize.ShloMosaic.ValueIdx Idealize.ShloMosaic.StableHlo
open Cert.KernelIdeal Cert.KernelIdeal.Gen Cert.Forward Cert.RefOps

variable (U : Valuation τ sig (Elt Ideal))

local notation "⟪" b "⟫" => Proc.devRef (τ := τ) Proc.tc b

/-- The contents after the two stretches before region 0. -/
abbrev entered : Valuation τ sig (Elt Ideal) := StableHlo.after hostOps0_1 (StableHlo.after hostOps0 U)

/-! ## Small laws used below -/

/-- The word 0x3F800000 denotes one. -/
theorem ofBits_one_f32 : Ideal.ofBits .f32 0x3F800000#32 = 1 := by
  simp [Ideal.ofBits, Ideal.ieee, -EReal.coe_mul]; norm_num

/-- Widening a bf16 array to f32 changes nothing over the extended reals. -/
theorem extf_ideal {s : Shape} (g : FVec Ideal s .bf16) (h : FTy.bf16.bits < FTy.f32.bits) :
    (extf .f32 g h : FVec Ideal s .f32) = g := funext fun i => extf_apply g h i

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## Before region 0 -/

theorem feat : entered U ⟪main_v1⟫ = featP (U ⟪main_arg0⟫) (U ⟪main_arg1⟫) := by
  dsimp only [entered, hostOps0_1, hostOps0]
  after_results
  rfl

theorem src : entered U ⟪main_v3⟫ = srcP (U ⟪main_arg2⟫) := by
  dsimp only [entered, hostOps0_1, hostOps0]
  after_results
  rfl

theorem dst : entered U ⟪main_v5⟫ = dstP (U ⟪main_arg2⟫) := by
  dsimp only [entered, hostOps0_1, hostOps0]
  after_results
  rfl

theorem coef : entered U ⟪main_v30⟫ = coefP (U ⟪main_arg2⟫) := by
  dsimp only [entered, hostOps0_1, hostOps0]
  after_results_simp
  rfl

/-- One over an array, entry by entry: the constant word is one, and the host's quotient is the quotient. -/
theorem recip_apply {s : Shape} (hs : (⟨0, ![]⟩ : Shape).BroadcastsInDim s ![]) (d : FVec Ideal s .f32) (i : s.Idx) :
    Host.divf (broadcastInDim s ![] hs (constant (F := Ideal) ⟨0, ![]⟩ .f32 0x3F800000#32)) d i = Ideal.div 1 (d i) := by
  show Ideal.div (Ideal.ofBits .f32 0x3F800000#32) (d i) = _
  rw [ofBits_one_f32]

theorem rd (r : Fin 100000) : entered U ⟪main_v15⟫ (ix2 r (0 : Fin 1)) = Ideal.div 1 (degOfP (U ⟪main_arg2⟫) (ix1 r)) := by
  dsimp only [entered, hostOps0_1, hostOps0]
  after_results
  refine (shapeCast_a_a1_apply _ _ r (0 : Fin 1)).trans ?_
  refine (recip_apply _ _ (ix1 r)).trans (congrArg (Ideal.div 1) (congrFun ?_ (ix1 r)))
  rfl

/-! ## Between the regions -/

theorem agg1 (xw : FVec Ideal S100000x128 .f32) (e : IVec S2x1600000 32)
    (h31 : U ⟪main_v31⟫ = xw) (h3 : U ⟪main_v3⟫ = srcP e) (h5 : U ⟪main_v5⟫ = dstP e) (h30 : U ⟪main_v30⟫ = coefP e) :
    StableHlo.after hostOps1 U ⟪main_v45⟫ = aggP xw e := by
  dsimp only [hostOps1]
  after_results_simp
  rw [h31, h3, h5, h30, extf_ideal]
  rfl

theorem bias1 (k : Fin 128) : StableHlo.after hostOps1 U ⟪main_v46⟫ (ix2 (0 : Fin 1) k) = U ⟪main_arg9⟫ (ix1 k) := by
  dsimp only [hostOps1]
  after_results
  exact shapeCast_a_1a_apply _ _ (0 : Fin 1) k

theorem agg2 (xw : FVec Ideal S100000x128 .f32) (e : IVec S2x1600000 32)
    (h47 : U ⟪main_v47⟫ = xw) (h3 : U ⟪main_v3⟫ = srcP e) (h5 : U ⟪main_v5⟫ = dstP e) (h30 : U ⟪main_v30⟫ = coefP e) :
    StableHlo.after hostOps2 U ⟪main_v61⟫ = aggP xw e := by
  dsimp only [hostOps2]
  after_results_simp
  rw [h47, h3, h5, h30, extf_ideal]
  rfl

theorem bias2 (k : Fin 128) : StableHlo.after hostOps2 U ⟪main_v62⟫ (ix2 (0 : Fin 1) k) = U ⟪main_arg11⟫ (ix1 k) := by
  dsimp only [hostOps2]
  after_results
  exact shapeCast_a_1a_apply _ _ (0 : Fin 1) k

theorem pooled (h : FVec Ideal S100000x128 .f32) (h63 : U ⟪main_v63⟫ = h) :
    StableHlo.after hostOps3 U ⟪main_v75⟫ = pool h (U ⟪main_arg3⟫) := by
  dsimp only [hostOps3]
  after_results_simp
  rw [h63]
  rfl

end Cert.HostP

end
-- ==== Proof.HostM.lean ====
import proofs.«429129_j3384434230027_2_alg».proof.Proof.Gen.KernelIdeal.Frame
import proofs.«429129_j3384434230027_2_alg».proof.Proof.Forward
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

/-
  The host operations around the small-molecule graph's three regions and before the head, read as values: each
  buffer a region or a later stretch reads holds the function of the arguments that the reference computes by the
  same operations. Every statement is over the contents `U` the stretch starts from; what an earlier stretch or region
  left in a buffer the stretch reads enters as a hypothesis.
-/
namespace Cert.HostM

open Idealize.ShloMosaic Idealize.ShloMosaic.TcCoe Idealize.SL.Sem Idealize.ShloMosaic.ValueIdx Idealize.ShloMosaic.StableHlo
open Cert.KernelIdeal Cert.KernelIdeal.Gen Cert.Forward Cert.RefOps

variable (U : Valuation τ sig (Elt Ideal))

local notation "⟪" b "⟫" => Proc.devRef (τ := τ) Proc.tc b

/-! ## Reading a recast, a quotient and a spread constant at an index -/

/-- A vector [n] recast as a column [n,1], read at (r, 0), is its entry r. -/
theorem column_cast_apply {α : Type} {n : Nat} (x : (⟨1, ![n]⟩ : Shape).Idx → α)
    (h : (⟨1, ![n]⟩ : Shape).ShapeCasts ⟨2, ![n, 1]⟩) (r : Fin n) :
    shapeCast (⟨2, ![n, 1]⟩ : Shape) x h (ix2 r (0 : Fin 1)) = x (ix1 r) :=
  shapeCast_apply x h (ix2 r (0 : Fin 1)) (ix1 r) (by
    rw [Shape.rowMajor_val_one, Shape.rowMajor_val_two]
    show r.val = r.val * 1 + 0
    omega)

/-- A vector [n] recast as a row [1,n], read at (0, k), is its entry k. -/
theorem row_cast_apply {α : Type} {n : Nat} (x : (⟨1, ![n]⟩ : Shape).Idx → α)
    (h : (⟨1, ![n]⟩ : Shape).ShapeCasts ⟨2, ![1, n]⟩) (k : Fin n) :
    shapeCast (⟨2, ![1, n]⟩ : Shape) x h (ix2 (0 : Fin 1) k) = x (ix1 k) :=
  shapeCast_apply x h (ix2 (0 : Fin 1) k) (ix1 k) (by
    rw [Shape.rowMajor_val_one, Shape.rowMajor_val_two]
    show k.val = 0 * n + k.val
    omega)

/-- The host's quotient of two arrays at an index is the quotient of the entries. -/
theorem host_div_apply {s : Shape} {φ : FTy} (x y : FVec Ideal s φ) (i : s.Idx) :
    Host.divf x y i = Ideal.div (x i) (y i) := rfl

/-- Widening a bf16 array to f32 is the identity on extended reals. -/
theorem widen_id {s : Shape} (a : FVec Ideal s .bf16) (h : FTy.bf16.bits < FTy.f32.bits) :
    (extf .f32 a h : s.Idx → EReal) = a := rfl

/-- The word 0x3F800000 is the float one: sign 0, exponent 127, fraction 0, so 2^23 · 2^(127 - 127 - 23) = 1. -/
theorem one_word : Ideal.ofBits .f32 0x3F800000#32 = 1 := by
  have hneg : ((0x3F800000#32 : BitVec 32).extractLsb' (8 + 23) 1 == 1#1) = false := by decide
  have hex : ((0x3F800000#32 : BitVec 32).extractLsb' 23 8).toNat = 127 := by decide
  have hfr : ((0x3F800000#32 : BitVec 32).extractLsb' 0 23).toNat = 0 := by decide
  show Ideal.ieee 8 23 (0x3F800000#32 : BitVec 32) = 1
  unfold Ideal.ieee
  simp only [hneg, hex, hfr]
  norm_num

/-- The scalar one spread over [50000] is 1 at every index. -/
theorem ones_apply (h : S_.BroadcastsInDim S50000 ![]) (i : S50000.Idx) :
    broadcastInDim S50000 ![] h (constant (F := Ideal) S_ .f32 0x3F800000#32) i = 1 := by
  refine (broadcastInDim_apply _ h _ i (fun a => a.elim0) (fun a => a.elim0)).trans ?_
  rw [constant_apply]
  exact one_word

/-! ## The stretches, read -/

/-- The contents after the two stretches before region 3. -/
abbrev entered : Valuation τ sig (Elt Ideal) := StableHlo.after hostOps3_2 (StableHlo.after hostOps3_1 U)

theorem feat : entered U ⟪main_v77⟫ = featM (U ⟪main_arg4⟫) (U ⟪main_arg5⟫) := by
  show StableHlo.after hostOps3_2 (StableHlo.after hostOps3_1 U) ⟪main_v77⟫ = _
  simp only [hostOps3_2, hostOps3_1, TRef.unary, TRef.nullary, TRef.binary]
  after_results_simp
  unfold featM
  rfl

theorem src : entered U ⟪main_v79⟫ = srcM (U ⟪main_arg6⟫) := by
  show StableHlo.after hostOps3_2 (StableHlo.after hostOps3_1 U) ⟪main_v79⟫ = _
  simp only [hostOps3_2, hostOps3_1]
  after_results_simp
  unfold srcM
  rfl

theorem dst : entered U ⟪main_v81⟫ = dstM (U ⟪main_arg6⟫) := by
  show StableHlo.after hostOps3_2 (StableHlo.after hostOps3_1 U) ⟪main_v81⟫ = _
  simp only [hostOps3_2, hostOps3_1]
  after_results_simp
  unfold dstM
  rfl

theorem coef : entered U ⟪main_v106⟫ = coefM (U ⟪main_arg6⟫) := by
  show StableHlo.after hostOps3_2 (StableHlo.after hostOps3_1 U) ⟪main_v106⟫ = _
  simp only [hostOps3_2, hostOps3_1]
  after_results_simp
  unfold coefM degOfM degM wrapM colM srcM dstM
  rfl

theorem rd (r : Fin 50000) : entered U ⟪main_v91⟫ (ix2 r (0 : Fin 1)) = Ideal.div 1 (degOfM (U ⟪main_arg6⟫) (ix1 r)) := by
  have e : entered U ⟪main_v91⟫
      = shapeCast S50000x1 (Host.divf (broadcastInDim S50000 ![] bcast_S_S50000 (constant (F := Ideal) S_ .f32 0x3F800000#32))
          (degOfM (U ⟪main_arg6⟫))) shapeCasts_S50000_S50000x1 := by
    show StableHlo.after hostOps3_2 (StableHlo.after hostOps3_1 U) ⟪main_v91⟫ = _
    simp only [hostOps3_2, hostOps3_1]
    after_results_simp
    unfold degOfM degM colM dstM
    rfl
  rw [e]
  refine (column_cast_apply _ _ r).trans ?_
  rw [host_div_apply, ones_apply]

theorem agg1 (xw : FVec Ideal S50000x128 .f32) (e : IVec S2x800000 32)
    (h107 : U ⟪main_v107⟫ = xw) (h79 : U ⟪main_v79⟫ = srcM e) (h81 : U ⟪main_v81⟫ = dstM e) (h106 : U ⟪main_v106⟫ = coefM e) :
    StableHlo.after hostOps4 U ⟪main_v121⟫ = aggM xw e := by
  simp only [hostOps4]
  after_results_simp
  rw [h107, h79, h81, h106, widen_id]
  unfold aggM wrapM colM
  rfl

theorem bias1 (k : Fin 128) : StableHlo.after hostOps4 U ⟪main_v122⟫ (ix2 (0 : Fin 1) k) = U ⟪main_arg13⟫ (ix1 k) := by
  have e : StableHlo.after hostOps4 U ⟪main_v122⟫ = shapeCast S1x128 (U ⟪main_arg13⟫) shapeCasts_S128_S1x128 := by
    simp only [hostOps4]
    after_results_simp
    rfl
  rw [e]
  exact row_cast_apply _ _ k

theorem agg2 (xw : FVec Ideal S50000x128 .f32) (e : IVec S2x800000 32)
    (h123 : U ⟪main_v123⟫ = xw) (h79 : U ⟪main_v79⟫ = srcM e) (h81 : U ⟪main_v81⟫ = dstM e) (h106 : U ⟪main_v106⟫ = coefM e) :
    StableHlo.after hostOps5 U ⟪main_v137⟫ = aggM xw e := by
  simp only [hostOps5]
  after_results_simp
  rw [h123, h79, h81, h106, widen_id]
  unfold aggM wrapM colM
  rfl

theorem bias2 (k : Fin 128) : StableHlo.after hostOps5 U ⟪main_v138⟫ (ix2 (0 : Fin 1) k) = U ⟪main_arg15⟫ (ix1 k) := by
  have e : StableHlo.after hostOps5 U ⟪main_v138⟫ = shapeCast S1x128 (U ⟪main_arg15⟫) shapeCasts_S128_S1x128 := by
    simp only [hostOps5]
    after_results_simp
    rfl
  rw [e]
  exact row_cast_apply _ _ k

/-- Before the head: the graph numbers as a column, the two biases as rows. -/
theorem graphs (r : Fin 50000) : StableHlo.after hostOps6 U ⟪main_v140⟫ (ix2 r (0 : Fin 1)) = U ⟪main_arg7⟫ (ix1 r) := by
  have e : StableHlo.after hostOps6 U ⟪main_v140⟫ = shapeCast S50000x1 (U ⟪main_arg7⟫) shapeCasts_S50000_S50000x1 := by
    simp only [hostOps6]
    after_results_simp
    rfl
  rw [e]
  exact column_cast_apply _ _ r

theorem headBias1 (k : Fin 128) : StableHlo.after hostOps6 U ⟪main_v141⟫ (ix2 (0 : Fin 1) k) = U ⟪main_arg17⟫ (ix1 k) := by
  have e : StableHlo.after hostOps6 U ⟪main_v141⟫ = shapeCast S1x128 (U ⟪main_arg17⟫) shapeCasts_S128_S1x128 := by
    simp only [hostOps6]
    after_results_simp
    rfl
  rw [e]
  exact row_cast_apply _ _ k

theorem headBias2 (k : Fin 3) : StableHlo.after hostOps6 U ⟪main_v142⟫ (ix2 (0 : Fin 1) k) = U ⟪main_arg19⟫ (ix1 k) := by
  have e : StableHlo.after hostOps6 U ⟪main_v142⟫ = shapeCast S1x3 (U ⟪main_arg19⟫) shapeCasts_S3_S1x3 := by
    simp only [hostOps6]
    after_results_simp
    rfl
  rw [e]
  exact row_cast_apply _ _ k

end Cert.HostM

end
-- ==== Proof.CarryLists.lean ====
import proofs.«429129_j3384434230027_2_alg».proof.Proof.Gen.KernelIdeal.Frame

set_option maxRecDepth 16384

noncomputable section

/-
  A buffer that a stretch of host operations does not write holds, after the stretch, what it held before.
  Each stretch's written buffers are listed once; membership in the list is then decided, buffer by buffer.
-/
namespace Cert.CarryLists

open Idealize.ShloMosaic Idealize.ShloMosaic.TcCoe Idealize.SL.Sem
open Cert.KernelIdeal Cert.KernelIdeal.Gen

variable {F : FTy → Type} [FloatOps F]

/-- The buffers the operations of `hostOps0` write. -/
def written0 : List (Ref sig .tc) := [main_call0_v0, main_call0_v1, main_call0_v2, main_call0_v3, main_call0_v4, main_v0]

theorem writes0 : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes,
    StableHlo.quaternary_writes, StableHlo.reshape_writes, Finset.singleton_subset_iff, List.mem_toFinset, List.mem_map]
  repeat' apply And.intro
  all_goals exact ⟨_, by decide, rfl⟩

/-- A buffer `hostOps0` does not write keeps its contents across it. -/
theorem keep0 (U : Valuation τ sig (Elt F)) (r : Ref sig .tc) (hr : r ∉ written0) :
    StableHlo.after (hostOps0 (F := F)) U (Proc.devRef .tc r) = U (Proc.devRef .tc r) :=
  StableHlo.after_of_writes_sub hostOps0 U writes0 hr

/-- The buffers the operations of `hostOps0_1` write. -/
def written0_1 : List (Ref sig .tc) := [main_v1, main_v2, main_v3, main_v4, main_v5, main_cst, main_v6, main_cst_0, main_v7, main_v8, main_v9, main_cst_1, main_v10, main_v11, main_v12, main_cst_2, main_v13, main_v14, main_v15, main_c, main_v16, main_v17, main_c_3, main_v18, main_v19, main_v20, main_v21, main_v22, main_c_4, main_v23, main_v24, main_c_5, main_v25, main_v26, main_v27, main_v28, main_v29, main_v30]

theorem writes0_1 : (hostOps0_1 : List (HloOp τ sig (Elt F))).Forall fun op => op.writes ⊆ (written0_1.map (Proc.devRef (τ := τ) .tc)).toFinset := by
  simp only [hostOps0_1, List.Forall, StableHlo.nullary_writes, StableHlo.unary_writes, StableHlo.binary_writes, StableHlo.ternary_writes,
    StableHlo.quaternary_writes, StableHlo.reshape_writes, Finset.singleton_subset_iff, List.mem_toFinset, List.mem_map]
  repeat' apply And.intro
  all_goals exact ⟨_, by decide, rfl⟩

/-- A buffer `hostOps0_1` does not write keeps its contents across it. -/
theorem keep0_1 (U : Valuation τ sig (Elt F)) (r : Ref sig .tc) (hr : r ∉ written0_1) :
    StableHlo.after (hostOps0_1 (F := F)) U (Proc.devRef .tc r) = U (Proc.devRef .tc r) :=
  StableHlo.after_of_writes_sub hostOps0_1 U writes0_1 hr

/-- The buffers the operations of `hostOps1` write. -/
def written1 : List (Ref sig .tc) := [main_c_6, main_v32, main_v33, main_c_7, main_v34, main_v35, main_v36, main_v37, main_v38, main_v39, main_v40, main_v41, main_v42, main_cst_8, main_v43, main_v44, main_v45, main_v46]

theorem writes1 : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes,
    StableHlo.quaternary_writes, StableHlo.reshape_writes, Finset.singleton_subset_iff, List.mem_toFinset, List.mem_map]
  repeat' apply And.intro
  all_goals exact ⟨_, by decide, rfl⟩

/-- A buffer `hostOps1` does not write keeps its contents across it. -/
theorem keep1 (U : Valuation τ sig (Elt F)) (r : Ref sig .tc) (hr : r ∉ written1) :
    StableHlo.after (hostOps1 (F := F)) U (Proc.devRef .tc r) = U (Proc.devRef .tc r) :=
  StableHlo.after_of_writes_sub hostOps1 U writes1 hr

/-- The buffers the operations of `hostOps2` write. -/
def written2 : List (Ref sig .tc) := [main_c_9, main_v48, main_v49, main_c_10, main_v50, main_v51, main_v52, main_v53, main_v54, main_v55, main_v56, main_v57, main_v58, main_cst_11, main_v59, main_v60, main_v61, main_v62]

theorem writes2 : (hostOps2 : List (HloOp τ sig (Elt F))).Forall fun op => op.writes ⊆ (written2.map (Proc.devRef (τ := τ) .tc)).toFinset := by
  simp only [hostOps2, List.Forall, StableHlo.nullary_writes, StableHlo.unary_writes, StableHlo.binary_writes, StableHlo.ternary_writes,
    StableHlo.quaternary_writes, StableHlo.reshape_writes, Finset.singleton_subset_iff, List.mem_toFinset, List.mem_map]
  repeat' apply And.intro
  all_goals exact ⟨_, by decide, rfl⟩

/-- A buffer `hostOps2` does not write keeps its contents across it. -/
theorem keep2 (U : Valuation τ sig (Elt F)) (r : Ref sig .tc) (hr : r ∉ written2) :
    StableHlo.after (hostOps2 (F := F)) U (Proc.devRef .tc r) = U (Proc.devRef .tc r) :=
  StableHlo.after_of_writes_sub hostOps2 U writes2 hr

/-- The buffers the operations of `hostOps3` write. -/
def written3 : List (Ref sig .tc) := [main_cst_12, main_v64, main_v65, main_v66, main_cst_13, main_v67, main_cst_14, main_v68, main_v69, main_v70, main_cst_15, main_v71, main_v72, main_v73, main_v74, main_v75]

theorem writes3 : (hostOps3 : List (HloOp τ sig (Elt F))).Forall fun op => op.writes ⊆ (written3.map (Proc.devRef (τ := τ) .tc)).toFinset := by
  simp only [hostOps3, List.Forall, StableHlo.nullary_writes, StableHlo.unary_writes, StableHlo.binary_writes, StableHlo.ternary_writes,
    StableHlo.quaternary_writes, StableHlo.reshape_writes, Finset.singleton_subset_iff, List.mem_toFinset, List.mem_map]
  repeat' apply And.intro
  all_goals exact ⟨_, by decide, rfl⟩

/-- A buffer `hostOps3` does not write keeps its contents across it. -/
theorem keep3 (U : Valuation τ sig (Elt F)) (r : Ref sig .tc) (hr : r ∉ written3) :
    StableHlo.after (hostOps3 (F := F)) U (Proc.devRef .tc r) = U (Proc.devRef .tc r) :=
  StableHlo.after_of_writes_sub hostOps3 U writes3 hr

/-- The buffers the operations of `hostOps3_1` write. -/
def written3_1 : List (Ref sig .tc) := [main_call1_v0, main_call1_v1, main_call1_v2, main_call1_v3, main_call1_v4, main_v76]

theorem writes3_1 : (hostOps3_1 : List (HloOp τ sig (Elt F))).Forall fun op => op.writes ⊆ (written3_1.map (Proc.devRef (τ := τ) .tc)).toFinset := by
  simp only [hostOps3_1, List.Forall, StableHlo.nullary_writes, StableHlo.unary_writes, StableHlo.binary_writes, StableHlo.ternary_writes,
    StableHlo.quaternary_writes, StableHlo.reshape_writes, Finset.singleton_subset_iff, List.mem_toFinset, List.mem_map]
  repeat' apply And.intro
  all_goals exact ⟨_, by decide, rfl⟩

/-- A buffer `hostOps3_1` does not write keeps its contents across it. -/
theorem keep3_1 (U : Valuation τ sig (Elt F)) (r : Ref sig .tc) (hr : r ∉ written3_1) :
    StableHlo.after (hostOps3_1 (F := F)) U (Proc.devRef .tc r) = U (Proc.devRef .tc r) :=
  StableHlo.after_of_writes_sub hostOps3_1 U writes3_1 hr

/-- The buffers the operations of `hostOps3_2` write. -/
def written3_2 : List (Ref sig .tc) := [main_v77, main_v78, main_v79, main_v80, main_v81, main_cst_16, main_v82, main_cst_17, main_v83, main_v84, main_v85, main_cst_18, main_v86, main_v87, main_v88, main_cst_19, main_v89, main_v90, main_v91, main_c_20, main_v92, main_v93, main_c_21, main_v94, main_v95, main_v96, main_v97, main_v98, main_c_22, main_v99, main_v100, main_c_23, main_v101, main_v102, main_v103, main_v104, main_v105, main_v106]

theorem writes3_2 : (hostOps3_2 : List (HloOp τ sig (Elt F))).Forall fun op => op.writes ⊆ (written3_2.map (Proc.devRef (τ := τ) .tc)).toFinset := by
  simp only [hostOps3_2, List.Forall, StableHlo.nullary_writes, StableHlo.unary_writes, StableHlo.binary_writes, StableHlo.ternary_writes,
    StableHlo.quaternary_writes, StableHlo.reshape_writes, Finset.singleton_subset_iff, List.mem_toFinset, List.mem_map]
  repeat' apply And.intro
  all_goals exact ⟨_, by decide, rfl⟩

/-- A buffer `hostOps3_2` does not write keeps its contents across it. -/
theorem keep3_2 (U : Valuation τ sig (Elt F)) (r : Ref sig .tc) (hr : r ∉ written3_2) :
    StableHlo.after (hostOps3_2 (F := F)) U (Proc.devRef .tc r) = U (Proc.devRef .tc r) :=
  StableHlo.after_of_writes_sub hostOps3_2 U writes3_2 hr

/-- The buffers the operations of `hostOps4` write. -/
def written4 : List (Ref sig .tc) := [main_c_24, main_v108, main_v109, main_c_25, main_v110, main_v111, main_v112, main_v113, main_v114, main_v115, main_v116, main_v117, main_v118, main_cst_26, main_v119, main_v120, main_v121, main_v122]

theorem writes4 : (hostOps4 : List (HloOp τ sig (Elt F))).Forall fun op => op.writes ⊆ (written4.map (Proc.devRef (τ := τ) .tc)).toFinset := by
  simp only [hostOps4, List.Forall, StableHlo.nullary_writes, StableHlo.unary_writes, StableHlo.binary_writes, StableHlo.ternary_writes,
    StableHlo.quaternary_writes, StableHlo.reshape_writes, Finset.singleton_subset_iff, List.mem_toFinset, List.mem_map]
  repeat' apply And.intro
  all_goals exact ⟨_, by decide, rfl⟩

/-- A buffer `hostOps4` does not write keeps its contents across it. -/
theorem keep4 (U : Valuation τ sig (Elt F)) (r : Ref sig .tc) (hr : r ∉ written4) :
    StableHlo.after (hostOps4 (F := F)) U (Proc.devRef .tc r) = U (Proc.devRef .tc r) :=
  StableHlo.after_of_writes_sub hostOps4 U writes4 hr

/-- The buffers the operations of `hostOps5` write. -/
def written5 : List (Ref sig .tc) := [main_c_27, main_v124, main_v125, main_c_28, main_v126, main_v127, main_v128, main_v129, main_v130, main_v131, main_v132, main_v133, main_v134, main_cst_29, main_v135, main_v136, main_v137, main_v138]

theorem writes5 : (hostOps5 : List (HloOp τ sig (Elt F))).Forall fun op => op.writes ⊆ (written5.map (Proc.devRef (τ := τ) .tc)).toFinset := by
  simp only [hostOps5, List.Forall, StableHlo.nullary_writes, StableHlo.unary_writes, StableHlo.binary_writes, StableHlo.ternary_writes,
    StableHlo.quaternary_writes, StableHlo.reshape_writes, Finset.singleton_subset_iff, List.mem_toFinset, List.mem_map]
  repeat' apply And.intro
  all_goals exact ⟨_, by decide, rfl⟩

/-- A buffer `hostOps5` does not write keeps its contents across it. -/
theorem keep5 (U : Valuation τ sig (Elt F)) (r : Ref sig .tc) (hr : r ∉ written5) :
    StableHlo.after (hostOps5 (F := F)) U (Proc.devRef .tc r) = U (Proc.devRef .tc r) :=
  StableHlo.after_of_writes_sub hostOps5 U writes5 hr

/-- The buffers the operations of `hostOps6` write. -/
def written6 : List (Ref sig .tc) := [main_v140, main_v141, main_v142]

theorem writes6 : (hostOps6 : List (HloOp τ sig (Elt F))).Forall fun op => op.writes ⊆ (written6.map (Proc.devRef (τ := τ) .tc)).toFinset := by
  simp only [hostOps6, List.Forall, StableHlo.nullary_writes, StableHlo.unary_writes, StableHlo.binary_writes, StableHlo.ternary_writes,
    StableHlo.quaternary_writes, StableHlo.reshape_writes, Finset.singleton_subset_iff, List.mem_toFinset, List.mem_map]
  repeat' apply And.intro
  all_goals exact ⟨_, by decide, rfl⟩

/-- A buffer `hostOps6` does not write keeps its contents across it. -/
theorem keep6 (U : Valuation τ sig (Elt F)) (r : Ref sig .tc) (hr : r ∉ written6) :
    StableHlo.after (hostOps6 (F := F)) U (Proc.devRef .tc r) = U (Proc.devRef .tc r) :=
  StableHlo.after_of_writes_sub hostOps6 U writes6 hr

end Cert.CarryLists

end
-- ==== Proof.Carry.lean ====
import proofs.«429129_j3384434230027_2_alg».proof.Proof.CarryLists

set_option maxRecDepth 16384

noncomputable section

/-
  What a buffer holds at a later segment boundary when nothing in between writes it: an argument holds its launch
  contents at every boundary, and an intermediate array holds what the stretch or region that produced it left.
  Each step across a stretch of host operations is that the stretch does not write the buffer; each step across a
  region is that the buffer is none of the region's arrays.
-/
namespace Cert.Carry

open Idealize.ShloMosaic Idealize.ShloMosaic.TcCoe Idealize.SL.Sem
open Cert.KernelIdeal Cert.KernelIdeal.Gen Cert.CarryLists

variable {F : FTy → Type} [FloatOps F]
variable (m : (ℓ : Loc nD τ sig) → Buf (Elt F) ℓ) (ρ : Dev nD → PrngReg) (c : Dev nD)

/-! ## One step across a stretch of host operations, for any buffer the stretch does not write

The steps across the regions are the generated ones: a buffer that is none of a region's arrays leaves the region
as it entered. -/

section Rungs

variable (r : Ref sig .tc)

/-- At launch a buffer holds the launch memory. -/
theorem launch0 : W0 m ρ c (Proc.devRef .tc r) = m ((c : Thread nD τ).loc r) := rfl

theorem step1 (h : r ∉ written0 := by decide) : W1 m ρ c (Proc.devRef .tc r) = W0 m ρ c (Proc.devRef .tc r) := keep0 _ r h

theorem step2 (h : r ∉ written0_1 := by decide) : W2 m ρ c (Proc.devRef .tc r) = W1 m ρ c (Proc.devRef .tc r) := keep0_1 _ r h

theorem step4 (h : r ∉ written1 := by decide) : W4 m ρ c (Proc.devRef .tc r) = W3 m ρ c (Proc.devRef .tc r) := keep1 _ r h

theorem step6 (h : r ∉ written2 := by decide) : W6 m ρ c (Proc.devRef .tc r) = W5 m ρ c (Proc.devRef .tc r) := keep2 _ r h

theorem step8 (h : r ∉ written3 := by decide) : W8 m ρ c (Proc.devRef .tc r) = W7 m ρ c (Proc.devRef .tc r) := keep3 _ r h

theorem step9 (h : r ∉ written3_1 := by decide) : W9 m ρ c (Proc.devRef .tc r) = W8 m ρ c (Proc.devRef .tc r) := keep3_1 _ r h

theorem step10 (h : r ∉ written3_2 := by decide) : W10 m ρ c (Proc.devRef .tc r) = W9 m ρ c (Proc.devRef .tc r) := keep3_2 _ r h

theorem step12 (h : r ∉ written4 := by decide) : W12 m ρ c (Proc.devRef .tc r) = W11 m ρ c (Proc.devRef .tc r) := keep4 _ r h

theorem step14 (h : r ∉ written5 := by decide) : W14 m ρ c (Proc.devRef .tc r) = W13 m ρ c (Proc.devRef .tc r) := keep5 _ r h

theorem step16 (h : r ∉ written6 := by decide) : W16 m ρ c (Proc.devRef .tc r) = W15 m ρ c (Proc.devRef .tc r) := keep6 _ r h

/-! ## Several steps at once: the first graph's half of the program, boundaries 0 to 8

Each ladder adds one rung to the one below it, so the long ones share their lower rungs. A hypothesis `h…` says a
stretch of host operations does not write the buffer, a hypothesis `g…` that it is none of a region's arrays; for a
named buffer each is decided. -/

theorem span_2_0 (h0 : r ∉ written0 := by decide) (h0_1 : r ∉ written0_1 := by decide) :
    W2 m ρ c (Proc.devRef .tc r) = m ((c : Thread nD τ).loc r) :=
  (step2 m ρ c r h0_1).trans (step1 m ρ c r h0)

theorem span_4_2 (g0 : ∀ w, Pipeline.arrRef spec0 w ≠ r := by decide) (h1 : r ∉ written1 := by decide) :
    W4 m ρ c (Proc.devRef .tc r) = W2 m ρ c (Proc.devRef .tc r) :=
  (step4 m ρ c r h1).trans (W3_of_ne m ρ c r g0)

theorem span_5_2 (g0 : ∀ w, Pipeline.arrRef spec0 w ≠ r := by decide) (h1 : r ∉ written1 := by decide)
    (g1 : ∀ w, Pipeline.arrRef spec1 w ≠ r := by decide) :
    W5 m ρ c (Proc.devRef .tc r) = W2 m ρ c (Proc.devRef .tc r) :=
  (W5_of_ne m ρ c r g1).trans (span_4_2 m ρ c r g0 h1)

theorem span_6_2 (g0 : ∀ w, Pipeline.arrRef spec0 w ≠ r := by decide) (h1 : r ∉ written1 := by decide)
    (g1 : ∀ w, Pipeline.arrRef spec1 w ≠ r := by decide) (h2 : r ∉ written2 := by decide) :
    W6 m ρ c (Proc.devRef .tc r) = W2 m ρ c (Proc.devRef .tc r) :=
  (step6 m ρ c r h2).trans (span_5_2 m ρ c r g0 h1 g1)

theorem span_7_2 (g0 : ∀ w, Pipeline.arrRef spec0 w ≠ r := by decide) (h1 : r ∉ written1 := by decide)
    (g1 : ∀ w, Pipeline.arrRef spec1 w ≠ r := by decide) (h2 : r ∉ written2 := by decide)
    (g2 : ∀ w, Pipeline.arrRef spec2 w ≠ r := by decide) :
    W7 m ρ c (Proc.devRef .tc r) = W2 m ρ c (Proc.devRef .tc r) :=
  (W7_of_ne m ρ c r g2).trans (span_6_2 m ρ c r g0 h1 g1 h2)

/-- A buffer nothing writes up to boundary 8 holds the launch memory there. -/
theorem launch_at8 (h0 : r ∉ written0 := by decide) (h0_1 : r ∉ written0_1 := by decide)
    (g0 : ∀ w, Pipeline.arrRef spec0 w ≠ r := by decide) (h1 : r ∉ written1 := by decide)
    (g1 : ∀ w, Pipeline.arrRef spec1 w ≠ r := by decide) (h2 : r ∉ written2 := by decide)
    (g2 : ∀ w, Pipeline.arrRef spec2 w ≠ r := by decide) (h3 : r ∉ written3 := by decide) :
    W8 m ρ c (Proc.devRef .tc r) = m ((c : Thread nD τ).loc r) :=
  (step8 m ρ c r h3).trans ((span_7_2 m ρ c r g0 h1 g1 h2 g2).trans (span_2_0 m ρ c r h0 h0_1))

/-! ## The second graph's half and the head, boundaries 8 to 16 -/

theorem span_10_8 (h3_1 : r ∉ written3_1 := by decide) (h3_2 : r ∉ written3_2 := by decide) :
    W10 m ρ c (Proc.devRef .tc r) = W8 m ρ c (Proc.devRef .tc r) :=
  (step10 m ρ c r h3_2).trans (step9 m ρ c r h3_1)

/-- A buffer nothing writes up to boundary 10 holds the launch memory there. -/
theorem launch_at10 (h0 : r ∉ written0 := by decide) (h0_1 : r ∉ written0_1 := by decide)
    (g0 : ∀ w, Pipeline.arrRef spec0 w ≠ r := by decide) (h1 : r ∉ written1 := by decide)
    (g1 : ∀ w, Pipeline.arrRef spec1 w ≠ r := by decide) (h2 : r ∉ written2 := by decide)
    (g2 : ∀ w, Pipeline.arrRef spec2 w ≠ r := by decide) (h3 : r ∉ written3 := by decide)
    (h3_1 : r ∉ written3_1 := by decide) (h3_2 : r ∉ written3_2 := by decide) :
    W10 m ρ c (Proc.devRef .tc r) = m ((c : Thread nD τ).loc r) :=
  (span_10_8 m ρ c r h3_1 h3_2).trans (launch_at8 m ρ c r h0 h0_1 g0 h1 g1 h2 g2 h3)

theorem span_12_10 (g3 : ∀ w, Pipeline.arrRef spec3 w ≠ r := by decide) (h4 : r ∉ written4 := by decide) :
    W12 m ρ c (Proc.devRef .tc r) = W10 m ρ c (Proc.devRef .tc r) :=
  (step12 m ρ c r h4).trans (W11_of_ne m ρ c r g3)

theorem span_13_10 (g3 : ∀ w, Pipeline.arrRef spec3 w ≠ r := by decide) (h4 : r ∉ written4 := by decide)
    (g4 : ∀ w, Pipeline.arrRef spec4 w ≠ r := by decide) :
    W13 m ρ c (Proc.devRef .tc r) = W10 m ρ c (Proc.devRef .tc r) :=
  (W13_of_ne m ρ c r g4).trans (span_12_10 m ρ c r g3 h4)

theorem span_14_10 (g3 : ∀ w, Pipeline.arrRef spec3 w ≠ r := by decide) (h4 : r ∉ written4 := by decide)
    (g4 : ∀ w, Pipeline.arrRef spec4 w ≠ r := by decide) (h5 : r ∉ written5 := by decide) :
    W14 m ρ c (Proc.devRef .tc r) = W10 m ρ c (Proc.devRef .tc r) :=
  (step14 m ρ c r h5).trans (span_13_10 m ρ c r g3 h4 g4)

theorem span_15_10 (g3 : ∀ w, Pipeline.arrRef spec3 w ≠ r := by decide) (h4 : r ∉ written4 := by decide)
    (g4 : ∀ w, Pipeline.arrRef spec4 w ≠ r := by decide) (h5 : r ∉ written5 := by decide)
    (g5 : ∀ w, Pipeline.arrRef spec5 w ≠ r := by decide) :
    W15 m ρ c (Proc.devRef .tc r) = W10 m ρ c (Proc.devRef .tc r) :=
  (W15_of_ne m ρ c r g5).trans (span_14_10 m ρ c r g3 h4 g4 h5)

theorem span_16_10 (g3 : ∀ w, Pipeline.arrRef spec3 w ≠ r := by decide) (h4 : r ∉ written4 := by decide)
    (g4 : ∀ w, Pipeline.arrRef spec4 w ≠ r := by decide) (h5 : r ∉ written5 := by decide)
    (g5 : ∀ w, Pipeline.arrRef spec5 w ≠ r := by decide) (h6 : r ∉ written6 := by decide) :
    W16 m ρ c (Proc.devRef .tc r) = W10 m ρ c (Proc.devRef .tc r) :=
  (step16 m ρ c r h6).trans (span_15_10 m ρ c r g3 h4 g4 h5 g5)

end Rungs

/-! ## The arguments, at the boundaries where they are read -/

theorem arg9_at3 : W3 m ρ c (Proc.devRef .tc main_arg9) = m ((c : Thread nD τ).loc main_arg9) :=
  (W3_of_ne m ρ c main_arg9 (by decide)).trans (span_2_0 m ρ c main_arg9)

theorem arg11_at5 : W5 m ρ c (Proc.devRef .tc main_arg11) = m ((c : Thread nD τ).loc main_arg11) :=
  (span_5_2 m ρ c main_arg11).trans (span_2_0 m ρ c main_arg11)

theorem arg3_at7 : W7 m ρ c (Proc.devRef .tc main_arg3) = m ((c : Thread nD τ).loc main_arg3) :=
  (span_7_2 m ρ c main_arg3).trans (span_2_0 m ρ c main_arg3)

theorem arg4_at8 : W8 m ρ c (Proc.devRef .tc main_arg4) = m ((c : Thread nD τ).loc main_arg4) :=
  launch_at8 m ρ c main_arg4

theorem arg5_at8 : W8 m ρ c (Proc.devRef .tc main_arg5) = m ((c : Thread nD τ).loc main_arg5) :=
  launch_at8 m ρ c main_arg5

theorem arg6_at8 : W8 m ρ c (Proc.devRef .tc main_arg6) = m ((c : Thread nD τ).loc main_arg6) :=
  launch_at8 m ρ c main_arg6

theorem arg13_at11 : W11 m ρ c (Proc.devRef .tc main_arg13) = m ((c : Thread nD τ).loc main_arg13) :=
  (W11_of_ne m ρ c main_arg13 (by decide)).trans (launch_at10 m ρ c main_arg13)

theorem arg15_at13 : W13 m ρ c (Proc.devRef .tc main_arg15) = m ((c : Thread nD τ).loc main_arg15) :=
  (span_13_10 m ρ c main_arg15).trans (launch_at10 m ρ c main_arg15)

theorem arg7_at15 : W15 m ρ c (Proc.devRef .tc main_arg7) = m ((c : Thread nD τ).loc main_arg7) :=
  (span_15_10 m ρ c main_arg7).trans (launch_at10 m ρ c main_arg7)

theorem arg17_at15 : W15 m ρ c (Proc.devRef .tc main_arg17) = m ((c : Thread nD τ).loc main_arg17) :=
  (span_15_10 m ρ c main_arg17).trans (launch_at10 m ρ c main_arg17)

theorem arg19_at15 : W15 m ρ c (Proc.devRef .tc main_arg19) = m ((c : Thread nD τ).loc main_arg19) :=
  (span_15_10 m ρ c main_arg19).trans (launch_at10 m ρ c main_arg19)

theorem arg8_at2 : W2 m ρ c (Proc.devRef .tc main_arg8) = m ((c : Thread nD τ).loc main_arg8) :=
  span_2_0 m ρ c main_arg8

theorem arg10_at4 : W4 m ρ c (Proc.devRef .tc main_arg10) = m ((c : Thread nD τ).loc main_arg10) :=
  (span_4_2 m ρ c main_arg10).trans (span_2_0 m ρ c main_arg10)

theorem arg12_at10 : W10 m ρ c (Proc.devRef .tc main_arg12) = m ((c : Thread nD τ).loc main_arg12) :=
  launch_at10 m ρ c main_arg12

theorem arg14_at12 : W12 m ρ c (Proc.devRef .tc main_arg14) = m ((c : Thread nD τ).loc main_arg14) :=
  (span_12_10 m ρ c main_arg14).trans (launch_at10 m ρ c main_arg14)

theorem arg16_at16 : W16 m ρ c (Proc.devRef .tc main_arg16) = m ((c : Thread nD τ).loc main_arg16) :=
  (span_16_10 m ρ c main_arg16).trans (launch_at10 m ρ c main_arg16)

theorem arg18_at16 : W16 m ρ c (Proc.devRef .tc main_arg18) = m ((c : Thread nD τ).loc main_arg18) :=
  (span_16_10 m ρ c main_arg18).trans (launch_at10 m ρ c main_arg18)

/-! ## Intermediate arrays, from the boundary that produced them to the boundary where they are read -/

theorem v3_at3 : W3 m ρ c (Proc.devRef .tc main_v3) = W2 m ρ c (Proc.devRef .tc main_v3) :=
  W3_of_ne m ρ c main_v3 (by decide)

theorem v5_at3 : W3 m ρ c (Proc.devRef .tc main_v5) = W2 m ρ c (Proc.devRef .tc main_v5) :=
  W3_of_ne m ρ c main_v5 (by decide)

theorem v30_at3 : W3 m ρ c (Proc.devRef .tc main_v30) = W2 m ρ c (Proc.devRef .tc main_v30) :=
  W3_of_ne m ρ c main_v30 (by decide)

theorem v3_at5 : W5 m ρ c (Proc.devRef .tc main_v3) = W2 m ρ c (Proc.devRef .tc main_v3) :=
  span_5_2 m ρ c main_v3

theorem v5_at5 : W5 m ρ c (Proc.devRef .tc main_v5) = W2 m ρ c (Proc.devRef .tc main_v5) :=
  span_5_2 m ρ c main_v5

theorem v30_at5 : W5 m ρ c (Proc.devRef .tc main_v30) = W2 m ρ c (Proc.devRef .tc main_v30) :=
  span_5_2 m ρ c main_v30

theorem v31_at4 : W4 m ρ c (Proc.devRef .tc main_v31) = W3 m ρ c (Proc.devRef .tc main_v31) :=
  step4 m ρ c main_v31

theorem v15_at4 : W4 m ρ c (Proc.devRef .tc main_v15) = W2 m ρ c (Proc.devRef .tc main_v15) :=
  span_4_2 m ρ c main_v15

theorem v47_at6 : W6 m ρ c (Proc.devRef .tc main_v47) = W5 m ρ c (Proc.devRef .tc main_v47) :=
  step6 m ρ c main_v47

/-- Region 1 reads this array through its input window 2, and the pipeline leaves an input as it entered. -/
theorem v15_at5 : W5 m ρ c (Proc.devRef .tc main_v15) = W4 m ρ c (Proc.devRef .tc main_v15) :=
  (W5_arr m ρ c 2).trans (((dat1 (V4 m ρ) c).arrAt_in 2 rfl _).trans (A_eq1 (V4 m ρ) c 2))

theorem v15_at6 : W6 m ρ c (Proc.devRef .tc main_v15) = W2 m ρ c (Proc.devRef .tc main_v15) :=
  (step6 m ρ c main_v15).trans ((v15_at5 m ρ c).trans (span_4_2 m ρ c main_v15))

theorem v79_at11 : W11 m ρ c (Proc.devRef .tc main_v79) = W10 m ρ c (Proc.devRef .tc main_v79) :=
  W11_of_ne m ρ c main_v79 (by decide)

theorem v81_at11 : W11 m ρ c (Proc.devRef .tc main_v81) = W10 m ρ c (Proc.devRef .tc main_v81) :=
  W11_of_ne m ρ c main_v81 (by decide)

theorem v106_at11 : W11 m ρ c (Proc.devRef .tc main_v106) = W10 m ρ c (Proc.devRef .tc main_v106) :=
  W11_of_ne m ρ c main_v106 (by decide)

theorem v79_at13 : W13 m ρ c (Proc.devRef .tc main_v79) = W10 m ρ c (Proc.devRef .tc main_v79) :=
  span_13_10 m ρ c main_v79

theorem v81_at13 : W13 m ρ c (Proc.devRef .tc main_v81) = W10 m ρ c (Proc.devRef .tc main_v81) :=
  span_13_10 m ρ c main_v81

theorem v106_at13 : W13 m ρ c (Proc.devRef .tc main_v106) = W10 m ρ c (Proc.devRef .tc main_v106) :=
  span_13_10 m ρ c main_v106

theorem v107_at12 : W12 m ρ c (Proc.devRef .tc main_v107) = W11 m ρ c (Proc.devRef .tc main_v107) :=
  step12 m ρ c main_v107

theorem v91_at12 : W12 m ρ c (Proc.devRef .tc main_v91) = W10 m ρ c (Proc.devRef .tc main_v91) :=
  span_12_10 m ρ c main_v91

theorem v123_at14 : W14 m ρ c (Proc.devRef .tc main_v123) = W13 m ρ c (Proc.devRef .tc main_v123) :=
  step14 m ρ c main_v123

/-- Region 4 reads this array through its input window 2, and the pipeline leaves an input as it entered. -/
theorem v91_at13 : W13 m ρ c (Proc.devRef .tc main_v91) = W12 m ρ c (Proc.devRef .tc main_v91) :=
  (W13_arr m ρ c 2).trans (((dat4 (V12 m ρ) c).arrAt_in 2 rfl _).trans (A_eq4 (V12 m ρ) c 2))

theorem v91_at14 : W14 m ρ c (Proc.devRef .tc main_v91) = W10 m ρ c (Proc.devRef .tc main_v91) :=
  (step14 m ρ c main_v91).trans ((v91_at13 m ρ c).trans (span_12_10 m ρ c main_v91))

theorem v139_at16 : W16 m ρ c (Proc.devRef .tc main_v139) = W15 m ρ c (Proc.devRef .tc main_v139) :=
  step16 m ρ c main_v139

theorem v75_at16 : W16 m ρ c (Proc.devRef .tc main_v75) = W8 m ρ c (Proc.devRef .tc main_v75) :=
  (span_16_10 m ρ c main_v75).trans (span_10_8 m ρ c main_v75)

end Cert.Carry

end
-- ==== Proof.PreFacts.lean ====
import proofs.«429129_j3384434230027_2_alg».proof.Defs
import proofs.«429129_j3384434230027_2_alg».proof.Proof.Gen.Pre_finite_inputs
import proofs.«429129_j3384434230027_2_alg».proof.Proof.RefOps
import proofs.«429129_j3384434230027_2_alg».proof.Proof.Algebra
import Idealize.ShloMosaic.Lib.ValueIdx
import Idealize.ShloMosaic.Lib.ReduceAll
import Idealize.ShloMosaic.Lib.StableHlo.Predicate
import Idealize.ShloMosaic.PureOps.Ideal.Laws

noncomputable section

namespace Cert.PreFacts

open Idealize.ShloMosaic Idealize.ShloMosaic.TcCoe Idealize.SL.Sem Idealize.ShloMosaic.ValueIdx

/-- The scalar shape has exactly one index. -/
local instance scalarIdxSubsingleton : Subsingleton Cert.Pre_finite_inputs.S_.Idx := ⟨fun a b => funext fun d => d.elim0⟩

/-- A 32-bit word that is at least 0 and below 64 as a signed number is below 64 as a natural number:
    a word with its sign bit set reads negative, so the lower bound rules that half out. -/
theorem toNat_lt_of_signed_range (w : BitVec 32) (h0 : IntOp.cmpi .sge w 0#32 = 1#1)
    (h64 : IntOp.cmpi .slt w 64#32 = 1#1) : w.toNat < 64 := by
  rw [IntOp.cmpi_sge] at h0
  rw [IntOp.cmpi_slt] at h64
  have e0 : (0#32 : BitVec 32).toInt = 0 := by decide
  have e64 : (64#32 : BitVec 32).toInt = 64 := by decide
  rw [e0] at h0
  rw [e64] at h64
  rw [BitVec.toInt_eq_toNat_cond] at h0 h64
  split at h0 <;> omega

/-- Under the precondition every graph number of a small-molecule node names one of the 64 graphs. -/
theorem batch_range (m : (ℓ : Loc Cert.KernelIdeal.nD Cert.KernelIdeal.τ Cert.KernelIdeal.sig) → Buf (Elt Ideal) ℓ)
    (h : Cert.Pre_KernelIdeal m) (c : Dev Cert.KernelIdeal.nD) (r : Fin 50000) :
    ((m ((c.tc : Thread Cert.KernelIdeal.nD Cert.KernelIdeal.τ).loc Cert.KernelIdeal.main_arg7) : IVec Cert.KernelIdeal.S50000 32) (ix1 r)).toNat < 64 := by
  have e := congrFun (h c) ix0
  dsimp only [Cert.Pre_finite_inputs.fn, Cert.Pre_finite_inputs.fn_part1, Cert.Pre_finite_inputs.fn_part2,
    Cert.Pre_finite_inputs.fn_part3, Cert.Pre_finite_inputs.fn_part4] at e
  -- the chain of conjunctions is nested to the left: the two range conjuncts are the outermost right operands
  obtain ⟨e1, h64⟩ := IntOp.andi_eq_one.1 e
  obtain ⟨-, h0⟩ := IntOp.andi_eq_one.1 e1
  -- a conjunction over all entries that is one is one at entry r
  have a0 := Host.reduce_andi_all _ _ _ _ _ h0 (ix1 r)
  have a64 := Host.reduce_andi_all _ _ _ _ _ h64 (ix1 r)
  -- a splat constant read at r is the constant
  exact toNat_lt_of_signed_range _ a0 a64

/-- The word 0x3F800000 denotes one. -/
theorem ofBits_one_f32 : Ideal.ofBits .f32 0x3F800000#32 = 1 := by
  simp [Ideal.ofBits, Ideal.ieee, -EReal.coe_mul]; norm_num

/-- A scalar constant spread over any shape reads, at every index, the extended real its word denotes. -/
theorem splat_apply {t : Shape} (h : (⟨0, ![]⟩ : Shape).BroadcastsInDim t ![]) (b : BitVec 32) (j : t.Idx) :
    broadcastInDim t ![] h (constant (F := Ideal) ⟨0, ![]⟩ .f32 b) j = Ideal.ofBits .f32 b := rfl

/-- A degree is never zero: scattering ones into zeros leaves at each node zero plus a sum of ones, one for each
    edge that lands there, and the self-loop adds one more; a nonnegative count plus one is positive. -/
theorem count_add_one_ne_zero {s si su : Shape} {w : Nat} (d : ScatterDims s si su) (idx : IVec si w)
    (hs : (⟨0, ![]⟩ : Shape).BroadcastsInDim s ![]) (hu : (⟨0, ![]⟩ : Shape).BroadcastsInDim su ![]) (i : s.Idx) :
    addf (Host.scatterAdd d (broadcastInDim s ![] hs (constant (F := Ideal) ⟨0, ![]⟩ .f32 0x00000000#32)) idx
        (broadcastInDim su ![] hu (constant (F := Ideal) ⟨0, ![]⟩ .f32 0x3F800000#32)))
      (broadcastInDim s ![] hs (constant (F := Ideal) ⟨0, ![]⟩ .f32 0x3F800000#32)) i ≠ 0 := by
  simp only [Host.scatterAdd, addf_apply, Ideal.hostScatterAdd_def, Ideal.hostScatterAdd, splat_apply,
    Ideal.ofBits_zero_f32, ofBits_one_f32]
  exact Cert.GnnAlgebra.add_one_ne_zero (Cert.GnnAlgebra.zero_add_sum_ones_nonneg _)

/-- A protein-graph node's degree is never zero. -/
theorem degP_ne_zero (dst1 : IVec Cert.ReferenceIdeal.S1600000x1 32) (r : Fin 100000) : Cert.RefOps.degP dst1 (ix1 r) ≠ 0 :=
  count_add_one_ne_zero _ dst1 _ _ (ix1 r)

/-- A small-molecule-graph node's degree is never zero. -/
theorem degM_ne_zero (dst1 : IVec Cert.ReferenceIdeal.S800000x1 32) (r : Fin 50000) : Cert.RefOps.degM dst1 (ix1 r) ≠ 0 :=
  count_add_one_ne_zero _ dst1 _ _ (ix1 r)

end Cert.PreFacts

end
-- ==== Proof.KernelValue.lean ====
import proofs.«429129_j3384434230027_2_alg».proof.Proof.Gen.KernelIdeal.Frame
import proofs.«429129_j3384434230027_2_alg».proof.Proof.Forward
import proofs.«429129_j3384434230027_2_alg».proof.Proof.Region0
import proofs.«429129_j3384434230027_2_alg».proof.Proof.Region1
import proofs.«429129_j3384434230027_2_alg».proof.Proof.Region2
import proofs.«429129_j3384434230027_2_alg».proof.Proof.Region3
import proofs.«429129_j3384434230027_2_alg».proof.Proof.Region4
import proofs.«429129_j3384434230027_2_alg».proof.Proof.Region5
import proofs.«429129_j3384434230027_2_alg».proof.Proof.Region6
import proofs.«429129_j3384434230027_2_alg».proof.Proof.HostP
import proofs.«429129_j3384434230027_2_alg».proof.Proof.HostM
import proofs.«429129_j3384434230027_2_alg».proof.Proof.Carry
import proofs.«429129_j3384434230027_2_alg».proof.Proof.PreFacts

set_option maxRecDepth 16384

noncomputable section

/-
  The kernel program's result as a function of its arguments, at the ideal instance.

  @main is seventeen segments: stretches of host operations and seven regions. The contents of the TensorCore's
  buffers at each segment boundary are a fold from the launch memory. Walking the fold forward, each buffer that a
  later segment reads is identified with a stage of the reference's computation: a stretch of host operations applies
  the reference's own operations to earlier stages, and each region's output array is the reference's whole-array
  operation of the region's input arrays (the feature products, the layer finishes, the head). Between the segment
  that writes a buffer and the one that reads it nothing writes it. The last region's output is the result.
  Two facts about the inputs enter: a degree is never zero, so multiplying by its reciprocal is dividing by it; and
  under the precondition every graph number of a small-molecule node is one of the 64 graphs, so the head's row
  read by indicator and sum is the reference's row read.
-/
namespace Cert.KernelValue

open Idealize.ShloMosaic Idealize.ShloMosaic.TcCoe Idealize.SL.Sem Idealize.ShloMosaic.ValueIdx Idealize.ShloMosaic.StableHlo
open Cert.KernelIdeal Cert.KernelIdeal.Gen Cert.Forward Cert.RefOps

variable (m : (ℓ : Loc nD τ sig) → Buf (Elt Ideal) ℓ) (ρ : Dev nD → PrngReg) (c : Dev nD)

local notation "⟪" b "⟫" => Proc.devRef (τ := τ) Proc.tc b

/-! ## The protein graph -/

theorem featP_at2 : W2 m ρ c ⟪main_v1⟫ = featP (m ((c : Thread nD τ).loc main_arg0)) (m ((c : Thread nD τ).loc main_arg1)) := Cert.HostP.feat (W0 m ρ c)

theorem srcP_at2 : W2 m ρ c ⟪main_v3⟫ = srcP (m ((c : Thread nD τ).loc main_arg2)) := Cert.HostP.src (W0 m ρ c)

theorem dstP_at2 : W2 m ρ c ⟪main_v5⟫ = dstP (m ((c : Thread nD τ).loc main_arg2)) := Cert.HostP.dst (W0 m ρ c)

theorem coefP_at2 : W2 m ρ c ⟪main_v30⟫ = coefP (m ((c : Thread nD τ).loc main_arg2)) := Cert.HostP.coef (W0 m ρ c)

theorem rdP_at2 (r : Fin 100000) : W2 m ρ c ⟪main_v15⟫ (ix2 r (0 : Fin 1)) = Ideal.div 1 (degOfP (m ((c : Thread nD τ).loc main_arg2)) (ix1 r)) :=
  Cert.HostP.rd (W0 m ρ c) r

theorem degP_ne (r : Fin 100000) : degOfP (m ((c : Thread nD τ).loc main_arg2)) (ix1 r) ≠ 0 := Cert.PreFacts.degP_ne_zero _ r

/-- Region 0: the first layer's feature product. -/
theorem xw1P_at3 : W3 m ρ c ⟪main_v31⟫ = xw1P (m ((c : Thread nD τ).loc main_arg0)) (m ((c : Thread nD τ).loc main_arg1)) (m ((c : Thread nD τ).loc main_arg8)) := by
  refine (W3_arr m ρ c 2).trans ((Cert.Region0.array (V2 m ρ) c).trans ?_)
  show matP1 (W2 m ρ c ⟪main_v1⟫) (W2 m ρ c ⟪main_arg8⟫) = _
  rw [featP_at2, Cert.Carry.arg8_at2]
  rfl

theorem agg1P_at4 : W4 m ρ c ⟪main_v45⟫ = aggP (xw1P (m ((c : Thread nD τ).loc main_arg0)) (m ((c : Thread nD τ).loc main_arg1)) (m ((c : Thread nD τ).loc main_arg8))) (m ((c : Thread nD τ).loc main_arg2)) :=
  Cert.HostP.agg1 (W3 m ρ c) _ _ (xw1P_at3 m ρ c) ((Cert.Carry.v3_at3 m ρ c).trans (srcP_at2 m ρ c))
    ((Cert.Carry.v5_at3 m ρ c).trans (dstP_at2 m ρ c)) ((Cert.Carry.v30_at3 m ρ c).trans (coefP_at2 m ρ c))

theorem bias1P_at4 (k : Fin 128) : W4 m ρ c ⟪main_v46⟫ (ix2 (0 : Fin 1) k) = (m ((c : Thread nD τ).loc main_arg9)) (ix1 k) :=
  (Cert.HostP.bias1 (W3 m ρ c) k).trans (congrFun (Cert.Carry.arg9_at3 m ρ c) (ix1 k))

/-- Region 1: the first layer's finish, then the second layer's feature product. -/
theorem xw2P_at5 : W5 m ρ c ⟪main_v47⟫ = xw2P (m ((c : Thread nD τ).loc main_arg0)) (m ((c : Thread nD τ).loc main_arg1)) (m ((c : Thread nD τ).loc main_arg2)) (m ((c : Thread nD τ).loc main_arg8)) (m ((c : Thread nD τ).loc main_arg9)) (m ((c : Thread nD τ).loc main_arg10)) := by
  refine (W5_arr m ρ c 5).trans ((Cert.Region1.array (V4 m ρ) c (degOfP (m ((c : Thread nD τ).loc main_arg2))) (m ((c : Thread nD τ).loc main_arg9)) ?_ (degP_ne m c) (bias1P_at4 m ρ c)).trans ?_)
  · intro r
    show W4 m ρ c ⟪main_v15⟫ (ix2 r (0 : Fin 1)) = _
    rw [Cert.Carry.v15_at4]
    exact rdP_at2 m ρ c r
  · show matP2 (finishP (W4 m ρ c ⟪main_v45⟫) (W4 m ρ c ⟪main_v31⟫) _ _) (W4 m ρ c ⟪main_arg10⟫) = _
    rw [agg1P_at4, Cert.Carry.v31_at4, xw1P_at3, Cert.Carry.arg10_at4]
    rfl

theorem agg2P_at6 : W6 m ρ c ⟪main_v61⟫ = aggP (xw2P (m ((c : Thread nD τ).loc main_arg0)) (m ((c : Thread nD τ).loc main_arg1)) (m ((c : Thread nD τ).loc main_arg2)) (m ((c : Thread nD τ).loc main_arg8)) (m ((c : Thread nD τ).loc main_arg9)) (m ((c : Thread nD τ).loc main_arg10))) (m ((c : Thread nD τ).loc main_arg2)) :=
  Cert.HostP.agg2 (W5 m ρ c) _ _ (xw2P_at5 m ρ c) ((Cert.Carry.v3_at5 m ρ c).trans (srcP_at2 m ρ c))
    ((Cert.Carry.v5_at5 m ρ c).trans (dstP_at2 m ρ c)) ((Cert.Carry.v30_at5 m ρ c).trans (coefP_at2 m ρ c))

theorem bias2P_at6 (k : Fin 128) : W6 m ρ c ⟪main_v62⟫ (ix2 (0 : Fin 1) k) = (m ((c : Thread nD τ).loc main_arg11)) (ix1 k) :=
  (Cert.HostP.bias2 (W5 m ρ c) k).trans (congrFun (Cert.Carry.arg11_at5 m ρ c) (ix1 k))

/-- Region 2: the second layer's finish: the protein graph's node features. -/
theorem branchP_at7 : W7 m ρ c ⟪main_v63⟫ = branchP (m ((c : Thread nD τ).loc main_arg0)) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11)) := by
  refine (W7_arr m ρ c 4).trans ((Cert.Region2.array (V6 m ρ) c (degOfP (m ((c : Thread nD τ).loc main_arg2))) (m ((c : Thread nD τ).loc main_arg11)) ?_ (degP_ne m c) (bias2P_at6 m ρ c)).trans ?_)
  · intro r
    show W6 m ρ c ⟪main_v15⟫ (ix2 r (0 : Fin 1)) = _
    rw [Cert.Carry.v15_at6]
    exact rdP_at2 m ρ c r
  · show finishP (W6 m ρ c ⟪main_v61⟫) (W6 m ρ c ⟪main_v47⟫) _ _ = _
    rw [agg2P_at6, Cert.Carry.v47_at6, xw2P_at5]
    rfl

/-- The pooled table: the protein graph's node features averaged per graph. -/
theorem pool_at8 : W8 m ρ c ⟪main_v75⟫
    = pool (branchP (m ((c : Thread nD τ).loc main_arg0)) (m ((c : Thread nD τ).loc main_arg1)) (m ((c : Thread nD τ).loc main_arg2)) (m ((c : Thread nD τ).loc main_arg8)) (m ((c : Thread nD τ).loc main_arg9)) (m ((c : Thread nD τ).loc main_arg10)) (m ((c : Thread nD τ).loc main_arg11))) (m ((c : Thread nD τ).loc main_arg3)) := by
  refine (Cert.HostP.pooled (W7 m ρ c) _ (branchP_at7 m ρ c)).trans ?_
  rw [Cert.Carry.arg3_at7]

/-! ## The small-molecule graph -/

theorem featM_at10 : W10 m ρ c ⟪main_v77⟫ = featM (m ((c : Thread nD τ).loc main_arg4)) (m ((c : Thread nD τ).loc main_arg5)) := by
  refine (Cert.HostM.feat (W8 m ρ c)).trans ?_
  rw [Cert.Carry.arg4_at8, Cert.Carry.arg5_at8]

theorem srcM_at10 : W10 m ρ c ⟪main_v79⟫ = srcM (m ((c : Thread nD τ).loc main_arg6)) := by
  refine (Cert.HostM.src (W8 m ρ c)).trans ?_
  rw [Cert.Carry.arg6_at8]

theorem dstM_at10 : W10 m ρ c ⟪main_v81⟫ = dstM (m ((c : Thread nD τ).loc main_arg6)) := by
  refine (Cert.HostM.dst (W8 m ρ c)).trans ?_
  rw [Cert.Carry.arg6_at8]

theorem coefM_at10 : W10 m ρ c ⟪main_v106⟫ = coefM (m ((c : Thread nD τ).loc main_arg6)) := by
  refine (Cert.HostM.coef (W8 m ρ c)).trans ?_
  rw [Cert.Carry.arg6_at8]

theorem rdM_at10 (r : Fin 50000) : W10 m ρ c ⟪main_v91⟫ (ix2 r (0 : Fin 1)) = Ideal.div 1 (degOfM (m ((c : Thread nD τ).loc main_arg6)) (ix1 r)) := by
  refine (Cert.HostM.rd (W8 m ρ c) r).trans ?_
  rw [Cert.Carry.arg6_at8]

theorem degM_ne (r : Fin 50000) : degOfM (m ((c : Thread nD τ).loc main_arg6)) (ix1 r) ≠ 0 := Cert.PreFacts.degM_ne_zero _ r

/-- Region 3: the first layer's feature product. -/
theorem xw1M_at11 : W11 m ρ c ⟪main_v107⟫ = xw1M (m ((c : Thread nD τ).loc main_arg4)) (m ((c : Thread nD τ).loc main_arg5)) (m ((c : Thread nD τ).loc main_arg12)) := by
  refine (W11_arr m ρ c 2).trans ((Cert.Region3.array (V10 m ρ) c).trans ?_)
  show matM1 (W10 m ρ c ⟪main_v77⟫) (W10 m ρ c ⟪main_arg12⟫) = _
  rw [featM_at10, Cert.Carry.arg12_at10]
  rfl

theorem agg1M_at12 : W12 m ρ c ⟪main_v121⟫ = aggM (xw1M (m ((c : Thread nD τ).loc main_arg4)) (m ((c : Thread nD τ).loc main_arg5)) (m ((c : Thread nD τ).loc main_arg12))) (m ((c : Thread nD τ).loc main_arg6)) :=
  Cert.HostM.agg1 (W11 m ρ c) _ _ (xw1M_at11 m ρ c) ((Cert.Carry.v79_at11 m ρ c).trans (srcM_at10 m ρ c))
    ((Cert.Carry.v81_at11 m ρ c).trans (dstM_at10 m ρ c)) ((Cert.Carry.v106_at11 m ρ c).trans (coefM_at10 m ρ c))

theorem bias1M_at12 (k : Fin 128) : W12 m ρ c ⟪main_v122⟫ (ix2 (0 : Fin 1) k) = (m ((c : Thread nD τ).loc main_arg13)) (ix1 k) :=
  (Cert.HostM.bias1 (W11 m ρ c) k).trans (congrFun (Cert.Carry.arg13_at11 m ρ c) (ix1 k))

/-- Region 4: the first layer's finish, then the second layer's feature product. -/
theorem xw2M_at13 : W13 m ρ c ⟪main_v123⟫ = xw2M (m ((c : Thread nD τ).loc main_arg4)) (m ((c : Thread nD τ).loc main_arg5)) (m ((c : Thread nD τ).loc main_arg6)) (m ((c : Thread nD τ).loc main_arg12)) (m ((c : Thread nD τ).loc main_arg13)) (m ((c : Thread nD τ).loc main_arg14)) := by
  refine (W13_arr m ρ c 5).trans ((Cert.Region4.array (V12 m ρ) c (degOfM (m ((c : Thread nD τ).loc main_arg6))) (m ((c : Thread nD τ).loc main_arg13)) ?_ (degM_ne m c) (bias1M_at12 m ρ c)).trans ?_)
  · intro r
    show W12 m ρ c ⟪main_v91⟫ (ix2 r (0 : Fin 1)) = _
    rw [Cert.Carry.v91_at12]
    exact rdM_at10 m ρ c r
  · show matM2 (finishM (W12 m ρ c ⟪main_v121⟫) (W12 m ρ c ⟪main_v107⟫) _ _) (W12 m ρ c ⟪main_arg14⟫) = _
    rw [agg1M_at12, Cert.Carry.v107_at12, xw1M_at11, Cert.Carry.arg14_at12]
    rfl

theorem agg2M_at14 : W14 m ρ c ⟪main_v137⟫ = aggM (xw2M (m ((c : Thread nD τ).loc main_arg4)) (m ((c : Thread nD τ).loc main_arg5)) (m ((c : Thread nD τ).loc main_arg6)) (m ((c : Thread nD τ).loc main_arg12)) (m ((c : Thread nD τ).loc main_arg13)) (m ((c : Thread nD τ).loc main_arg14))) (m ((c : Thread nD τ).loc main_arg6)) :=
  Cert.HostM.agg2 (W13 m ρ c) _ _ (xw2M_at13 m ρ c) ((Cert.Carry.v79_at13 m ρ c).trans (srcM_at10 m ρ c))
    ((Cert.Carry.v81_at13 m ρ c).trans (dstM_at10 m ρ c)) ((Cert.Carry.v106_at13 m ρ c).trans (coefM_at10 m ρ c))

theorem bias2M_at14 (k : Fin 128) : W14 m ρ c ⟪main_v138⟫ (ix2 (0 : Fin 1) k) = (m ((c : Thread nD τ).loc main_arg15)) (ix1 k) :=
  (Cert.HostM.bias2 (W13 m ρ c) k).trans (congrFun (Cert.Carry.arg15_at13 m ρ c) (ix1 k))

/-- Region 5: the second layer's finish: the small-molecule graph's node features. -/
theorem branchM_at15 : W15 m ρ c ⟪main_v139⟫ = branchM (m ((c : Thread nD τ).loc main_arg4)) (m ((c : Thread nD τ).loc main_arg5)) (m ((c : Thread nD τ).loc main_arg6)) (m ((c : Thread nD τ).loc main_arg12)) (m ((c : Thread nD τ).loc main_arg13)) (m ((c : Thread nD τ).loc main_arg14)) (m ((c : Thread nD τ).loc main_arg15)) := by
  refine (W15_arr m ρ c 4).trans ((Cert.Region5.array (V14 m ρ) c (degOfM (m ((c : Thread nD τ).loc main_arg6))) (m ((c : Thread nD τ).loc main_arg15)) ?_ (degM_ne m c) (bias2M_at14 m ρ c)).trans ?_)
  · intro r
    show W14 m ρ c ⟪main_v91⟫ (ix2 r (0 : Fin 1)) = _
    rw [Cert.Carry.v91_at14]
    exact rdM_at10 m ρ c r
  · show finishM (W14 m ρ c ⟪main_v137⟫) (W14 m ρ c ⟪main_v123⟫) _ _ = _
    rw [agg2M_at14, Cert.Carry.v123_at14, xw2M_at13]
    rfl

/-! ## The head -/

theorem graphs_at16 (r : Fin 50000) : W16 m ρ c ⟪main_v140⟫ (ix2 r (0 : Fin 1)) = (m ((c : Thread nD τ).loc main_arg7)) (ix1 r) :=
  (Cert.HostM.graphs (W15 m ρ c) r).trans (congrFun (Cert.Carry.arg7_at15 m ρ c) (ix1 r))

theorem headBias1_at16 (k : Fin 128) : W16 m ρ c ⟪main_v141⟫ (ix2 (0 : Fin 1) k) = (m ((c : Thread nD τ).loc main_arg17)) (ix1 k) :=
  (Cert.HostM.headBias1 (W15 m ρ c) k).trans (congrFun (Cert.Carry.arg17_at15 m ρ c) (ix1 k))

theorem headBias2_at16 (k : Fin 3) : W16 m ρ c ⟪main_v142⟫ (ix2 (0 : Fin 1) k) = (m ((c : Thread nD τ).loc main_arg19)) (ix1 k) :=
  (Cert.HostM.headBias2 (W15 m ρ c) k).trans (congrFun (Cert.Carry.arg19_at15 m ρ c) (ix1 k))

/-- Region 6, the head: the program's result is the reference's function of the twenty arguments. -/
theorem result (hpre : Cert.Pre_KernelIdeal m) : W17 m ρ c ⟪main_v143⟫
    = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W17_arr m ρ c 7).trans ((Cert.Region6.array (V16 m ρ) c (m ((c : Thread nD τ).loc main_arg7)) (m ((c : Thread nD τ).loc main_arg17)) (m ((c : Thread nD τ).loc main_arg19))
    (graphs_at16 m ρ c) (Cert.PreFacts.batch_range m hpre c) (headBias1_at16 m ρ c) (headBias2_at16 m ρ c)).trans ?_)
  show headM (W16 m ρ c ⟪main_v139⟫) (W16 m ρ c ⟪main_v75⟫) _ (W16 m ρ c ⟪main_arg16⟫) _ (W16 m ρ c ⟪main_arg18⟫) _ = _
  rw [Cert.Carry.v139_at16, branchM_at15, Cert.Carry.v75_at16, pool_at8, Cert.Carry.arg16_at16, Cert.Carry.arg18_at16]
  rfl

end Cert.KernelValue

end
-- ==== Proof.RefValue.lean ====
import proofs.«429129_j3384434230027_2_alg».proof.Proof.Gen.ReferenceIdeal.Run
import proofs.«429129_j3384434230027_2_alg».proof.Proof.Forward

set_option maxRecDepth 16384

noncomputable section

/-
  The reference program's result as a function of its arguments: its run's composed term is, operation for
  operation, the whole computation as Proof/Forward.lean spells it from the same operations — on each graph the node
  features, two graph convolutions whose degrees and edge coefficients the reference recomputes per layer by the same
  operations of the same edge index, the protein graph's features averaged per graph, and the head.
-/
namespace Cert.RefValue

open Idealize.ShloMosaic Idealize.ShloMosaic.TcCoe Idealize.SL.Sem
open Cert.ReferenceIdeal Cert.Forward Cert.RefOps

set_option maxHeartbeats 4000000 in
theorem result (m : (ℓ : Loc nD τ sig) → Buf (Elt Ideal) ℓ) (c : Dev nD) :
    Cert.ReferenceIdeal.Value.res_main_v216 (F := Ideal) m c
      = forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  unfold Cert.ReferenceIdeal.Value.res_main_v216
  rfl

end Cert.RefValue

end
-- ==== Proof.lean ====
/-
  The certificate of a graph network's kernel program against its reference, over the extended reals.

  Both programs run two graph convolutions on a protein graph and on a small-molecule graph, average the protein
  graph's node features per graph into a 64-row table, and pass each small-molecule node's features, joined with its
  graph's row of that table, through a two-layer head. The kernel program does the dense parts in seven regions —
  per graph a feature product, a layer finish fused with the next product, a layer finish, and at the end the head —
  and the index-driven parts (gathers along edges, sums over incoming edges, the pooling) on the host by the
  reference's own operations.

  At the ideal instance a change of float format is the identity, so each region's output array is the reference's
  whole-array operation of the region's input arrays. Two things differ in form. The kernel multiplies by the
  reciprocal of a node's degree where the reference divides by the degree: the same off zero, and a degree is one more
  than a count. And the head reads a node's graph's row of the table by multiplying with a row of indicators and
  summing over the 64 graphs, where the reference reads the row directly, clamping its index into the table: the same
  when the graph number is one of the 64 graphs, which the precondition states (outside that range the reference
  itself indexes out of range).

  The three frames are the generated ones (the reference's is its generated run with the result dropped);
  the idealization rewrote nothing, so its statement is trivial; the value claim joins the kernel program's run with
  its result named, that result as the function `Cert.Forward.forward` of the arguments (Proof/KernelValue.lean), and
  the reference's run, whose composed term is the same function (Proof/RefValue.lean).
-/
import proofs.«429129_j3384434230027_2_alg».proof.Defs
import proofs.«429129_j3384434230027_2_alg».proof.Proof.Gen.Kernel
import proofs.«429129_j3384434230027_2_alg».proof.Proof.Gen.Kernel.Frame
import proofs.«429129_j3384434230027_2_alg».proof.Proof.Gen.KernelIdeal
import proofs.«429129_j3384434230027_2_alg».proof.Proof.Gen.KernelIdeal.Frame
import proofs.«429129_j3384434230027_2_alg».proof.Proof.Gen.ReferenceIdeal
import proofs.«429129_j3384434230027_2_alg».proof.Proof.Gen.ReferenceIdeal.Run
import proofs.«429129_j3384434230027_2_alg».proof.Proof.Gen.Pre_finite_inputs
import proofs.«429129_j3384434230027_2_alg».proof.Proof.KernelRun
import proofs.«429129_j3384434230027_2_alg».proof.Proof.KernelValue
import proofs.«429129_j3384434230027_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result: the function
    `Cert.Forward.forward` of the arguments. -/
theorem algebraic : Cert.algebraic_KernelIdeal_ReferenceIdeal := by
  intro m ρ m' ρ' hpre hagree
  refine ⟨fun c => Cert.KernelIdeal.Gen.W17 m ρ c (Proc.devRef .tc Cert.KernelIdeal.main_v143),
    Cert.KernelIdeal.RunNamed.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  refine (Cert.RefValue.result m' c).trans ?_
  rw [h0, h1, h2, h3, h4, h5, h6, h7, h8, h9, h10, h11, h12, h13, h14, h15, h16, h17, h18, h19]
  exact (Cert.KernelValue.result m ρ c hpre).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
